-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![49152, 768]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S49152x768 : Shape := ⟨2, ![49152, 768]⟩
abbrev S_ : Shape := ⟨0, ![]⟩

class Facts : Prop where
  bcast_S_S49152x768 : S_.BroadcastsInDim S49152x768 (![] : Fin 0 → Fin S49152x768.rank)
  reducesTo_S49152x768_S_d0_1 : S49152x768.ReducesTo [0, 1] S_
  h_S_ : 0 < S_.numel

variable [Facts]

def fn {F : FTy → Type} [FloatOps F] (main_arg0 : FVec F S49152x768 .f32) : IVec S_ 1 :=
  let main_v0 : FVec F S49152x768 .f32 := Host.absf main_arg0
  let main_cst : FVec F S_ .f32 := constant S_ .f32 0x7F800000#32
  let main_v1 : FVec F S49152x768 .f32 := broadcastInDim S49152x768 ![] bcast_S_S49152x768 main_cst
  let main_v2 : IVec S49152x768 1 := cmpf .olt main_v0 main_v1
  let main_c : IVec S_ 1 := constantI S_ 1 1#1
  let main_v3 : IVec S_ 1 := (fun x v => Host.reduce IntOp.andi x v reducesTo_S49152x768_S_d0_1 h_S_) main_v2 main_c
  main_v3
-- ==== Kernel.lean ====
abbrev S1536x768 : Shape := ⟨2, ![1536, 768]⟩
abbrev S1x768 : Shape := ⟨2, ![1, 768]⟩
abbrev S31x1x768 : Shape := ⟨3, ![31, 1, 768]⟩
abbrev S31 : Shape := ⟨1, ![31]⟩
abbrev S_ : Shape := ⟨0, ![]⟩
abbrev S768 : Shape := ⟨1, ![768]⟩
abbrev S1 : Shape := ⟨1, ![1]⟩
abbrev S1x1x768 : Shape := ⟨3, ![1, 1, 768]⟩
abbrev S31x768 : Shape := ⟨2, ![31, 768]⟩

abbrev nBuf : Space → Nat
  | .hbm => 2
  | .vmem => 4
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1536x768, .f32⟩
  | .local _ .vmem, ⟨1, _⟩ => ⟨S1x768, .f32⟩
  | .local _ .vmem, ⟨2, _⟩ => ⟨S1x768, .f32⟩
  | .local _ .vmem, ⟨3, _⟩ => ⟨S31x1x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_dev32 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_128 : BitVec 32 := 1#32
  let v134 : BitVec 32 := Scalar.addi v2 c1_i32_128
  let c32_i32_129 : BitVec 32 := 32#32
  let v135 : BitVec 32 := Scalar.remsi v134 c32_i32_129
  let c1_i32_133 : BitVec 32 := 1#32
  let v136 : BitVec 32 := Scalar.muli v135 c1_i32_133
  let v137 : BitVec 32 := Scalar.addi c0_i32_134 v136
  v137.toNat
def k0_dev33 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_137 : BitVec 32 := 2#32
  let v144 : BitVec 32 := Scalar.addi v2 c2_i32_137
  let c32_i32_138 : BitVec 32 := 32#32
  let v145 : BitVec 32 := Scalar.remsi v144 c32_i32_138
  let c1_i32_142 : BitVec 32 := 1#32
  let v146 : BitVec 32 := Scalar.muli v145 c1_i32_142
  let v147 : BitVec 32 := Scalar.addi c0_i32_143 v146
  v147.toNat
def k0_dev34 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_146 : BitVec 32 := 3#32
  let v154 : BitVec 32 := Scalar.addi v2 c3_i32_146
  let c32_i32_147 : BitVec 32 := 32#32
  let v155 : BitVec 32 := Scalar.remsi v154 c32_i32_147
  let c1_i32_151 : BitVec 32 := 1#32
  let v156 : BitVec 32 := Scalar.muli v155 c1_i32_151
  let v157 : BitVec 32 := Scalar.addi c0_i32_152 v156
  v157.toNat
def k0_dev35 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_155 : BitVec 32 := 4#32
  let v164 : BitVec 32 := Scalar.addi v2 c4_i32_155
  let c32_i32_156 : BitVec 32 := 32#32
  let v165 : BitVec 32 := Scalar.remsi v164 c32_i32_156
  let c1_i32_160 : BitVec 32 := 1#32
  let v166 : BitVec 32 := Scalar.muli v165 c1_i32_160
  let v167 : BitVec 32 := Scalar.addi c0_i32_161 v166
  v167.toNat
def k0_dev36 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_164 : BitVec 32 := 5#32
  let v174 : BitVec 32 := Scalar.addi v2 c5_i32_164
  let c32_i32_165 : BitVec 32 := 32#32
  let v175 : BitVec 32 := Scalar.remsi v174 c32_i32_165
  let c1_i32_169 : BitVec 32 := 1#32
  let v176 : BitVec 32 := Scalar.muli v175 c1_i32_169
  let v177 : BitVec 32 := Scalar.addi c0_i32_170 v176
  v177.toNat
def k0_dev37 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_173 : BitVec 32 := 6#32
  let v184 : BitVec 32 := Scalar.addi v2 c6_i32_173
  let c32_i32_174 : BitVec 32 := 32#32
  let v185 : BitVec 32 := Scalar.remsi v184 c32_i32_174
  let c1_i32_178 : BitVec 32 := 1#32
  let v186 : BitVec 32 := Scalar.muli v185 c1_i32_178
  let v187 : BitVec 32 := Scalar.addi c0_i32_179 v186
  v187.toNat
def k0_dev38 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_182 : BitVec 32 := 7#32
  let v194 : BitVec 32 := Scalar.addi v2 c7_i32_182
  let c32_i32_183 : BitVec 32 := 32#32
  let v195 : BitVec 32 := Scalar.remsi v194 c32_i32_183
  let c1_i32_187 : BitVec 32 := 1#32
  let v196 : BitVec 32 := Scalar.muli v195 c1_i32_187
  let v197 : BitVec 32 := Scalar.addi c0_i32_188 v196
  v197.toNat
def k0_dev39 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_191 : BitVec 32 := 8#32
  let v204 : BitVec 32 := Scalar.addi v2 c8_i32_191
  let c32_i32_192 : BitVec 32 := 32#32
  let v205 : BitVec 32 := Scalar.remsi v204 c32_i32_192
  let c1_i32_196 : BitVec 32 := 1#32
  let v206 : BitVec 32 := Scalar.muli v205 c1_i32_196
  let v207 : BitVec 32 := Scalar.addi c0_i32_197 v206
  v207.toNat
def k0_dev40 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_200 : BitVec 32 := 9#32
  let v214 : BitVec 32 := Scalar.addi v2 c9_i32_200
  let c32_i32_201 : BitVec 32 := 32#32
  let v215 : BitVec 32 := Scalar.remsi v214 c32_i32_201
  let c1_i32_205 : BitVec 32 := 1#32
  let v216 : BitVec 32 := Scalar.muli v215 c1_i32_205
  let v217 : BitVec 32 := Scalar.addi c0_i32_206 v216
  v217.toNat
def k0_dev41 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_209 : BitVec 32 := 10#32
  let v224 : BitVec 32 := Scalar.addi v2 c10_i32_209
  let c32_i32_210 : BitVec 32 := 32#32
  let v225 : BitVec 32 := Scalar.remsi v224 c32_i32_210
  let c1_i32_214 : BitVec 32 := 1#32
  let v226 : BitVec 32 := Scalar.muli v225 c1_i32_214
  let v227 : BitVec 32 := Scalar.addi c0_i32_215 v226
  v227.toNat
def k0_dev42 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_218 : BitVec 32 := 11#32
  let v234 : BitVec 32 := Scalar.addi v2 c11_i32_218
  let c32_i32_219 : BitVec 32 := 32#32
  let v235 : BitVec 32 := Scalar.remsi v234 c32_i32_219
  let c1_i32_223 : BitVec 32 := 1#32
  let v236 : BitVec 32 := Scalar.muli v235 c1_i32_223
  let v237 : BitVec 32 := Scalar.addi c0_i32_224 v236
  v237.toNat
def k0_dev43 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_227 : BitVec 32 := 12#32
  let v244 : BitVec 32 := Scalar.addi v2 c12_i32_227
  let c32_i32_228 : BitVec 32 := 32#32
  let v245 : BitVec 32 := Scalar.remsi v244 c32_i32_228
  let c1_i32_232 : BitVec 32 := 1#32
  let v246 : BitVec 32 := Scalar.muli v245 c1_i32_232
  let v247 : BitVec 32 := Scalar.addi c0_i32_233 v246
  v247.toNat
def k0_dev44 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_236 : BitVec 32 := 13#32
  let v254 : BitVec 32 := Scalar.addi v2 c13_i32_236
  let c32_i32_237 : BitVec 32 := 32#32
  let v255 : BitVec 32 := Scalar.remsi v254 c32_i32_237
  let c1_i32_241 : BitVec 32 := 1#32
  let v256 : BitVec 32 := Scalar.muli v255 c1_i32_241
  let v257 : BitVec 32 := Scalar.addi c0_i32_242 v256
  v257.toNat
def k0_dev45 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_245 : BitVec 32 := 14#32
  let v264 : BitVec 32 := Scalar.addi v2 c14_i32_245
  let c32_i32_246 : BitVec 32 := 32#32
  let v265 : BitVec 32 := Scalar.remsi v264 c32_i32_246
  let c1_i32_250 : BitVec 32 := 1#32
  let v266 : BitVec 32 := Scalar.muli v265 c1_i32_250
  let v267 : BitVec 32 := Scalar.addi c0_i32_251 v266
  v267.toNat
def k0_dev46 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_254 : BitVec 32 := 15#32
  let v274 : BitVec 32 := Scalar.addi v2 c15_i32_254
  let c32_i32_255 : BitVec 32 := 32#32
  let v275 : BitVec 32 := Scalar.remsi v274 c32_i32_255
  let c1_i32_259 : BitVec 32 := 1#32
  let v276 : BitVec 32 := Scalar.muli v275 c1_i32_259
  let v277 : BitVec 32 := Scalar.addi c0_i32_260 v276
  v277.toNat
def k0_dev47 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_263 : BitVec 32 := 16#32
  let v284 : BitVec 32 := Scalar.addi v2 c16_i32_263
  let c32_i32_264 : BitVec 32 := 32#32
  let v285 : BitVec 32 := Scalar.remsi v284 c32_i32_264
  let c1_i32_268 : BitVec 32 := 1#32
  let v286 : BitVec 32 := Scalar.muli v285 c1_i32_268
  let v287 : BitVec 32 := Scalar.addi c0_i32_269 v286
  v287.toNat
def k0_dev48 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_272 : BitVec 32 := 17#32
  let v294 : BitVec 32 := Scalar.addi v2 c17_i32_272
  let c32_i32_273 : BitVec 32 := 32#32
  let v295 : BitVec 32 := Scalar.remsi v294 c32_i32_273
  let c1_i32_277 : BitVec 32 := 1#32
  let v296 : BitVec 32 := Scalar.muli v295 c1_i32_277
  let v297 : BitVec 32 := Scalar.addi c0_i32_278 v296
  v297.toNat
def k0_dev49 (d0 : Dev nD) : Nat :=
  let c0_i32_287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_281 : BitVec 32 := 18#32
  let v304 : BitVec 32 := Scalar.addi v2 c18_i32_281
  let c32_i32_282 : BitVec 32 := 32#32
  let v305 : BitVec 32 := Scalar.remsi v304 c32_i32_282
  let c1_i32_286 : BitVec 32 := 1#32
  let v306 : BitVec 32 := Scalar.muli v305 c1_i32_286
  let v307 : BitVec 32 := Scalar.addi c0_i32_287 v306
  v307.toNat
def k0_dev50 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_290 : BitVec 32 := 19#32
  let v314 : BitVec 32 := Scalar.addi v2 c19_i32_290
  let c32_i32_291 : BitVec 32 := 32#32
  let v315 : BitVec 32 := Scalar.remsi v314 c32_i32_291
  let c1_i32_295 : BitVec 32 := 1#32
  let v316 : BitVec 32 := Scalar.muli v315 c1_i32_295
  let v317 : BitVec 32 := Scalar.addi c0_i32_296 v316
  v317.toNat
def k0_dev51 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_299 : BitVec 32 := 20#32
  let v324 : BitVec 32 := Scalar.addi v2 c20_i32_299
  let c32_i32_300 : BitVec 32 := 32#32
  let v325 : BitVec 32 := Scalar.remsi v324 c32_i32_300
  let c1_i32_304 : BitVec 32 := 1#32
  let v326 : BitVec 32 := Scalar.muli v325 c1_i32_304
  let v327 : BitVec 32 := Scalar.addi c0_i32_305 v326
  v327.toNat
def k0_dev52 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_308 : BitVec 32 := 21#32
  let v334 : BitVec 32 := Scalar.addi v2 c21_i32_308
  let c32_i32_309 : BitVec 32 := 32#32
  let v335 : BitVec 32 := Scalar.remsi v334 c32_i32_309
  let c1_i32_313 : BitVec 32 := 1#32
  let v336 : BitVec 32 := Scalar.muli v335 c1_i32_313
  let v337 : BitVec 32 := Scalar.addi c0_i32_314 v336
  v337.toNat
def k0_dev53 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_317 : BitVec 32 := 22#32
  let v344 : BitVec 32 := Scalar.addi v2 c22_i32_317
  let c32_i32_318 : BitVec 32 := 32#32
  let v345 : BitVec 32 := Scalar.remsi v344 c32_i32_318
  let c1_i32_322 : BitVec 32 := 1#32
  let v346 : BitVec 32 := Scalar.muli v345 c1_i32_322
  let v347 : BitVec 32 := Scalar.addi c0_i32_323 v346
  v347.toNat
def k0_dev54 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_326 : BitVec 32 := 23#32
  let v354 : BitVec 32 := Scalar.addi v2 c23_i32_326
  let c32_i32_327 : BitVec 32 := 32#32
  let v355 : BitVec 32 := Scalar.remsi v354 c32_i32_327
  let c1_i32_331 : BitVec 32 := 1#32
  let v356 : BitVec 32 := Scalar.muli v355 c1_i32_331
  let v357 : BitVec 32 := Scalar.addi c0_i32_332 v356
  v357.toNat
def k0_dev55 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_335 : BitVec 32 := 24#32
  let v364 : BitVec 32 := Scalar.addi v2 c24_i32_335
  let c32_i32_336 : BitVec 32 := 32#32
  let v365 : BitVec 32 := Scalar.remsi v364 c32_i32_336
  let c1_i32_340 : BitVec 32 := 1#32
  let v366 : BitVec 32 := Scalar.muli v365 c1_i32_340
  let v367 : BitVec 32 := Scalar.addi c0_i32_341 v366
  v367.toNat
def k0_dev56 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_344 : BitVec 32 := 25#32
  let v374 : BitVec 32 := Scalar.addi v2 c25_i32_344
  let c32_i32_345 : BitVec 32 := 32#32
  let v375 : BitVec 32 := Scalar.remsi v374 c32_i32_345
  let c1_i32_349 : BitVec 32 := 1#32
  let v376 : BitVec 32 := Scalar.muli v375 c1_i32_349
  let v377 : BitVec 32 := Scalar.addi c0_i32_350 v376
  v377.toNat
def k0_dev57 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_353 : BitVec 32 := 26#32
  let v384 : BitVec 32 := Scalar.addi v2 c26_i32_353
  let c32_i32_354 : BitVec 32 := 32#32
  let v385 : BitVec 32 := Scalar.remsi v384 c32_i32_354
  let c1_i32_358 : BitVec 32 := 1#32
  let v386 : BitVec 32 := Scalar.muli v385 c1_i32_358
  let v387 : BitVec 32 := Scalar.addi c0_i32_359 v386
  v387.toNat
def k0_dev58 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_362 : BitVec 32 := 27#32
  let v394 : BitVec 32 := Scalar.addi v2 c27_i32_362
  let c32_i32_363 : BitVec 32 := 32#32
  let v395 : BitVec 32 := Scalar.remsi v394 c32_i32_363
  let c1_i32_367 : BitVec 32 := 1#32
  let v396 : BitVec 32 := Scalar.muli v395 c1_i32_367
  let v397 : BitVec 32 := Scalar.addi c0_i32_368 v396
  v397.toNat
def k0_dev59 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_371 : BitVec 32 := 28#32
  let v404 : BitVec 32 := Scalar.addi v2 c28_i32_371
  let c32_i32_372 : BitVec 32 := 32#32
  let v405 : BitVec 32 := Scalar.remsi v404 c32_i32_372
  let c1_i32_376 : BitVec 32 := 1#32
  let v406 : BitVec 32 := Scalar.muli v405 c1_i32_376
  let v407 : BitVec 32 := Scalar.addi c0_i32_377 v406
  v407.toNat
def k0_dev60 (d0 : Dev nD) : Nat :=
  let c0_i32_386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_380 : BitVec 32 := 29#32
  let v414 : BitVec 32 := Scalar.addi v2 c29_i32_380
  let c32_i32_381 : BitVec 32 := 32#32
  let v415 : BitVec 32 := Scalar.remsi v414 c32_i32_381
  let c1_i32_385 : BitVec 32 := 1#32
  let v416 : BitVec 32 := Scalar.muli v415 c1_i32_385
  let v417 : BitVec 32 := Scalar.addi c0_i32_386 v416
  v417.toNat
def k0_dev61 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_389 : BitVec 32 := 30#32
  let v424 : BitVec 32 := Scalar.addi v2 c30_i32_389
  let c32_i32_390 : BitVec 32 := 32#32
  let v425 : BitVec 32 := Scalar.remsi v424 c32_i32_390
  let c1_i32_394 : BitVec 32 := 1#32
  let v426 : BitVec 32 := Scalar.muli v425 c1_i32_394
  let v427 : BitVec 32 := Scalar.addi c0_i32_395 v426
  v427.toNat
def k0_dev62 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_398 : BitVec 32 := 31#32
  let v434 : BitVec 32 := Scalar.addi v2 c31_i32_398
  let c32_i32_399 : BitVec 32 := 32#32
  let v435 : BitVec 32 := Scalar.remsi v434 c32_i32_399
  let c1_i32_403 : BitVec 32 := 1#32
  let v436 : BitVec 32 := Scalar.muli v435 c1_i32_403
  let v437 : BitVec 32 := Scalar.addi c0_i32_404 v436
  v437.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  reduces_S1536x768_S768 : S1536x768.Reduces [0] S768
  inb_S1x768_S1x768_0_0 : ∀ a, (![0, 0] : Fin 2 → Nat) a + S1x768.size a ≤ S1x768.size a
  h_S1x768 : 0 < S1x768.numel
  shapeCasts_S1x768_S768 : S1x768.ShapeCasts S768
  shapeCasts_S768_S1x768 : S768.ShapeCasts S1x768
  hamt_31 : (31#32 : BitVec 32).msb = false
  inb_S31_S1_0 : ∀ a, (![0] : Fin 1 → Nat) a + S1.size a ≤ S31.size a
  squeezes_S1_S_ : S1.Squeezes S_
  inb_S31x1x768_S1x1x768_0_0_0 : ∀ a, (![0, 0, 0] : Fin 3 → Nat) a + S1x1x768.size a ≤ S31x1x768.size a
  squeezes_S1x1x768_S1x768 : S1x1x768.Squeezes S1x768
  inb_S31_S1_1 : ∀ a, (![1] : Fin 1 → Nat) a + S1.size a ≤ S31.size a
  inb_S31x1x768_S1x1x768_1_0_0 : ∀ a, (![1, 0, 0] : Fin 3 → Nat) a + S1x1x768.size a ≤ S31x1x768.size a
  inb_S31_S1_2 : ∀ a, (![2] : Fin 1 → Nat) a + S1.size a ≤ S31.size a
  inb_S31x1x768_S1x1x768_2_0_0 : ∀ a, (![2, 0, 0] : Fin 3 → Nat) a + S1x1x768.size a ≤ S31x1x768.size a
  inb_S31_S1_3 : ∀ a, (![3] : Fin 1 → Nat) a + S1.size a ≤ S31.size a
  inb_S31x1x768_S1x1x768_3_0_0 : ∀ a, (![3, 0, 0] : Fin 3 → Nat) a + S1x1x768.size a ≤ S31x1x768.size a
  inb_S31_S1_4 : ∀ a, (![4] : Fin 1 → Nat) a + S1.size a ≤ S31.size a
  inb_S31x1x768_S1x1x768_4_0_0 : ∀ a, (![4, 0, 0] : Fin 3 → Nat) a + S1x1x768.size a ≤ S31x1x768.size a
  inb_S31_S1_5 : ∀ a, (![5] : Fin 1 → Nat) a + S1.size a ≤ S31.size a
  inb_S31x1x768_S1x1x768_5_0_0 : ∀ a, (![5, 0, 0] : Fin 3 → Nat) a + S1x1x768.size a ≤ S31x1x768.size a
  inb_S31_S1_6 : ∀ a, (![6] : Fin 1 → Nat) a + S1.size a ≤ S31.size a
  inb_S31x1x768_S1x1x768_6_0_0 : ∀ a, (![6, 0, 0] : Fin 3 → Nat) a + S1x1x768.size a ≤ S31x1x768.size a
  inb_S31_S1_7 : ∀ a, (![7] : Fin 1 → Nat) a + S1.size a ≤ S31.size a
  inb_S31x1x768_S1x1x768_7_0_0 : ∀ a, (![7, 0, 0] : Fin 3 → Nat) a + S1x1x768.size a ≤ S31x1x768.size a
  inb_S31_S1_8 : ∀ a, (![8] : Fin 1 → Nat) a + S1.size a ≤ S31.size a
  inb_S31x1x768_S1x1x768_8_0_0 : ∀ a, (![8, 0, 0] : Fin 3 → Nat) a + S1x1x768.size a ≤ S31x1x768.size a
  inb_S31_S1_9 : ∀ a, (![9] : Fin 1 → Nat) a + S1.size a ≤ S31.size a
  inb_S31x1x768_S1x1x768_9_0_0 : ∀ a, (![9, 0, 0] : Fin 3 → Nat) a + S1x1x768.size a ≤ S31x1x768.size a
  inb_S31_S1_10 : ∀ a, (![10] : Fin 1 → Nat) a + S1.size a ≤ S31.size a
  inb_S31x1x768_S1x1x768_10_0_0 : ∀ a, (![10, 0, 0] : Fin 3 → Nat) a + S1x1x768.size a ≤ S31x1x768.size a
  inb_S31_S1_11 : ∀ a, (![11] : Fin 1 → Nat) a + S1.size a ≤ S31.size a
  inb_S31x1x768_S1x1x768_11_0_0 : ∀ a, (![11, 0, 0] : Fin 3 → Nat) a + S1x1x768.size a ≤ S31x1x768.size a
  inb_S31_S1_12 : ∀ a, (![12] : Fin 1 → Nat) a + S1.size a ≤ S31.size a
  inb_S31x1x768_S1x1x768_12_0_0 : ∀ a, (![12, 0, 0] : Fin 3 → Nat) a + S1x1x768.size a ≤ S31x1x768.size a
  inb_S31_S1_13 : ∀ a, (![13] : Fin 1 → Nat) a + S1.size a ≤ S31.size a
  inb_S31x1x768_S1x1x768_13_0_0 : ∀ a, (![13, 0, 0] : Fin 3 → Nat) a + S1x1x768.size a ≤ S31x1x768.size a
  inb_S31_S1_14 : ∀ a, (![14] : Fin 1 → Nat) a + S1.size a ≤ S31.size a
  inb_S31x1x768_S1x1x768_14_0_0 : ∀ a, (![14, 0, 0] : Fin 3 → Nat) a + S1x1x768.size a ≤ S31x1x768.size a
  inb_S31_S1_15 : ∀ a, (![15] : Fin 1 → Nat) a + S1.size a ≤ S31.size a
  inb_S31x1x768_S1x1x768_15_0_0 : ∀ a, (![15, 0, 0] : Fin 3 → Nat) a + S1x1x768.size a ≤ S31x1x768.size a
  inb_S31_S1_16 : ∀ a, (![16] : Fin 1 → Nat) a + S1.size a ≤ S31.size a
  inb_S31x1x768_S1x1x768_16_0_0 : ∀ a, (![16, 0, 0] : Fin 3 → Nat) a + S1x1x768.size a ≤ S31x1x768.size a
  inb_S31_S1_17 : ∀ a, (![17] : Fin 1 → Nat) a + S1.size a ≤ S31.size a
  inb_S31x1x768_S1x1x768_17_0_0 : ∀ a, (![17, 0, 0] : Fin 3 → Nat) a + S1x1x768.size a ≤ S31x1x768.size a
  inb_S31_S1_18 : ∀ a, (![18] : Fin 1 → Nat) a + S1.size a ≤ S31.size a
  inb_S31x1x768_S1x1x768_18_0_0 : ∀ a, (![18, 0, 0] : Fin 3 → Nat) a + S1x1x768.size a ≤ S31x1x768.size a
  inb_S31_S1_19 : ∀ a, (![19] : Fin 1 → Nat) a + S1.size a ≤ S31.size a
  inb_S31x1x768_S1x1x768_19_0_0 : ∀ a, (![19, 0, 0] : Fin 3 → Nat) a + S1x1x768.size a ≤ S31x1x768.size a
  inb_S31_S1_20 : ∀ a, (![20] : Fin 1 → Nat) a + S1.size a ≤ S31.size a
  inb_S31x1x768_S1x1x768_20_0_0 : ∀ a, (![20, 0, 0] : Fin 3 → Nat) a + S1x1x768.size a ≤ S31x1x768.size a
  inb_S31_S1_21 : ∀ a, (![21] : Fin 1 → Nat) a + S1.size a ≤ S31.size a
  inb_S31x1x768_S1x1x768_21_0_0 : ∀ a, (![21, 0, 0] : Fin 3 → Nat) a + S1x1x768.size a ≤ S31x1x768.size a
  inb_S31_S1_22 : ∀ a, (![22] : Fin 1 → Nat) a + S1.size a ≤ S31.size a
  inb_S31x1x768_S1x1x768_22_0_0 : ∀ a, (![22, 0, 0] : Fin 3 → Nat) a + S1x1x768.size a ≤ S31x1x768.size a
  inb_S31_S1_23 : ∀ a, (![23] : Fin 1 → Nat) a + S1.size a ≤ S31.size a
  inb_S31x1x768_S1x1x768_23_0_0 : ∀ a, (![23, 0, 0] : Fin 3 → Nat) a + S1x1x768.size a ≤ S31x1x768.size a
  inb_S31_S1_24 : ∀ a, (![24] : Fin 1 → Nat) a + S1.size a ≤ S31.size a
  inb_S31x1x768_S1x1x768_24_0_0 : ∀ a, (![24, 0, 0] : Fin 3 → Nat) a + S1x1x768.size a ≤ S31x1x768.size a
  inb_S31_S1_25 : ∀ a, (![25] : Fin 1 → Nat) a + S1.size a ≤ S31.size a
  inb_S31x1x768_S1x1x768_25_0_0 : ∀ a, (![25, 0, 0] : Fin 3 → Nat) a + S1x1x768.size a ≤ S31x1x768.size a
  inb_S31_S1_26 : ∀ a, (![26] : Fin 1 → Nat) a + S1.size a ≤ S31.size a
  inb_S31x1x768_S1x1x768_26_0_0 : ∀ a, (![26, 0, 0] : Fin 3 → Nat) a + S1x1x768.size a ≤ S31x1x768.size a
  inb_S31_S1_27 : ∀ a, (![27] : Fin 1 → Nat) a + S1.size a ≤ S31.size a
  inb_S31x1x768_S1x1x768_27_0_0 : ∀ a, (![27, 0, 0] : Fin 3 → Nat) a + S1x1x768.size a ≤ S31x1x768.size a
  inb_S31_S1_28 : ∀ a, (![28] : Fin 1 → Nat) a + S1.size a ≤ S31.size a
  inb_S31x1x768_S1x1x768_28_0_0 : ∀ a, (![28, 0, 0] : Fin 3 → Nat) a + S1x1x768.size a ≤ S31x1x768.size a
  inb_S31_S1_29 : ∀ a, (![29] : Fin 1 → Nat) a + S1.size a ≤ S31.size a
  inb_S31x1x768_S1x1x768_29_0_0 : ∀ a, (![29, 0, 0] : Fin 3 → Nat) a + S1x1x768.size a ≤ S31x1x768.size a
  inb_S31_S1_30 : ∀ a, (![30] : Fin 1 → Nat) a + S1.size a ≤ S31.size a
  inb_S31x1x768_S1x1x768_30_0_0 : ∀ a, (![30, 0, 0] : Fin 3 → Nat) a + S1x1x768.size a ≤ S31x1x768.size a
  inb_S31x1x768_S31x1x768_0_0_0 : ∀ a, (![0, 0, 0] : Fin 3 → Nat) a + S31x1x768.size a ≤ S31x1x768.size a
  h_S31x1x768 : 0 < S31x1x768.numel
  shapeCasts_S31x1x768_S31x768 : S31x1x768.ShapeCasts S31x768
  reduces_S31x768_S768 : S31x768.Reduces [0] S768
  hcc0_scratch2 : 2 + S31.numel ≤ 64
  hcc0_scratch3 : 33 + S31.numel ≤ 64
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  hstage0_0 : ∀ j, (stage0_0 j).IsWhole
  hstage0_1 : ∀ j, (stage0_1 j).IsWhole

variable [Facts₀]

abbrev cc0_scratch2 : DmaSems sig S31 := SemArray.consecutive 2 S31 hcc0_scratch2
abbrev cc0_scratch3 : DmaSems sig S31 := SemArray.consecutive 33 S31 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S49152x768 : Shape := ⟨2, ![49152, 768]⟩
abbrev S_ : Shape := ⟨0, ![]⟩
abbrev S768 : Shape := ⟨1, ![768]⟩
abbrev S1x768 : Shape := ⟨2, ![1, 768]⟩

abbrev nBuf : Space → Nat
  | .hbm => 4
  | .vmem => 0
  | .smem => 0
  | _ => 0

abbrev bufTy : (tb : Table) → Fin (tcTables nBuf tb) → BufTy
  | .hbm, ⟨0, _⟩ => ⟨S49152x768, .f32⟩
  | .hbm, ⟨1, _⟩ => ⟨S_, .f32⟩
  | .hbm, ⟨2, _⟩ => ⟨S768, .f32⟩
  | .hbm, ⟨3, _⟩ => ⟨S1x768, .f32⟩
  | _, _ => ⟨S49152x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S49152x768_S768_d0 : S49152x768.ReducesTo [0] S768
  h_S_ : 0 < S_.numel
  bcast_S768_S1x768_1 : S768.BroadcastsInDim S1x768 (![1] : Fin 1 → Fin S1x768.rank)

variable [Facts₀]

class Facts : Prop extends Facts₀ where

variable [Facts]
-- ==== Proof.KernelIdeal.Ring.lean ====
import proofs.«900910_g7700000000000911_dist_max_ax0_shard0_i_m1536_n768_v7x_i32_f32_1_alg».proof.Proof.Gen.KernelIdeal
import proofs.«900910_g7700000000000911_dist_max_ax0_shard0_i_m1536_n768_v7x_i32_f32_1_alg».proof.Proof.Gen.KernelIdeal.Skeleton
import proofs.«900910_g7700000000000911_dist_max_ax0_shard0_i_m1536_n768_v7x_i32_f32_1_alg».proof.Proof.Gen.KernelIdeal.Launch
import Idealize.ShloMosaic.Lib.Pipeline.Launch
import Idealize.ShloMosaic.Lib.Pipeline.Kit
import Idealize.ShloMosaic.Lib.Tactic

/-! The mesh as a complete exchange: device `c` addresses, with offset index `j : Fin 31`, the device
`fwd j c = c + (j + 1) mod 32`, and is addressed with that index by `bwd j c = c - (j + 1) mod 32`.
The memory references and semaphore cells of the exchange, by device and offset index. -/

noncomputable section

namespace Cert.KernelIdeal.AllMax

open Cert.KernelIdeal Cert.KernelIdeal.Gen
open Idealize.ShloMosaic
open Idealize.ShloMosaic.TcCoe
open Idealize.SL Idealize.SL.Sem

/-- The offset indices: offset `j + 1`, for `j` below 31. -/
abbrev J : Type := Fin 31

/-- The device `j + 1` places after `c` on the ring of 32. -/
def fwd (j : J) (c : Dev nD) : Dev nD := ⟨(c.val + j.val + 1) % 32, Nat.mod_lt _ (by decide)⟩
/-- The device `j + 1` places before `c`. -/
def bwd (j : J) (c : Dev nD) : Dev nD := ⟨(c.val + 31 - j.val) % 32, Nat.mod_lt _ (by decide)⟩

theorem bwd_fwd : ∀ (j : J) (c : Dev nD), bwd j (fwd j c) = c := by decide +kernel
theorem fwd_bwd : ∀ (j : J) (c : Dev nD), fwd j (bwd j c) = c := by decide +kernel
/-- Going on by the complementary offset closes the ring: `(j + 1) + (31 - j) = 32`. -/
theorem fwd_rev_fwd : ∀ (j : J) (c : Dev nD), fwd (Fin.rev j) (fwd j c) = c := by decide +kernel
theorem fwd_rev_eq_bwd : ∀ (j : J) (c : Dev nD), fwd (Fin.rev j) c = bwd j c := by decide +kernel
theorem bwd_rev_eq_fwd : ∀ (j : J) (c : Dev nD), bwd (Fin.rev j) c = fwd j c := by decide +kernel
theorem fwd_ne_self : ∀ (j : J) (c : Dev nD), fwd j c ≠ c := by decide +kernel
theorem fwd_inj_left : ∀ (j j' : J) (c : Dev nD), fwd j c = fwd j' c → j = j' := by decide +kernel
theorem bwd_inj_left : ∀ (j j' : J) (c : Dev nD), bwd j c = bwd j' c → j = j' := by decide +kernel

/-- `fwd j` as a permutation of the devices. -/
def fwdEquiv (j : J) : Dev nD ≃ Dev nD := ⟨fwd j, bwd j, bwd_fwd j, fwd_bwd j⟩

/-! ## Memory references -/

/-- The staged block of the argument, the staged result row, this device's row of column maxima, and the landing
    buffer of 31 rows. -/
abbrev xM : Memref sig .tc .vmem S1536x768 .f32 := Memref.whole cc0_stg0_0
abbrev oM : Memref sig .tc .vmem S1x768 .f32 := Memref.whole cc0_stg1_0
abbrev ownM : Memref sig .tc .vmem S1x768 .f32 := Memref.whole cc0_scratch0
abbrev commM : Memref sig .tc .vmem S31x1x768 .f32 := Memref.whole cc0_scratch1

theorem slot_inb (j : J) : ∀ a, (![j.val, 0, 0] : Fin 3 → Nat) a + S1x1x768.size a ≤ S31x1x768.size a := by
  revert j; decide
theorem sem_inb (j : J) : ∀ a, (![j.val] : Fin 1 → Nat) a + S1.size a ≤ S31.size a := by
  revert j; decide

/-- Row `j` of the landing buffer, as a 1×768 reference. -/
def slotM (j : J) : Memref sig .tc .vmem S1x768 .f32 :=
  ((commM.slice (Rect.unit (s := S31x1x768) ![j.val, 0, 0] S1x1x768.size (slot_inb j)) (fun _ => rfl)).squeeze S1x768 squeezes_S1x1x768_S1x768)

/-- The semaphores of the transfer with offset index `j`: the sender's and the receiver's. -/
def sendSem (j : J) : DmaSem sig := ((cc0_scratch2.slice (Rect.unit (s := S31) ![j.val] S1.size (sem_inb j))).squeeze S_ squeezes_S1_S_).sem
def recvSem (j : J) : DmaSem sig := ((cc0_scratch3.slice (Rect.unit (s := S31) ![j.val] S1.size (sem_inb j))).squeeze S_ squeezes_S1_S_).sem

theorem sendSem_val : ∀ j : J, (sendSem j).val = 2 + j.val := by decide +kernel
theorem recvSem_val : ∀ j : J, (recvSem j).val = 33 + j.val := by decide +kernel

/-- The runtime's barrier semaphore of the collective. -/
abbrev barS : Sem sig := (SemArray.scalar (sig.barrier 0 rfl) : Sems sig S_).sem

abbrev barCell (c : Dev nD) : GSem nD τ sig := ((c : Thread nD τ), .reg barS)
abbrev sendCell (c : Dev nD) (j : J) : GSem nD τ sig := ((c : Thread nD τ), .dma (sendSem j))
abbrev recvCell (c : Dev nD) (j : J) : GSem nD τ sig := ((c : Thread nD τ), .dma (recvSem j))

theorem sendSem_inj : ∀ j j' : J, sendSem j = sendSem j' → j = j' := by decide +kernel
theorem recvSem_inj : ∀ j j' : J, recvSem j = recvSem j' → j = j' := by decide +kernel
theorem sendSem_ne_recvSem : ∀ j j' : J, sendSem j ≠ recvSem j' := by decide +kernel
theorem send_ne_bar (j : J) : (SemLoc.dma (sendSem j) : SemLoc sig) ≠ .reg barS := fun h => by cases h
theorem recv_ne_bar (j : J) : (SemLoc.dma (recvSem j) : SemLoc sig) ≠ .reg barS := fun h => by cases h

/-- The credit of one row's transfer. -/
abbrev N : ℕ := (ownM : Memref sig .tc .vmem S1x768 .f32).view.dmaCredit
theorem N_pos : 0 < N := View.dmaCredit_pos _ (by decide)

end Cert.KernelIdeal.AllMax

end
-- ==== Proof.KernelIdeal.Spec.lean ====
import proofs.«900910_g7700000000000911_dist_max_ax0_shard0_i_m1536_n768_v7x_i32_f32_1_alg».proof.Proof.KernelIdeal.Ring
import Idealize.ShloMosaic.Lib.ValueIdx

/-! What the exchange computes, as pure functions of every device's block: each device's row of column
maxima, the 31 rows a device has received once every transfer has landed (row `j` from the device `j + 1`
places before it), and the row it stores: the maximum of its own row and the received ones. -/

noncomputable section

namespace Cert.KernelIdeal.AllMax

open Cert.KernelIdeal Cert.KernelIdeal.Gen
open Idealize.ShloMosaic
open Idealize.ShloMosaic.TcCoe

variable {F : FTy → Type} [FloatOps F]

/-- Device `c`'s row of column maxima of its block `x c`. -/
def colMax (x : Dev nD → Vec F S1536x768 .f32) (c : Dev nD) : Vec F S1x768 .f32 := k0_pay1 (x c)

/-- The landing buffer of device `c` after the exchange: row `j` is the row of the device `j + 1` before it. -/
def commOf (x : Dev nD → Vec F S1536x768 .f32) (c : Dev nD) : Vec F S31x1x768 .f32 :=
  fun i => colMax x (bwd ⟨(i 0).val, (i 0).isLt⟩ c) (ValueIdx.ix2 (0 : Fin 1) (⟨(i 2).val, (i 2).isLt⟩ : Fin 768))

/-- The row device `c` stores as its result. -/
def outOf (x : Dev nD → Vec F S1536x768 .f32) (c : Dev nD) : Vec F S1x768 .f32 := k0_pay2 (colMax x c) (commOf x c)

end Cert.KernelIdeal.AllMax

end
-- ==== Proof.KernelIdeal.Sched.lean ====
import proofs.«900910_g7700000000000911_dist_max_ax0_shard0_i_m1536_n768_v7x_i32_f32_1_alg».proof.Proof.KernelIdeal.Spec

/-! The protocol of the exchange under the rounds discipline, one round per cell.
A device's barrier cell has 31 unit duties, duty `k` paid by the device `fwd k c` it will send to with offset
index `k`: that device's signal hands over row `k` of its own landing buffer and the fact that its receive cell `k`
is at round 0 — what the transfer into it needs. A send cell `(c, j)` has one duty: the transfer's source share
comes back once the source has been read. A receive cell `(c, j)` has one duty: row `j` of the landing buffer,
holding the row of column maxima of the device `j + 1` places before `c`. -/

noncomputable section

namespace Cert.KernelIdeal.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

/-! ## The resource algebra: the pipeline library's copy and the exchange's (duty names `J`) -/

abbrev UB : Type := URounds (GSem nD τ sig) J
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- Device `c`'s block of the argument, as the pipeline stages it. -/
def xOf (c : Dev nD) : (cc0_stg0_0 : Ref sig .tc).ty.Contents (Elt F) :=
  (win0_0.blk (0 : Fin 1)).view.read (Elt F) (m ((c : Thread nD τ).loc main_arg0))

/-- Every device's row of column maxima, what a landing buffer ends holding, and the stored row. -/
def ownV (c : Dev nD) : (cc0_scratch0 : Ref sig .tc).ty.Contents (Elt F) := colMax (fun d => xOf m d) c
def commV (c : Dev nD) : (cc0_scratch1 : Ref sig .tc).ty.Contents (Elt F) := commOf (fun d => xOf m d) c
def outV (c : Dev nD) : (cc0_stg1_0 : Ref sig .tc).ty.Contents (Elt F) := outOf (fun d => xOf m d) c

/-! ## The points-to facts the protocol moves -/

/-- The shares of a device's own row: one per transfer reading it, and the one the device keeps to read it itself. -/
abbrev shTok (j : J) : PosShare TreeShare := shareTok fullShare 31 j
abbrev shKeep : PosShare TreeShare := shareDrop fullShare 31

def ownPts (c : Dev nD) (q : PosShare TreeShare) (v : Buf (Elt F) ((ownM : Memref sig .tc .vmem S1x768 .f32).view.loc (c : Thread nD τ))) : sProp 𝕄 :=
  (ownM : Memref sig .tc .vmem S1x768 .f32).view.loc (c : Thread nD τ) ↦[(ownM : Memref sig .tc .vmem S1x768 .f32).view.set]{q} v

def slotPts (c : Dev nD) (j : J) (f : Buf (Elt F) ((slotM j : Memref sig .tc .vmem S1x768 .f32).view.loc (c : Thread nD τ))) : sProp 𝕄 :=
  (slotM j : Memref sig .tc .vmem S1x768 .f32).view.loc (c : Thread nD τ) ↦[(slotM j : Memref sig .tc .vmem S1x768 .f32).view.set]{fullShare} f

instance ownPts_storable (c : Dev nD) (q) (v) : BI.Storable (upEmb : UEmb _ 𝕄) (ownPts (F := F) c q v) := by unfold ownPts; infer_instance
instance slotPts_storable (c : Dev nD) (j) (f) : BI.Storable (upEmb : UEmb _ 𝕄) (slotPts (F := F) c j f) := by unfold slotPts; infer_instance

/-! ## The schedule -/

/-- What the signal of `fwd k c` (duty `k` of `c`'s barrier cell) hands `c`. -/
def barPay (c : Dev nD) (k : J) : sProp 𝕄 := iprop((∃ f, slotPts (fwd k c) k f) ∗ reached ER (recvCell (fwd k c) k) 0)
def sendPay (c : Dev nD) (j : J) : sProp 𝕄 := ownPts c (shTok j) (ownV m c)
def recvPay (c : Dev nD) (j : J) : sProp 𝕄 := slotPts c j (commV m c)

instance sendPay_storable (c : Dev nD) (j : J) : BI.Storable (upEmb : UEmb _ 𝕄) (sendPay (F := F) m c j) := by
  unfold sendPay; exact ownPts_storable _ _ _
instance recvPay_storable (c : Dev nD) (j : J) : BI.Storable (upEmb : UEmb _ 𝕄) (recvPay (F := F) m c j) := by
  unfold recvPay; exact slotPts_storable _ _ _

abbrev IsBar (g : GSem nD τ sig) : Prop := g.1.2 = .tc ∧ g.2 = .reg barS
abbrev IsXfer (g : GSem nD τ sig) : Prop := g.1.2 = .tc ∧ ∃ s : DmaSem sig, g.2 = .dma s ∧ 2 ≤ s.val

/-- The payload of a transfer cell, decoded from its semaphore's number: 2 … 32 are the send cells, 33 … 63 the
    receive cells. -/
def xferPay (c : Dev nD) (s : DmaSem sig) : sProp 𝕄 :=
  if h : 2 ≤ s.val ∧ s.val < 33 then sendPay m c ⟨s.val - 2, by omega⟩
  else if h' : 33 ≤ s.val then recvPay m c ⟨s.val - 33, by have h64 : s.val < 64 := s.isLt; omega⟩
  else iprop(emp)

instance : DecidablePred (IsXfer : GSem nD τ sig → Prop) := fun g => by
  unfold IsXfer
  match g.2 with
  | .reg _ => exact isFalse (fun ⟨_, s, h, _⟩ => by cases h)
  | .dma s => exact decidable_of_iff (g.1.2 = .tc ∧ 2 ≤ s.val) ⟨fun ⟨a, b⟩ => ⟨a, s, rfl, b⟩, fun ⟨a, s', h, b⟩ => ⟨a, by cases h; exact b⟩⟩

/-- One round, round 0. -/
def sched : Rounds.Schedule (GSem nD τ sig) J 𝕄 where
  duties g r := if r = 0 ∧ IsBar g then Finset.univ else if r = 0 ∧ IsXfer g then {0} else ∅
  unitless _ := False
  amount g _ _ := if g.2 = .reg barS then 1 else N
  payload g _ d := match g.2 with
    | .reg _ => barPay g.1.1 d
    | .dma s => xferPay m g.1.1 s
  amount_pos g _ _ _ := by
    by_cases h : g.2 = .reg barS
    · rw [if_pos h]; exact Nat.one_pos
    · rw [if_neg h]; exact N_pos

instance sched_payload_storable (g : GSem nD τ sig) (r : ℕ) (d : J) :
    BI.Storable (upEmb : UEmb _ 𝕄) ((sched (F := F) m).payload g r d) := by
  show BI.Storable upEmb (match g.2 with | .reg _ => barPay g.1.1 d | .dma s => xferPay m g.1.1 s)
  split
  · unfold barPay; infer_instance
  · unfold xferPay; (repeat' split) <;> infer_instance

section Tables
variable (c : Dev nD) (j : J)

theorem isXfer_send : IsXfer (sendCell c j) := ⟨rfl, sendSem j, rfl, by rw [sendSem_val]; omega⟩
theorem isXfer_recv : IsXfer (recvCell c j) := ⟨rfl, recvSem j, rfl, by rw [recvSem_val]; omega⟩
theorem not_bar_send : ¬ IsBar (sendCell c j) := fun h => send_ne_bar j h.2
theorem not_bar_recv : ¬ IsBar (recvCell c j) := fun h => recv_ne_bar j h.2

theorem duties_bar : (sched (F := F) m).duties (barCell c) 0 = Finset.univ := by dsimp only [sched]; exact if_pos ⟨rfl, rfl, rfl⟩
theorem duties_send : (sched (F := F) m).duties (sendCell c j) 0 = {0} := by
  dsimp only [sched]; rw [if_neg (fun h => not_bar_send c j h.2)]; exact if_pos ⟨rfl, isXfer_send c j⟩
theorem duties_recv : (sched (F := F) m).duties (recvCell c j) 0 = {0} := by
  dsimp only [sched]; rw [if_neg (fun h => not_bar_recv c j h.2)]; exact if_pos ⟨rfl, isXfer_recv c j⟩
theorem duties_later (g : GSem nD τ sig) : ∀ r, 1 ≤ r → (sched (F := F) m).duties g r = ∅ :=
  fun r hr => by dsimp only [sched]; rw [if_neg fun h => by omega, if_neg fun h => by omega]

theorem amount_bar (d : J) : (sched (F := F) m).amount (barCell c) 0 d = 1 := by dsimp only [sched]; exact if_pos rfl
theorem amount_send (d : J) : (sched (F := F) m).amount (sendCell c j) 0 d = N := by dsimp only [sched]; exact if_neg (send_ne_bar j)
theorem amount_recv (d : J) : (sched (F := F) m).amount (recvCell c j) 0 d = N := by dsimp only [sched]; exact if_neg (recv_ne_bar j)

theorem expect_bar : (sched (F := F) m).expect (barCell c) 0 = 31 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c j) 0 = N := by
  unfold Schedule.expect Schedule.amountOf; rw [duties_send, Finset.sum_singleton, amount_send]
theorem expect_recv : (sched (F := F) m).expect (recvCell c j) 0 = N := by
  unfold Schedule.expect Schedule.amountOf; rw [duties_recv, Finset.sum_singleton, amount_recv]

theorem payload_bar (k : J) : (sched (F := F) m).payload (barCell c) 0 k = barPay c k := rfl
theorem payload_send (d : J) : (sched (F := F) m).payload (sendCell c j) 0 d = sendPay m c j := by
  show xferPay m c (sendSem j) = _
  unfold xferPay
  have h : 2 ≤ (sendSem j).val ∧ (sendSem j).val < 33 := by rw [sendSem_val]; omega
  rw [dif_pos h]
  congr 1
  exact Fin.ext (by simp only [sendSem_val]; omega)
theorem payload_recv (d : J) : (sched (F := F) m).payload (recvCell c j) 0 d = recvPay m c j := by
  show xferPay m c (recvSem j) = _
  unfold xferPay
  have h : ¬ (2 ≤ (recvSem j).val ∧ (recvSem j).val < 33) := by rw [recvSem_val]; omega
  have h' : 33 ≤ (recvSem j).val := by rw [recvSem_val]; omega
  rw [dif_neg h, dif_pos h']
  congr 1
  exact Fin.ext (by simp only [recvSem_val]; omega)

/-- The whole of a barrier cell's round: every peer's landing row and receive-cell mark. -/
theorem rest_bar : bigSep ((sched (F := F) m).duties (barCell c) 0 \ ∅) (fun d => (sched (F := F) m).payload (barCell c) 0 d)
    = bigSep Finset.univ (fun k : J => barPay (F := F) c k) := by
  rw [Finset.sdiff_empty, duties_bar]; rfl
theorem rest_send : bigSep ((sched (F := F) m).duties (sendCell c j) 0 \ ∅) (fun d => (sched (F := F) m).payload (sendCell c j) 0 d) = sendPay m c j := by
  rw [Finset.sdiff_empty, duties_send, bigSep_singleton, payload_send]
theorem rest_recv : bigSep ((sched (F := F) m).duties (recvCell c j) 0 \ ∅) (fun d => (sched (F := F) m).payload (recvCell c j) 0 d) = recvPay m c j := by
  rw [Finset.sdiff_empty, duties_recv, bigSep_singleton, payload_recv]

end Tables

attribute [sl_rounds] duties_bar duties_send duties_recv amount_bar amount_send amount_recv expect_bar expect_send expect_recv
  payload_bar payload_send payload_recv

end Cert.KernelIdeal.AllMax

end
-- ==== Proof.KernelIdeal.Levels.lean ====
import proofs.«900910_g7700000000000911_dist_max_ax0_shard0_i_m1536_n768_v7x_i32_f32_1_alg».proof.Proof.KernelIdeal.Sched

/-! What a device owes the others at launch — one unit to each peer's barrier cell and one row's credit to
each peer's receive cell — as sums over the offset indices still to be paid, and the order of the cells that
makes every wait legal: barrier cells below receive cells, everything else at the bottom. -/

noncomputable section

namespace Cert.KernelIdeal.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

/-- The unit device `c` owes the barrier cell of `fwd j c`, and the credit it owes that device's receive cell `j`. -/
def bt (c : Dev nD) (j : J) : CellTallies nD τ sig Unit := tallyAt (barCell (fwd j c)) () 1
def rt (c : Dev nD) (j : J) : CellTallies nD τ sig Unit := tallyAt (recvCell (fwd j c) j) () N

/-- What `c` owes while the signals with indices in `S` and the transfers with indices in `T` are still to come. -/
def owedOn (c : Dev nD) (S T : Finset J) : CellTallies nD τ sig Unit := ∑ j ∈ S, bt c j + ∑ j ∈ T, rt c j

def O₀ (c : Dev nD) : CellTallies nD τ sig Unit := owedOn c Finset.univ Finset.univ

theorem owedOn_empty (c : Dev nD) : owedOn c ∅ ∅ = 0 := by
  unfold owedOn; rw [Finset.sum_empty, Finset.sum_empty, add_zero]

theorem owedOn_peel_bar (c : Dev nD) {S T : Finset J} {j : J} (hj : j ∈ S) :
    owedOn c S T = owedOn c (S.erase j) T + tallyAt (barCell (fwd j c)) () 1 := by
  unfold owedOn
  rw [← Finset.sum_erase_add S _ hj]
  show _ = _ + bt c j
  abel

theorem owedOn_peel_recv (c : Dev nD) {S T : Finset J} {j : J} (hj : j ∈ T) :
    owedOn c S T = owedOn c S (T.erase j) + tallyAt (recvCell (fwd j c) j) () N := by
  unfold owedOn
  rw [← Finset.sum_erase_add T _ hj]
  show _ = _ + rt c j
  abel

/-- Where `c` owes something: a peer's barrier cell or a peer's receive cell. -/
theorem owedOn_pos {c : Dev nD} {S T : Finset J} {g : GSem nD τ sig} {u : Unit} (h : 0 < owedOn c S T g u) :
    (∃ j ∈ S, g = barCell (fwd j c)) ∨ (∃ j ∈ T, g = recvCell (fwd j c) j) := by
  unfold owedOn at h
  rcases Pipeline.add_pos_cases h with h | h
  · obtain ⟨j, hj, hp⟩ := Pipeline.sum_pos_exists h
    refine Or.inl ⟨j, hj, ?_⟩
    unfold bt at hp; rw [tallyAt_apply] at hp
    by_contra hn; rw [if_neg (fun h' => hn h'.1)] at hp; exact Nat.lt_irrefl 0 hp
  · obtain ⟨j, hj, hp⟩ := Pipeline.sum_pos_exists h
    refine Or.inr ⟨j, hj, ?_⟩
    unfold rt at hp; rw [tallyAt_apply] at hp
    by_contra hn; rw [if_neg (fun h' => hn h'.1)] at hp; exact Nat.lt_irrefl 0 hp

/-! ## Levels -/

def L (g : GSem nD τ sig) : Finset Unit := if g.1.2 = .tc then {()} else ∅

/-- Barrier cells at 1, receive cells at 2, everything else (staging, send) at 0. -/
def lv (g : GSem nD τ sig) (_ : Unit) : ℕ :=
  match g.2 with
  | .reg _ => 1
  | .dma s => if 33 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_recv (c : Dev nD) (j : J) : lv (recvCell c j) () = 2 := by
  show (if 33 ≤ (recvSem j).val then 2 else 0) = 2
  rw [if_pos (by rw [recvSem_val]; omega)]
theorem lv_send (c : Dev nD) (j : J) : lv (sendCell c j) () = 0 := by
  show (if 33 ≤ (sendSem j).val then 2 else 0) = 0
  rw [if_neg (by rw [sendSem_val]; omega)]
theorem lv_low (c : Dev nD) (q : DmaSem sig) (hq : q.val < 33) : lv ((c : Thread nD τ), .dma q) () = 0 := by
  show (if 33 ≤ q.val then 2 else 0) = 0
  rw [if_neg (by omega)]

omit [FloatOps F] in
/-- A wait on a cell of level 0 (a staging or a send cell) is legal whatever the device still owes. -/
theorem mayWait_low (c : Dev nD) (q : DmaSem sig) (hq : q.val < 33) (S T : Finset J) :
    (levAts L lv : sProp 𝕄) ⊢ MayWait (c : Thread nD τ) (.dma q) () (owedOn c S T) :=
  Pipeline.mayWait_of_levAts (by rw [L_tc]; exact Finset.mem_singleton_self _) fun g u hg => by
    cases u
    rcases owedOn_pos hg with ⟨j, _, rfl⟩ | ⟨j, _, rfl⟩
    · exact ⟨by rw [L_tc]; exact Finset.mem_singleton_self _, by rw [lv_low c q hq, lv_bar]; decide⟩
    · exact ⟨by rw [L_tc]; exact Finset.mem_singleton_self _, by rw [lv_low c q hq, lv_recv]; decide⟩

omit [FloatOps F] in
/-- At its barrier wait a device owes receive credit only: receive cells sit above barrier cells. -/
theorem mayWait_bar (c : Dev nD) (T : Finset J) :
    (levAts L lv : sProp 𝕄) ⊢ MayWait (c : Thread nD τ) (.reg barS) () (owedOn c ∅ T) :=
  Pipeline.mayWait_of_levAts (by rw [L_tc]; exact Finset.mem_singleton_self _) fun g u hg => by
    cases u
    rcases owedOn_pos hg with ⟨j, hj, _⟩ | ⟨j, _, rfl⟩
    · exact absurd hj (Finset.notMem_empty _)
    · exact ⟨by rw [L_tc]; exact Finset.mem_singleton_self _, by rw [lv_bar, lv_recv]; decide⟩

end Cert.KernelIdeal.AllMax

end
-- ==== Proof.KernelIdeal.Ghost.lean ====
import proofs.«900910_g7700000000000911_dist_max_ax0_shard0_i_m1536_n768_v7x_i32_f32_1_alg».proof.Proof.KernelIdeal.Levels

/-! The cells of the exchange under one index, the persistent knowledge every device shares about them (each
cell's invariant, and that round 0 of each is reached), and what a device holds linearly when its kernel
starts: its positions on its own 63 cells and the tokens of the 93 duties it pays. -/

noncomputable section

namespace Cert.KernelIdeal.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A device's cells: its barrier cell, its 31 send cells, its 31 receive cells. -/
abbrev CK : Type := Unit ⊕ (J ⊕ J)

def csem : CK → SemLoc sig
  | .inl _ => .reg barS
  | .inr (.inl j) => .dma (sendSem j)
  | .inr (.inr j) => .dma (recvSem j)

abbrev kcell (ck : Dev nD × CK) : GSem nD τ sig := ((ck.1 : Thread nD τ), csem ck.2)

theorem csem_injective : Function.Injective csem := by
  rintro (_ | j | j) (_ | j' | j') h
  · rfl
  · exact absurd h (fun h => by cases h)
  · exact absurd h (fun h => by cases h)
  · exact absurd h (fun h => by cases h)
  · exact congrArg (Sum.inr ∘ Sum.inl) (sendSem_inj j j' (SemLoc.dma.inj h))
  · exact absurd (SemLoc.dma.inj h) (sendSem_ne_recvSem j j')
  · exact absurd h (fun h => by cases h)
  · exact absurd (SemLoc.dma.inj h).symm (sendSem_ne_recvSem j' j)
  · exact congrArg (Sum.inr ∘ Sum.inr) (recvSem_inj j j' (SemLoc.dma.inj h))

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def allCells : Finset (GSem nD τ sig) := Finset.univ.map ⟨kcell, kcell_injective⟩

/-- Every cell's invariant, under the names `κ` the launch allocated them at, and that round 0 of every cell is reached. -/
def records (κ : Dev nD × CK → ℕ) : sProp 𝕄 :=
  iprop((bigSep Finset.univ fun ck : Dev nD × CK => cellInv ER (sched m) (κ ck) (kcell ck))
    ∗ bigSep Finset.univ fun ck : Dev nD × CK => reached ER (kcell ck) 0)

instance records_persistent (κ : Dev nD × CK → ℕ) : BI.Persistent (records m κ) := by unfold records; infer_instance

theorem inv_at' (κ : Dev nD × CK → ℕ) (ck : Dev nD × CK) :
    (bigSep Finset.univ fun ck : Dev nD × CK => (cellInv ER (sched m) (κ ck) (kcell ck) : sProp 𝕄)) ⊢ cellInv ER (sched m) (κ ck) (kcell ck) :=
  bigSep_elim (Finset.mem_univ ck)
theorem reached_at' (ck : Dev nD × CK) :
    (bigSep Finset.univ fun ck : Dev nD × CK => (reached ER (kcell ck) 0 : sProp 𝕄)) ⊢ reached ER (kcell ck) 0 :=
  bigSep_elim (Finset.mem_univ ck)
theorem inv_at (κ : Dev nD × CK → ℕ) (ck : Dev nD × CK) : records m κ ⊢ cellInv ER (sched m) (κ ck) (kcell ck) := by
  unfold records
  iintro ⟨H, -⟩
  iapply (inv_at' m κ ck)
  iexact H
theorem reached_at (κ : Dev nD × CK → ℕ) (ck : Dev nD × CK) : records m κ ⊢ reached ER (kcell ck) 0 := by
  unfold records
  iintro ⟨-, H⟩
  iapply (reached_at' (F := F) ck)
  iexact H

theorem inv_bar (κ : Dev nD × CK → ℕ) (c : Dev nD) : records m κ ⊢ cellInv ER (sched m) (κ (c, .inl ())) (barCell c) := inv_at m κ (c, .inl ())
theorem inv_send (κ : Dev nD × CK → ℕ) (c : Dev nD) (j : J) : records m κ ⊢ cellInv ER (sched m) (κ (c, .inr (.inl j))) (sendCell c j) := inv_at m κ (c, .inr (.inl j))
theorem inv_recv (κ : Dev nD × CK → ℕ) (c : Dev nD) (j : J) : records m κ ⊢ cellInv ER (sched m) (κ (c, .inr (.inr j))) (recvCell c j) := inv_at m κ (c, .inr (.inr j))
theorem reached_bar (κ : Dev nD × CK → ℕ) (c : Dev nD) : records m κ ⊢ reached ER (barCell c) 0 := reached_at m κ (c, .inl ())
theorem reached_send (κ : Dev nD × CK → ℕ) (c : Dev nD) (j : J) : records m κ ⊢ reached ER (sendCell c j) 0 := reached_at m κ (c, .inr (.inl j))
theorem reached_recv (κ : Dev nD × CK → ℕ) (c : Dev nD) (j : J) : records m κ ⊢ reached ER (recvCell c j) 0 := reached_at m κ (c, .inr (.inr j))

/-- What stays with device `c`: its positions on its own cells, and the tokens of the duties it pays — on each
    peer's barrier cell the duty named by the complementary offset, each peer's receive duty, its own send duties. -/
def linear (c : Dev nD) : sProp 𝕄 :=
  iprop(atPos ER (barCell c) 0 ∅ 0
    ∗ (bigSep Finset.univ fun j : J => atPos ER (sendCell c j) 0 ∅ 0)
    ∗ (bigSep Finset.univ fun j : J => atPos ER (recvCell c j) 0 ∅ 0)
    ∗ (bigSep Finset.univ fun j : J => dutyTok ER (barCell (fwd j c)) 0 (Fin.rev j))
    ∗ (bigSep Finset.univ fun j : J => dutyTok ER (recvCell (fwd j c) j) 0 (0 : J))
    ∗ (bigSep Finset.univ fun j : J => dutyTok ER (sendCell c j) 0 (0 : J)))

def ghost (κ : Dev nD × CK → ℕ) (c : Dev nD) : sProp 𝕄 := iprop(records m κ ∗ linear (F := F) c)

/-- What device `c`'s body starts from: that at some names, the credit the launch dealt it (its barrier's 31 units,
    each receive cell's row credit) and the level facts. -/
def start (c : Dev nD) : sProp 𝕄 :=
  iprop((∃ κ, ghost m κ c) ∗ cred (tallyAt (barCell c) () 31)
    ∗ (bigSep Finset.univ fun j : J => cred (tallyAt (recvCell c j) () N)) ∗ levAts L lv)

end Cert.KernelIdeal.AllMax

end
-- ==== Proof.KernelIdeal.Steps.lean ====
import proofs.«900910_g7700000000000911_dist_max_ax0_shard0_i_m1536_n768_v7x_i32_f32_1_alg».proof.Proof.KernelIdeal.Ghost

/-! One lemma per kind of cross-device step of the kernel, at a symbolic device `c` and offset index `j`:
the signal to a peer's barrier cell, the wait for the 31 peers' signals, the transfer of the device's row into
a peer's landing row, and the waits for a row to land and for a transfer's source to be released. -/

noncomputable section

namespace Cert.KernelIdeal.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A landing row's credit is a row's. -/
theorem slot_credit : ∀ j : J, (slotM j : Memref sig .tc .vmem S1x768 .f32).view.dmaCredit = N := by
  intro j; rfl

/-- What the signal to `fwd j c` hands over is duty `rev j`'s payload there: going on from `fwd j c` by the
    complementary offset one is back at `c`, so the row and the receive cell it names are `c`'s own. -/
theorem signal_payload (κ : Dev nD × CK → ℕ) (c : Dev nD) (j : J) :
    iprop(records m κ ∗ (∃ f, slotPts (F := F) c (Fin.rev j) f))
      ⊢ (sched (F := F) m).payload (barCell (fwd j c)) 0 (Fin.rev j) := by
  rw [payload_bar]; unfold barPay; rw [fwd_rev_fwd j c]
  iintro ⟨#Hrec, Hslot⟩
  isplitl [Hslot]; · iexact Hslot
  iapply (reached_recv m κ c (Fin.rev j)); iexact Hrec

/-- The signal to the barrier cell of `fwd j c`: it pays that cell's duty `rev j` — the one the peer reads as "the
    device I reach with offset index `rev j`" — with row `rev j` of `c`'s own landing buffer. -/
theorem step_signal (κ : Dev nD × CK → ℕ) (c : Dev nD) (j : J) {S T : Finset J} (hj : j ∈ S) {W : Waits sig Unit}
    {α : Type} {Q : α → sProp 𝕄} {k : PUnit → Prog (TpuEff nD τ sig (Elt F) Λ₀ .tc) α} :
    iprop(records m κ ∗ owes (c : Thread nD τ) (owedOn c S T) W ∗ dutyTok ER (barCell (fwd j c)) 0 (Fin.rev j)
        ∗ (∃ f, slotPts (F := F) c (Fin.rev j) f))
      ⊢ iprop((owes (c : Thread nD τ) (owedOn c (S.erase j) T) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((fwd j c : Dev nD), Proc.tc) barS (1#32 : BitVec 32).toNat) k) Q) := by
  iintro ⟨#Hrec, HO, Htok, Hslot⟩ Hk
  iapply (Rounds.wp_signal 𝒱₀ ER (sched m) (c : Thread nD τ) none (dst := (fwd j c : Thread nD τ)) (sem := barS)
      (r := 0) (d := Fin.rev j) (k' := (1#32 : BitVec 32).toNat) (κ := κ (fwd j c, .inl ()))
      (by rw [duties_bar]; exact Finset.mem_univ _)
      ((amount_bar m (fwd j c) (Fin.rev j)).trans (by decide)) () (owedOn c (S.erase j) T) (owedOn_peel_bar c hj))
    $$ [HO Htok Hslot]
  · isplitr; · iapply (inv_bar m κ (fwd j c)); iexact Hrec
    isplitl [HO]; · iexact HO
    isplitl [Htok]; · iexact Htok
    isplitl [Hslot]
    · iapply (signal_payload m κ c j)
      isplitr; · iexact Hrec
      iexact Hslot
    · iapply (reached_bar m κ (fwd j c)); iexact Hrec
  iexact Hk

/-- The wait for the 31 units of the device's own barrier cell, owing receive credit only: every peer's landing
    row for this device comes with it. -/
theorem step_bar_wait (κ : Dev nD × CK → ℕ) (c : Dev nD) {T : Finset J} {W : Waits sig Unit}
    {α : Type} {Q : α → sProp 𝕄} {k : PUnit → Prog (TpuEff nD τ sig (Elt F) Λ₀ .tc) α} :
    iprop(records m κ ∗ cred (tallyAt (barCell c) () 31) ∗ owes (c : Thread nD τ) (owedOn c ∅ T) W ∗ levAts L lv
        ∗ atPos ER (barCell c) 0 ∅ 0)
      ⊢ iprop(((owes (c : Thread nD τ) (owedOn c ∅ T) (insert (SemLoc.reg barS, ()) W) ∗ atPos ER (barCell c) 1 ∅ 0
              ∗ bigSep Finset.univ (fun k : J => barPay (F := F) c k))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (31#32 : BitVec 32).toNat) k) Q) := by
  iintro ⟨#Hrec, Hc, HO, Hlev, Hat⟩ Hk
  iapply (Rounds.wp_wait_rest_token 𝒱₀ ER (sched m) (c : Thread nD τ) none (sm := .reg barS)
      (k' := (31#32 : BitVec 32).toNat) (κ := κ (c, .inl ()))
      (wpE_semWait_eq 𝒱₀ (c : Thread nD τ) none Set.univ) (Set.mem_univ _) () (O := owedOn c ∅ T) (W := W)
      (R := 0) (m := 0) (T := ∅) (by rw [expect_bar]; decide)) $$ [Hc HO Hlev Hat]
  · isplitr; · iapply (inv_bar m κ c); iexact Hrec
    isplitl [Hc]; · iexact Hc
    isplitl [HO]; · iexact HO
    isplitl [Hlev]; · iapply (mayWait_bar c T); iexact Hlev
    iexact Hat
  iintro ⟨HO, Hat, -, Hpay⟩
  iapply Hk
  isplitl [HO]; · iexact HO
  isplitl [Hat]; · iexact Hat
  iapply (Entails.of_eq (rest_bar m c)); iexact Hpay

/-- A send or receive cell whose one round is consumed closes: its counter, at zero, is the device's again. -/
theorem close_send (κ : Dev nD × CK → ℕ) (c : Dev nD) (j : J) :
    iprop(records m κ ∗ atPos ER (sendCell c j) 1 ∅ 0) ⊢ iprop(|={Set.univ}=> (semVal (sendCell c j) 0 : sProp 𝕄)) := by
  iintro ⟨#Hrec, Hat⟩
  iapply (Rounds.cell_close ER (sched m) (Set.mem_univ (κ (c, .inr (.inl j)))) (fun h => h) (R := 1)
      (duties_later m (sendCell c j)))
  isplitr; · iapply (inv_send m κ c j); iexact Hrec
  iexact Hat
theorem close_recv (κ : Dev nD × CK → ℕ) (c : Dev nD) (j : J) :
    iprop(records m κ ∗ atPos ER (recvCell c j) 1 ∅ 0) ⊢ iprop(|={Set.univ}=> (semVal (recvCell c j) 0 : sProp 𝕄)) := by
  iintro ⟨#Hrec, Hat⟩
  iapply (Rounds.cell_close ER (sched m) (Set.mem_univ (κ (c, .inr (.inr j)))) (fun h => h) (R := 1)
      (duties_later m (recvCell c j)))
  isplitr; · iapply (inv_recv m κ c j); iexact Hrec
  iexact Hat

/-- info: 'Cert.KernelIdeal.AllMax.slot_credit' depends on axioms: [propext, Classical.choice, Quot.sound] -/
#guard_msgs in #print axioms slot_credit

/-- info: 'Cert.KernelIdeal.AllMax.signal_payload' depends on axioms: [propext, Classical.choice, Quot.sound] -/
#guard_msgs in #print axioms signal_payload

/-- info: 'Cert.KernelIdeal.AllMax.step_signal' depends on axioms: [propext, Classical.choice, Quot.sound] -/
#guard_msgs in #print axioms step_signal

/-- info: 'Cert.KernelIdeal.AllMax.step_bar_wait' depends on axioms: [propext, Classical.choice, Quot.sound] -/
#guard_msgs in #print axioms step_bar_wait

/-- info: 'Cert.KernelIdeal.AllMax.close_send' depends on axioms: [propext, Classical.choice, Quot.sound] -/
#guard_msgs in #print axioms close_send

/-- info: 'Cert.KernelIdeal.AllMax.close_recv' depends on axioms: [propext, Classical.choice, Quot.sound] -/
#guard_msgs in #print axioms close_recv

end Cert.KernelIdeal.AllMax

end
-- ==== Proof.KernelIdeal.Mem.lean ====
import proofs.«900910_g7700000000000911_dist_max_ax0_shard0_i_m1536_n768_v7x_i32_f32_1_alg».proof.Proof.KernelIdeal.Sched
import Idealize.ShloMosaic.Lib.Ring
import Idealize.ShloMosaic.Lib.Pipeline.Value
import Idealize.ShloMosaic.Lib.Transfers

/-! The memory facts of the exchange. A device's own row of column maxima, held whole, is the share it keeps
and the 31 shares its transfers read through; its landing buffer, held whole, is its 31 rows. What a transfer of
a row lands in a landing row is determined on that row's elements, and for the transfer from the device
`j + 1` places before the receiver it is the receiver's expected row `j`. The body's whole-buffer loads and
stores read and write the buffer's contents themselves, and the staged argument block is the launched array. -/

noncomputable section

namespace Cert.KernelIdeal.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Whole-buffer loads and stores -/

/-- The zero offsets of a rank-2 and of a rank-3 access, as the constant function. -/
theorem zero2 : (![0, 0] : Fin 2 → Nat) = fun _ => 0 := by funext a; fin_cases a <;> rfl
theorem zero3 : (![0, 0, 0] : Fin 3 → Nat) = fun _ => 0 := by funext a; fin_cases a <;> rfl

/-- A load of a whole buffer at zero offsets reads its contents. -/
theorem read_x (f : (cc0_stg0_0 : Ref sig .tc).ty.Contents (Elt F)) :
    (xM : Memref sig .tc .vmem S1536x768 .f32).view.readAt (Elt F)
      (Rect.unit (s := S1536x768) ![0, 0] S1536x768.size inb_S1536x768_S1536x768_0_0).toLoadRect f = f :=
  Memref.readAt_unit_zero (Elt F) cc0_stg0_0 zero2 inb_S1536x768_S1536x768_0_0 f

theorem read_own (f : (cc0_scratch0 : Ref sig .tc).ty.Contents (Elt F)) :
    (ownM : Memref sig .tc .vmem S1x768 .f32).view.readAt (Elt F)
      (Rect.unit (s := S1x768) ![0, 0] S1x768.size inb_S1x768_S1x768_0_0).toLoadRect f = f :=
  Memref.readAt_unit_zero (Elt F) cc0_scratch0 zero2 inb_S1x768_S1x768_0_0 f

theorem read_out (f : (cc0_stg1_0 : Ref sig .tc).ty.Contents (Elt F)) :
    (oM : Memref sig .tc .vmem S1x768 .f32).view.readAt (Elt F)
      (Rect.unit (s := S1x768) ![0, 0] S1x768.size inb_S1x768_S1x768_0_0).toLoadRect f = f :=
  Memref.readAt_unit_zero (Elt F) cc0_stg1_0 zero2 inb_S1x768_S1x768_0_0 f

theorem read_comm (f : (cc0_scratch1 : Ref sig .tc).ty.Contents (Elt F)) :
    (commM : Memref sig .tc .vmem S31x1x768 .f32).view.readAt (Elt F)
      (Rect.unit (s := S31x1x768) ![0, 0, 0] S31x1x768.size inb_S31x1x768_S31x1x768_0_0_0).toLoadRect f = f :=
  Memref.readAt_unit_zero (Elt F) cc0_scratch1 zero3 inb_S31x1x768_S31x1x768_0_0_0 f

/-- An unmasked store through a whole buffer at zero offsets leaves the stored vector as its contents. -/
theorem write_own (f w : (cc0_scratch0 : Ref sig .tc).ty.Contents (Elt F)) :
    ((ownM : Memref sig .tc .vmem S1x768 .f32).access
      (Rect.unit (s := S1x768) ![0, 0] S1x768.size inb_S1x768_S1x768_0_0) : View sig .tc _ _ _).write (Elt F) f w Finset.univ = w :=
  Memref.write_access_unit_zero_univ (Elt F) cc0_scratch0 zero2 inb_S1x768_S1x768_0_0 f w

theorem write_out (f w : (cc0_stg1_0 : Ref sig .tc).ty.Contents (Elt F)) :
    ((oM : Memref sig .tc .vmem S1x768 .f32).access
      (Rect.unit (s := S1x768) ![0, 0] S1x768.size inb_S1x768_S1x768_0_0) : View sig .tc _ _ _).write (Elt F) f w Finset.univ = w :=
  Memref.write_access_unit_zero_univ (Elt F) cc0_stg1_0 zero2 inb_S1x768_S1x768_0_0 f w

/-- The staged block of the argument is the launched array: the window is the whole array at block index 0. -/
theorem xOf_eq (c : Dev nD) : xOf m c = m ((c : Thread nD τ).loc main_arg0) :=
  Memref.read_access_unit_zero (Elt F) main_arg0 (funext fun a => Nat.zero_mul _) _ _

/-! ## The own row by shares -/

/-- A device's own row held whole is the share the device keeps and the 31 shares its transfers read through. -/
theorem own_shares (c : Dev nD) (v : Buf (Elt F) ((c : Thread nD τ).loc cc0_scratch0)) :
    ((((c : Thread nD τ).loc cc0_scratch0) ↦{fullShare} v : sProp 𝕄)) ⊣⊢
      iprop(ownPts c shKeep v ∗ bigSep Finset.univ (fun j : J => ownPts (F := F) c (shTok j) v)) := by
  unfold ownPts
  rw [show (ownM : Memref sig .tc .vmem S1x768 .f32).view.set = Finset.univ from View.set_whole _]
  exact Transfers.pointsTo_toks fullShare 31

/-! ## The landing buffer by rows -/

/-- The elements of row `j` of the landing buffer: the unit rectangle at offset `j` on the leading axis, one row
    long there and whole on the other two axes. -/
abbrev rowSet (j : J) : Finset S31x1x768.Idx :=
  (Rect.unit (s := S31x1x768) ![j.val, 0, 0] S1x1x768.size (slot_inb j)).set

/-- They are the elements under the row's reference: squeezing keeps a slice's elements. -/
theorem slot_set (j : J) : (slotM j : Memref sig .tc .vmem S1x768 .f32).view.set = rowSet j :=
  (View.set_reshape (v := (commM : Memref sig .tc .vmem S31x1x768 .f32).view.slice
      (Rect.unit (s := S31x1x768) ![j.val, 0, 0] S1x1x768.size (slot_inb j))) squeezes_S1x1x768_S1x768.numel_eq).trans
    (View.set_slice_whole cc0_scratch1 _)

/-- Different rows share no element, -/
theorem row_disjoint (j j' : J) (h : j ≠ j') : Disjoint (rowSet j) (rowSet j') :=
  Ring.lead_disjoint (s := S31x1x768) (NB := 31) (0 : Fin 3) 1 (fun j : Fin 31 => ![j.val, 0, 0]) S1x1x768.size slot_inb
    (fun b => (Nat.one_mul _).symm) rfl j j' h

/-- and the 31 rows are the whole buffer. -/
theorem row_cover : Finset.univ.biUnion (fun j : J => rowSet j) = Finset.univ :=
  Ring.lead_cover (s := S31x1x768) (NB := 31) (0 : Fin 3) 1 (fun j : Fin 31 => ![j.val, 0, 0]) S1x1x768.size slot_inb
    (fun b => (Nat.one_mul _).symm) (by decide) rfl (by decide) rfl

/-- A row's points-to, over the row's element set. -/
theorem slotPts_eq (c : Dev nD) (j : J) (f : Buf (Elt F) ((c : Thread nD τ).loc cc0_scratch1)) :
    slotPts (F := F) c j f = (((c : Thread nD τ).loc cc0_scratch1) ↦[rowSet j]{fullShare} f : sProp 𝕄) := by
  unfold slotPts
  rw [slot_set]
  rfl

/-- The whole landing buffer is its 31 rows, at any contents. -/
theorem comm_rows (c : Dev nD) (f : Buf (Elt F) ((c : Thread nD τ).loc cc0_scratch1)) :
    ((((c : Thread nD τ).loc cc0_scratch1) ↦{fullShare} f : sProp 𝕄)) = bigSep Finset.univ (fun j : J => slotPts (F := F) c j f) := by
  rw [show (fun j : J => slotPts (F := F) c j f)
      = fun j : J => (((c : Thread nD τ).loc cc0_scratch1) ↦[rowSet j]{fullShare} f : sProp 𝕄) from funext fun j => slotPts_eq c j f]
  exact Ring.pointsTo_blocks (ℓ := (c : Thread nD τ).loc cc0_scratch1) (fun j : J => rowSet j) row_disjoint row_cover f

/-! ## What a transfer lands in a row -/

/-- Where element `y` of row `j` sits in the landing buffer: at row `j`, column `y 1`. -/
theorem slot_emb (j : J) (y : S1x768.Idx) :
    (slotM j : Memref sig .tc .vmem S1x768 .f32).view.emb y
      = ValueIdx.ix3 (⟨j.val, j.isLt⟩ : Fin 31) (0 : Fin 1) (⟨(y 1).val, (y 1).isLt⟩ : Fin 768) := by
  have he : (slotM j : Memref sig .tc .vmem S1x768 .f32).view.emb y
      = (Rect.unit (s := S31x1x768) ![j.val, 0, 0] S1x1x768.size (slot_inb j)).emb
          (Shape.reshapeEquiv (s := S1x1x768) (s' := S1x768) squeezes_S1x1x768_S1x768.numel_eq y) := rfl
  rw [he, Shape.reshapeEquiv_cons_one (n := 2) (d := ![1, 768])]
  funext a
  apply Fin.ext
  rw [Rect.emb_apply]
  match a with
  | ⟨0, _⟩ => show j.val + 1 * 0 = j.val; omega
  | ⟨1, _⟩ =>
    have h0 : (y 0).val < 1 := (y 0).isLt
    show 0 + 1 * (y 0).val = 0; omega
  | ⟨2, _⟩ => show 0 + 1 * (y 1).val = (y 1).val; omega

/-- What a transfer of the row `v` lands in row `j`: on row `j`'s elements the written buffer agrees with any
    contents `g` whose row `j` is `v`. -/
theorem slot_landed (c : Dev nD) (j : J) (fd : Buf (Elt F) ((slotM j : Memref sig .tc .vmem S1x768 .f32).view.loc (c : Thread nD τ)))
    (v : Buf (Elt F) ((ownM : Memref sig .tc .vmem S1x768 .f32).view.loc (c : Thread nD τ)))
    (g : Buf (Elt F) ((slotM j : Memref sig .tc .vmem S1x768 .f32).view.loc (c : Thread nD τ)))
    (hg : ∀ k : Fin 768, g (ValueIdx.ix3 (⟨j.val, j.isLt⟩ : Fin 31) (0 : Fin 1) k) = v (ValueIdx.ix2 (0 : Fin 1) k)) :
    slotPts c j ((slotM j : Memref sig .tc .vmem S1x768 .f32).view.write (Elt F) fd
        ((ownM : Memref sig .tc .vmem S1x768 .f32).view.read (Elt F) v) Finset.univ) = slotPts c j g := by
  unfold slotPts
  refine pointsTo_congr fun i hi => ?_
  obtain ⟨y, rfl⟩ := View.exists_emb_of_mem_set _ hi
  rw [View.write_emb_of_mem _ _ (Finset.mem_univ y), slot_emb j y, hg]
  have hy : y = ValueIdx.ix2 (0 : Fin 1) (⟨(y 1).val, (y 1).isLt⟩ : Fin 768) := by
    funext a
    match a with
    | ⟨0, _⟩ => exact Fin.ext (by have h0 : (y 0).val < 1 := (y 0).isLt; show (y 0).val = 0; omega)
    | ⟨1, _⟩ => rfl
  conv_lhs => rw [hy]
  rfl

/-- Its instance for the protocol: what the transfer from `c` into `fwd j c` lands is the payload of that
    device's receive cell `j`, since the device `j + 1` places before `fwd j c` is `c`. -/
theorem recv_payload_of_write (c : Dev nD) (j : J)
    (fd : Buf (Elt F) ((slotM j : Memref sig .tc .vmem S1x768 .f32).view.loc ((fwd j c : Dev nD) : Thread nD τ))) :
    ((slotM j : Memref sig .tc .vmem S1x768 .f32).view.loc ((fwd j c : Dev nD) : Thread nD τ) ↦[(slotM j : Memref sig .tc .vmem S1x768 .f32).view.set]{fullShare}
        ((slotM j : Memref sig .tc .vmem S1x768 .f32).view.write (Elt F) fd
          ((ownM : Memref sig .tc .vmem S1x768 .f32).view.read (Elt F) (ownV m c)) Finset.univ) : sProp 𝕄)
      ⊢ recvPay m (fwd j c) j := by
  refine Entails.of_eq ?_
  unfold recvPay
  refine slot_landed (F := F) (fwd j c) j fd (ownV m c) (commV m (fwd j c)) fun k => ?_
  show colMax (fun d => xOf m d) (bwd ⟨j.val, j.isLt⟩ (fwd j c)) (ValueIdx.ix2 (0 : Fin 1) (⟨k.val, k.isLt⟩ : Fin 768)) = _
  rw [show (⟨j.val, j.isLt⟩ : J) = j from rfl, bwd_fwd]
  rfl

/-- Rows held at some contents each join to the landing buffer held whole at some contents
    (`f₀` only witnesses that contents exist). -/
theorem comm_rows_join (c : Dev nD) (f₀ : Buf (Elt F) ((c : Thread nD τ).loc cc0_scratch1)) :
    bigSep Finset.univ (fun j : J => (iprop(∃ f, slotPts (F := F) c j f) : sProp 𝕄))
      ⊢ (iprop(∃ g, ((c : Thread nD τ).loc cc0_scratch1) ↦{fullShare} g) : sProp 𝕄) := by
  have hrow : (fun j : J => (iprop(∃ f, slotPts (F := F) c j f) : sProp 𝕄))
      = fun j : J => (iprop(∃ f, (((c : Thread nD τ).loc cc0_scratch1) ↦[rowSet j]{fullShare} f)) : sProp 𝕄) :=
    funext fun j => congrArg (fun P : Buf (Elt F) ((c : Thread nD τ).loc cc0_scratch1) → sProp 𝕄 => (iprop(∃ f, P f) : sProp 𝕄))
      (funext fun f => slotPts_eq c j f)
  rw [hrow]
  exact Ring.pointsTo_blocks_join_exists (ℓ := (c : Thread nD τ).loc cc0_scratch1) (fun j : J => rowSet j) row_disjoint row_cover f₀

/-! ### Axioms -/

/-- info: 'Cert.KernelIdeal.AllMax.comm_rows' depends on axioms: [propext, Classical.choice, Quot.sound] -/
#guard_msgs in #print axioms comm_rows

/-- info: 'Cert.KernelIdeal.AllMax.own_shares' depends on axioms: [propext, Classical.choice, Quot.sound] -/
#guard_msgs in #print axioms own_shares

/-- info: 'Cert.KernelIdeal.AllMax.recv_payload_of_write' depends on axioms: [propext, Classical.choice, Quot.sound] -/
#guard_msgs in #print axioms recv_payload_of_write

end Cert.KernelIdeal.AllMax

end
-- ==== Proof.KernelIdeal.StepsB.lean ====
import proofs.«900910_g7700000000000911_dist_max_ax0_shard0_i_m1536_n768_v7x_i32_f32_1_alg».proof.Proof.KernelIdeal.Steps
import proofs.«900910_g7700000000000911_dist_max_ax0_shard0_i_m1536_n768_v7x_i32_f32_1_alg».proof.Proof.KernelIdeal.Mem

/-! The transfer steps at a symbolic device `c` and offset index `j`: the transfer of the device's row into a peer's landing
row, the wait for a row to land, and the wait for a transfer's source to be released. -/

noncomputable section

namespace Cert.KernelIdeal.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The transfer of the device's row into row `j` of the landing buffer of `fwd j c`: it pays the device's own send
    duty (the source share comes back with it) and the peer's receive duty (the landed row). -/
theorem step_send (κ : Dev nD × CK → ℕ) (c : Dev nD) (j : J) {T : Finset J} (hj : j ∈ T) {W : Waits sig Unit}
    (fd : Buf (Elt F) ((slotM j : Memref sig .tc .vmem S1x768 .f32).view.loc ((fwd j c : Dev nD) : Thread nD τ)))
    {hsc : (slotM j : Memref sig (Dev.tc (fwd j c) : Thread nD τ).2.kind .vmem S1x768 .f32).view.ref.isScScratch = false}
    {hsrc : (ownM : Memref sig .tc .vmem S1x768 .f32).view.WordExact} {hdst : (slotM j : Memref sig .tc .vmem S1x768 .f32).view.WordExact}
    {hsem : DmaTarget.Typed .vmem (.dma (recvSem j)) (.remote (Dev.tc (fwd j c) : Thread nD τ) (slotM j : Memref sig .tc .vmem S1x768 .f32) (.dma (sendSem j)) hsc)}
    {α : Type} {Q : α → sProp 𝕄} {k : PUnit → Prog (TpuEff nD τ sig (Elt F) Λ₀ .tc) α} :
    iprop(records m κ ∗ ownPts c (shTok j) (ownV m c) ∗ slotPts (fwd j c) j fd
        ∗ owes (c : Thread nD τ) (owedOn c ∅ T) W
        ∗ dutyTok ER (sendCell c j) 0 (0 : J) ∗ dutyTok ER (recvCell (fwd j c) j) 0 (0 : J))
      ⊢ iprop(((cred (tallyAt (sendCell c j) () N) ∗ owes (c : Thread nD τ) (owedOn c ∅ (T.erase j)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownM (.remote (Dev.tc (fwd j c) : Thread nD τ) (slotM j) (.dma (sendSem j)) hsc) (.dma (recvSem j)) hsrc hdst hsem) k) Q) := by
  -- the two duties paid: duty 0 of round 0 of the device's send cell and of the peer's receive cell
  have hd₁ : (0 : J) ∈ (sched (F := F) m).duties (sendCell c j) 0 := by rw [duties_send]; exact Finset.mem_singleton_self _
  have hd₂ : (0 : J) ∈ (sched (F := F) m).duties (recvCell (fwd j c) j) 0 := by rw [duties_recv]; exact Finset.mem_singleton_self _
  -- a landing row is credited as a whole row is
  have hN : (slotM j : Memref sig .tc .vmem S1x768 .f32).view.amount (SemLoc.dma (recvSem j)) = N :=
    (View.amount_dma _ _).trans (slot_credit j)
  -- what is owed before the transfer is what is owed after it and the peer's receive credit
  have hO : owedOn c ∅ T = owedOn c ∅ (T.erase j) + tallyAt (recvCell (fwd j c) j) () N := owedOn_peel_recv c hj
  -- the source share is the send duty's payload; the landed row is the receive duty's
  have hpay₁ : ((ownM : Memref sig .tc .vmem S1x768 .f32).view.loc (c : Thread nD τ) ↦[(ownM : Memref sig .tc .vmem S1x768 .f32).view.set]{shTok j} ownV m c : sProp 𝕄)
      ⊢ (sched (F := F) m).payload (sendCell c j) 0 (0 : J) :=
    Entails.of_eq (by rw [payload_send]; rfl)
  have hpay₂ : ((slotM j : Memref sig .tc .vmem S1x768 .f32).view.loc ((fwd j c : Dev nD) : Thread nD τ) ↦[(slotM j : Memref sig .tc .vmem S1x768 .f32).view.set]{fullShare}
        ((slotM j : Memref sig .tc .vmem S1x768 .f32).view.write (Elt F) fd ((ownM : Memref sig .tc .vmem S1x768 .f32).view.read (Elt F) (ownV m c)) Finset.univ) : sProp 𝕄)
      ⊢ (sched (F := F) m).payload (recvCell (fwd j c) j) 0 (0 : J) :=
    (recv_payload_of_write m c j fd).trans (Entails.of_eq (payload_recv m (fwd j c) j 0).symm)
  unfold ownPts slotPts
  iintro ⟨#Hrec, Hsrc, Hdst, HL, Hts, Htr⟩ Hk
  iapply (Rounds.wp_send_pointsTo 𝒱₀ ER (sched m) (c : Thread nD τ) none (c' := (Dev.tc (fwd j c) : Thread nD τ))
      (src := ownM) (dst := slotM j) (sS := SemLoc.dma (sendSem j)) (sem := SemLoc.dma (recvSem j))
      (q := shTok j) (fs := ownV m c) (fd := fd) (r₁ := 0) (r₂ := 0) (d₁ := (0 : J)) (d₂ := (0 : J))
      (κ₁ := κ (c, .inr (.inl j))) (κ₂ := κ (fwd j c, .inr (.inr j)))
      hd₁ hd₂ () () N hN (amount_send m c j 0) (amount_recv m (fwd j c) j 0) (owedOn c ∅ (T.erase j)) hO hpay₁ hpay₂) $$ [Hsrc Hdst HL Hts Htr]
  · isplitr; · iapply (inv_send m κ c j); iexact Hrec
    isplitr; · iapply (inv_recv m κ (fwd j c) j); iexact Hrec
    isplitl [Hsrc]; · iexact Hsrc
    isplitl [Hdst]; · iexact Hdst
    isplitl [HL]; · iexact HL
    isplitl [Hts]; · iexact Hts
    isplitr; · iapply (reached_send m κ c j); iexact Hrec
    isplitl [Htr]; · iexact Htr
    iapply (reached_recv m κ (fwd j c) j); iexact Hrec
  iexact Hk

/-- The wait for row `j` to land: the row, holding the column maxima of the device `j + 1` places before. -/
theorem step_recv_wait (κ : Dev nD × CK → ℕ) (c : Dev nD) (j : J) {W : Waits sig Unit}
    {hsrc : (ownM : Memref sig .tc .vmem S1x768 .f32).view.WordExact} {hdst : (slotM j : Memref sig .tc .vmem S1x768 .f32).view.WordExact}
    {α : Type} {Q : α → sProp 𝕄} {k : PUnit → Prog (TpuEff nD τ sig (Elt F) Λ₀ .tc) α} :
    iprop(records m κ ∗ cred (tallyAt (recvCell c j) () N) ∗ owes (c : Thread nD τ) 0 W ∗ atPos ER (recvCell c j) 0 ∅ 0)
      ⊢ iprop(((owes (c : Thread nD τ) 0 (insert (SemLoc.dma (recvSem j), ()) W) ∗ atPos ER (recvCell c j) 1 ∅ 0 ∗ slotPts c j (commV m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvSem j) ownM (slotM j) hsrc hdst) k) Q) := by
  -- the wait consumes a landing row's credit, which is a row's
  have hw : ∀ K : PUnit → sProp 𝕄,
      wpE (defs₀ (F := F)) 𝒱₀ (c : Thread nD τ) none Set.univ (.waitDma2 (recvSem j) ownM (slotM j) hsrc hdst) K
        = waitSpec (c : Thread nD τ) Set.univ (SemLoc.dma (recvSem j)) N K := fun K =>
    (wpE_waitDma2_eq 𝒱₀ (c : Thread nD τ) none Set.univ K).trans
      (congrArg (fun n => waitSpec (c : Thread nD τ) Set.univ (SemLoc.dma (recvSem j)) n K) (slot_credit j))
  -- and that is the whole of the cell's one round
  have hk : 0 + N = (sched (F := F) m).expect (recvCell c j) 0 := by rw [expect_recv, Nat.zero_add]
  -- the rest of the round is its one duty's payload: the landed row
  have hrest : (bigSep ((sched (F := F) m).duties (recvCell c j) 0 \ ∅) (fun d => (sched (F := F) m).payload (recvCell c j) 0 d) : sProp 𝕄)
      ⊢ slotPts c j (commV m c) := Entails.of_eq (rest_recv m c j)
  iintro ⟨#Hrec, Hc, HL, Hat⟩ Hk
  iapply (Rounds.wp_wait_rest_token 𝒱₀ ER (sched m) (c : Thread nD τ) none (κ := κ (c, .inr (.inr j))) (sm := SemLoc.dma (recvSem j))
      hw (Set.mem_univ _) () (O := 0) (W := W) (R := 0) (m := 0) (T := ∅) hk) $$ [Hc HL Hat]
  · isplitr; · iapply (inv_recv m κ c j); iexact Hrec
    isplitl [Hc]; · iexact Hc
    isplitl [HL]; · iexact HL
    isplitr; · rw [MayWait_zero]; iempintro
    iexact Hat
  iintro ⟨HL, Hat, -, Hrest⟩
  ihave Hp := hrest $$ Hrest
  iapply Hk
  isplitl [HL]; · iexact HL
  isplitl [Hat]; · iexact Hat
  iexact Hp

/-- The wait for transfer `j`'s source to be released: the share of the device's row it read comes back. -/
theorem step_send_wait (κ : Dev nD × CK → ℕ) (c : Dev nD) (j : J) {W : Waits sig Unit}
    {hsrc : (slotM j : Memref sig .tc .vmem S1x768 .f32).view.WordExact} {hdst : (ownM : Memref sig .tc .vmem S1x768 .f32).view.WordExact}
    {α : Type} {Q : α → sProp 𝕄} {k : PUnit → Prog (TpuEff nD τ sig (Elt F) Λ₀ .tc) α} :
    iprop(records m κ ∗ cred (tallyAt (sendCell c j) () N) ∗ owes (c : Thread nD τ) 0 W ∗ atPos ER (sendCell c j) 0 ∅ 0)
      ⊢ iprop(((owes (c : Thread nD τ) 0 (insert (SemLoc.dma (sendSem j), ()) W) ∗ atPos ER (sendCell c j) 1 ∅ 0 ∗ ownPts c (shTok j) (ownV m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendSem j) (slotM j) ownM hsrc hdst) k) Q) := by
  -- the wait consumes the credit of the device's own row, the whole of the cell's one round
  have hk : 0 + (ownM : Memref sig .tc .vmem S1x768 .f32).view.dmaCredit = (sched (F := F) m).expect (sendCell c j) 0 := by
    rw [expect_send, Nat.zero_add]
  -- the rest of the round is its one duty's payload: the share of the row the transfer read
  have hrest : (bigSep ((sched (F := F) m).duties (sendCell c j) 0 \ ∅) (fun d => (sched (F := F) m).payload (sendCell c j) 0 d) : sProp 𝕄)
      ⊢ ownPts c (shTok j) (ownV m c) := Entails.of_eq (rest_send m c j)
  iintro ⟨#Hrec, Hc, HL, Hat⟩ Hk
  iapply (Rounds.wp_wait_rest_token 𝒱₀ ER (sched m) (c : Thread nD τ) none (κ := κ (c, .inr (.inl j))) (sm := SemLoc.dma (sendSem j))
      (wpE_waitDma2_eq 𝒱₀ (c : Thread nD τ) none Set.univ) (Set.mem_univ _) () (O := 0) (W := W) (R := 0) (m := 0) (T := ∅) hk) $$ [Hc HL Hat]
  · isplitr; · iapply (inv_send m κ c j); iexact Hrec
    isplitl [Hc]; · iexact Hc
    isplitl [HL]; · iexact HL
    isplitr; · rw [MayWait_zero]; iempintro
    iexact Hat
  iintro ⟨HL, Hat, -, Hrest⟩
  ihave Hp := hrest $$ Hrest
  iapply Hk
  isplitl [HL]; · iexact HL
  isplitl [Hat]; · iexact Hat
  iexact Hp

/-- info: 'Cert.KernelIdeal.AllMax.step_send_wait' depends on axioms: [propext, Classical.choice, Quot.sound] -/
#guard_msgs in #print axioms step_send_wait

end Cert.KernelIdeal.AllMax

end
-- ==== Proof.KernelIdeal.Loop.lean ====
import proofs.«900910_g7700000000000911_dist_max_ax0_shard0_i_m1536_n768_v7x_i32_f32_1_alg».proof.Proof.KernelIdeal.StepsB
import proofs.«900910_g7700000000000911_dist_max_ax0_shard0_i_m1536_n768_v7x_i32_f32_1_alg».proof.Proof.KernelIdeal.Mem

/-! The 31 steps of each family — signals, transfers, waits — are taken in the order of the offset indices
`j = 0, 1, …, 30`. Before step `j` the indices still to do are those not below `j`, and those done are the ones
below it: a separating conjunction over the former gives up its term at `j`, one over the latter takes it in,
and what a device owes is indexed by the indices still to do. The signal and the transfer steps in that form. -/

noncomputable section

namespace Cert.KernelIdeal.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The indices still to do and those done -/

/-- the offset indices not below n, and those below n -/
def rem (n : ℕ) : Finset J := Finset.univ.filter fun i => n ≤ i.val
def done (n : ℕ) : Finset J := Finset.univ.filter fun i => i.val < n

theorem mem_rem_iff {n : ℕ} {i : J} : i ∈ rem n ↔ n ≤ i.val := by
  unfold rem; rw [Finset.mem_filter]; exact ⟨fun h => h.2, fun h => ⟨Finset.mem_univ _, h⟩⟩
theorem mem_done_iff {n : ℕ} {i : J} : i ∈ done n ↔ i.val < n := by
  unfold done; rw [Finset.mem_filter]; exact ⟨fun h => h.2, fun h => ⟨Finset.mem_univ _, h⟩⟩

theorem rem_zero : rem 0 = Finset.univ :=
  Finset.ext fun i => by rw [mem_rem_iff]; exact ⟨fun _ => Finset.mem_univ _, fun _ => Nat.zero_le _⟩
theorem rem_end : rem 31 = ∅ :=
  Finset.ext fun i => by
    rw [mem_rem_iff]
    exact ⟨fun h => absurd i.isLt (Nat.not_lt.mpr h), fun h => absurd h (Finset.notMem_empty _)⟩
theorem done_zero : done 0 = ∅ :=
  Finset.ext fun i => by
    rw [mem_done_iff]
    exact ⟨fun h => absurd h (Nat.not_lt_zero _), fun h => absurd h (Finset.notMem_empty _)⟩
theorem done_end : done 31 = Finset.univ :=
  Finset.ext fun i => by rw [mem_done_iff]; exact ⟨fun _ => Finset.mem_univ _, fun _ => i.isLt⟩

theorem mem_rem : ∀ j : J, j ∈ rem j.val := fun j => mem_rem_iff.mpr (Nat.le_refl _)

/-- Past step `j` the indices still to do are those not below `j + 1`. -/
theorem rem_succ : ∀ j : J, (rem j.val).erase j = rem (j.val + 1) := fun j =>
  Finset.ext fun i => by
    rw [Finset.mem_erase, mem_rem_iff, mem_rem_iff]
    constructor
    · rintro ⟨hne, hle⟩
      have hv : i.val ≠ j.val := fun h => hne (Fin.ext h)
      omega
    · intro h
      exact ⟨fun he => by rw [he] at h; omega, by omega⟩

theorem not_mem_done : ∀ j : J, j ∉ done j.val := fun j h => Nat.lt_irrefl _ (mem_done_iff.mp h)

/-- and those done are the ones below `j + 1`. -/
theorem done_succ : ∀ j : J, insert j (done j.val) = done (j.val + 1) := fun j =>
  Finset.ext fun i => by
    rw [Finset.mem_insert, mem_done_iff, mem_done_iff]
    constructor
    · rintro (he | h)
      · rw [he]; exact Nat.lt_succ_self _
      · omega
    · intro h
      by_cases he : i = j
      · exact Or.inl he
      · have hv : i.val ≠ j.val := fun h' => he (Fin.ext h')
        exact Or.inr (by omega)

/-! ## Separating conjunctions over them -/

/-- The conjunction over the indices still to do gives up its term at `j`. -/
theorem peelR (j : J) (Φ : J → sProp 𝕄) : bigSep (rem j.val) Φ ⊢ iprop(Φ j ∗ bigSep (rem (j.val + 1)) Φ) := by
  rw [← rem_succ j]
  exact Entails.of_eq ((bigSep_erase (mem_rem j)).trans rfl)

/-- The conjunction over the indices done takes the term at `j` in. -/
theorem accR (j : J) (Φ : J → sProp 𝕄) : iprop(Φ j ∗ bigSep (done j.val) Φ) ⊢ bigSep (done (j.val + 1)) Φ := by
  rw [← done_succ j]
  exact Entails.of_eq ((bigSep_insert (not_mem_done j)).symm.trans rfl)

/-- At the start every index is still to do and none is done; at the end all are done. -/
theorem startR (Φ : J → sProp 𝕄) : bigSep Finset.univ Φ ⊢ bigSep (rem (0 : J).val) Φ :=
  Entails.of_eq (congrArg (fun s => bigSep s Φ) rem_zero).symm
theorem startAcc (Φ : J → sProp 𝕄) : (iprop(emp) : sProp 𝕄) ⊢ bigSep (done (0 : J).val) Φ :=
  Entails.of_eq ((congrArg (fun s => bigSep s Φ) done_zero).trans bigSep_empty).symm
theorem endAcc (Φ : J → sProp 𝕄) : bigSep (done ((30 : J).val + 1)) Φ ⊢ bigSep Finset.univ Φ :=
  Entails.of_eq (congrArg (fun s => bigSep s Φ) done_end)

/-! ## What is owed, by the indices still to do -/

theorem O₀_eq (c : Dev nD) : O₀ c = owedOn c (rem (0 : J).val) (rem (0 : J).val) :=
  (congrArg (fun s => owedOn c s s) rem_zero).symm
theorem owed_after_signals (c : Dev nD) (T : Finset J) : owedOn c (rem ((30 : J).val + 1)) T = owedOn c ∅ T :=
  congrArg (fun s => owedOn c s T) rem_end
theorem owed_after_sends (c : Dev nD) : owedOn c ∅ (rem ((30 : J).val + 1)) = 0 :=
  (congrArg (fun s => owedOn c ∅ s) rem_end).trans (owedOn_empty c)

/-! ## The signal and the transfer at step `j` -/

/-- Steps.lean's step_signal and StepsB.lean's step_send with the index sets in this form -/
theorem sigR (κ : Dev nD × CK → ℕ) (c : Dev nD) (j : J) {T : Finset J} {W : Waits sig Unit}
    {α : Type} {Q : α → sProp 𝕄} {k : PUnit → Prog (TpuEff nD τ sig (Elt F) Λ₀ .tc) α} :
    iprop(records m κ ∗ owes (c : Thread nD τ) (owedOn c (rem j.val) T) W ∗ dutyTok ER (barCell (fwd j c)) 0 (Fin.rev j)
        ∗ (∃ f, slotPts (F := F) c (Fin.rev j) f))
      ⊢ iprop((owes (c : Thread nD τ) (owedOn c (rem (j.val + 1)) T) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((fwd j c : Dev nD), Proc.tc) barS (1#32 : BitVec 32).toNat) k) Q) := by
  rw [← rem_succ j]; exact step_signal m κ c j (mem_rem j)

theorem sendR (κ : Dev nD × CK → ℕ) (c : Dev nD) (j : J) {W : Waits sig Unit}
    (fd : Buf (Elt F) ((slotM j : Memref sig .tc .vmem S1x768 .f32).view.loc ((fwd j c : Dev nD) : Thread nD τ)))
    {hsc : (slotM j : Memref sig (Dev.tc (fwd j c) : Thread nD τ).2.kind .vmem S1x768 .f32).view.ref.isScScratch = false}
    {hsrc : (ownM : Memref sig .tc .vmem S1x768 .f32).view.WordExact} {hdst : (slotM j : Memref sig .tc .vmem S1x768 .f32).view.WordExact}
    {hsem : DmaTarget.Typed .vmem (.dma (recvSem j)) (.remote (Dev.tc (fwd j c) : Thread nD τ) (slotM j : Memref sig .tc .vmem S1x768 .f32) (.dma (sendSem j)) hsc)}
    {α : Type} {Q : α → sProp 𝕄} {k : PUnit → Prog (TpuEff nD τ sig (Elt F) Λ₀ .tc) α} :
    iprop(records m κ ∗ ownPts c (shTok j) (ownV m c) ∗ slotPts (fwd j c) j fd
        ∗ owes (c : Thread nD τ) (owedOn c ∅ (rem j.val)) W
        ∗ dutyTok ER (sendCell c j) 0 (0 : J) ∗ dutyTok ER (recvCell (fwd j c) j) 0 (0 : J))
      ⊢ iprop(((cred (tallyAt (sendCell c j) () N) ∗ owes (c : Thread nD τ) (owedOn c ∅ (rem (j.val + 1))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownM (.remote (Dev.tc (fwd j c) : Thread nD τ) (slotM j) (.dma (sendSem j)) hsc) (.dma (recvSem j)) hsrc hdst hsem) k) Q) := by
  rw [← rem_succ j]; exact step_send m κ c j (mem_rem j) fd

/-- info: 'Cert.KernelIdeal.AllMax.peelR' depends on axioms: [propext, Classical.choice, Quot.sound] -/
#guard_msgs in #print axioms peelR

/-- info: 'Cert.KernelIdeal.AllMax.accR' depends on axioms: [propext, Classical.choice, Quot.sound] -/
#guard_msgs in #print axioms accR

/-- info: 'Cert.KernelIdeal.AllMax.endAcc' depends on axioms: [propext, Classical.choice, Quot.sound] -/
#guard_msgs in #print axioms endAcc

/-- info: 'Cert.KernelIdeal.AllMax.O₀_eq' depends on axioms: [propext, Classical.choice, Quot.sound] -/
#guard_msgs in #print axioms O₀_eq

/-- info: 'Cert.KernelIdeal.AllMax.owed_after_sends' depends on axioms: [propext, Classical.choice, Quot.sound] -/
#guard_msgs in #print axioms owed_after_sends

end Cert.KernelIdeal.AllMax

end
-- ==== Proof.KernelIdeal.Glue.lean ====
import proofs.«900910_g7700000000000911_dist_max_ax0_shard0_i_m1536_n768_v7x_i32_f32_1_alg».proof.Proof.KernelIdeal.Mem
import proofs.«900910_g7700000000000911_dist_max_ax0_shard0_i_m1536_n768_v7x_i32_f32_1_alg».proof.Proof.KernelIdeal.Steps
import Idealize.SL.ProofMode.BigOp

/-! The bookkeeping between the steps of a device's body. Each family of 31 steps runs over the set of offset
indices still to do: one index is taken out of a family of resources, and what its step leaves is added to the
family of results. The resources each family of steps consumes are regrouped by offset index, and what the
waits leave is split back into families: the landing buffer held whole again, the device's own row held whole
again, and the 62 transfer cells closed. -/

noncomputable section

namespace Cert.KernelIdeal.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## One index out of a family, one result into a family -/

/-- A family over a set holding `j` is its member at `j` and the family over the rest. -/
theorem peel {S : Finset J} {j : J} (hj : j ∈ S) (Φ : J → sProp 𝕄) : bigSep S Φ ⊢ iprop(Φ j ∗ bigSep (S.erase j) Φ) :=
  Entails.of_eq (bigSep_erase hj)

/-- The results so far are those of the indices no longer to do; taking `j` out of the indices to do adds its result. -/
theorem acc {T : Finset J} {j : J} (hj : j ∈ T) (Φ : J → sProp 𝕄) :
    iprop(Φ j ∗ bigSep (Finset.univ \ T) Φ) ⊢ bigSep (Finset.univ \ T.erase j) Φ := by
  rw [Finset.sdiff_erase (Finset.mem_univ j), bigSep_insert (Finset.notMem_sdiff_of_mem_right hj)]
  exact .rfl

/-- With every index still to do there are no results yet, -/
theorem acc_start (Φ : J → sProp 𝕄) : (iprop(emp) : sProp 𝕄) ⊢ bigSep (Finset.univ \ (Finset.univ : Finset J)) Φ := by
  rw [Finset.sdiff_self, bigSep_empty]
  exact .rfl

/-- and with none left the results are the whole family. -/
theorem acc_done {T : Finset J} (hT : T = ∅) (Φ : J → sProp 𝕄) : bigSep (Finset.univ \ T) Φ ⊢ bigSep Finset.univ Φ := by
  rw [hT, Finset.sdiff_empty]

/-! ## The resources of each family of steps, by offset index -/

/-- What the 31 signals consume, by the signal's offset index `j`: the token of duty `rev j` of the barrier cell of
    `fwd j c`, and row `rev j` of the device's own landing buffer — the row that peer will write. The buffer held
    whole is its rows, and `rev` permutes the row indices. -/
theorem signal_res (c : Dev nD) (f : Buf (Elt F) ((c : Thread nD τ).loc cc0_scratch1)) :
    iprop((bigSep Finset.univ fun j : J => dutyTok ER (barCell (fwd j c)) 0 (Fin.rev j)) ∗ (((c : Thread nD τ).loc cc0_scratch1) ↦{fullShare} f))
      ⊢ bigSep Finset.univ (fun j : J => iprop(dutyTok ER (barCell (fwd j c)) 0 (Fin.rev j) ∗ ∃ f, slotPts (F := F) c (Fin.rev j) f)) := by
  have e1 : bigSep Finset.univ (fun j : J => slotPts (F := F) c j f)
      = bigSep Finset.univ (fun j : J => slotPts (F := F) c (Fin.rev j) f) := bigSep_univ_equiv Fin.revPerm _
  have h1 : ∀ j : J, (slotPts (F := F) c (Fin.rev j) f : sProp 𝕄) ⊢ iprop(∃ f, slotPts (F := F) c (Fin.rev j) f) :=
    fun j => by iintro H; iexists f; iexact H
  rw [comm_rows c f, e1, bigSep_sep']
  exact sep_mono_right (bigSep_mono fun j _ => h1 j)

/-- What the 31 transfers consume, by offset index `j`: row `j` of the landing buffer of `fwd j c` (handed over by
    that peer's barrier signal), share `j` of the device's own row, and the tokens of the transfer's two duties.
    The mark that came with the peer's row is not needed again. -/
theorem send_res (c : Dev nD) :
    iprop((bigSep Finset.univ fun k : J => barPay (F := F) c k) ∗ (bigSep Finset.univ fun j : J => ownPts c (shTok j) (ownV m c))
        ∗ (bigSep Finset.univ fun j : J => dutyTok ER (sendCell c j) 0 (0 : J)) ∗ (bigSep Finset.univ fun j : J => dutyTok ER (recvCell (fwd j c) j) 0 (0 : J)))
      ⊢ bigSep Finset.univ (fun j : J => iprop((∃ fd, slotPts (F := F) (fwd j c) j fd) ∗ ownPts c (shTok j) (ownV m c)
          ∗ dutyTok ER (sendCell c j) 0 (0 : J) ∗ dutyTok ER (recvCell (fwd j c) j) 0 (0 : J))) := by
  have h1 : ∀ k : J, barPay (F := F) c k ⊢ iprop(∃ fd, slotPts (F := F) (fwd k c) k fd) :=
    fun k => by unfold barPay; iintro ⟨H, -⟩; iexact H
  rw [bigSep_sep', bigSep_sep', bigSep_sep']
  exact sep_mono_left (bigSep_mono fun k _ => h1 k)

/-- What the 31 waits for landed rows consume, by offset index: the receive cell's credit and the position on it; -/
theorem recv_res (c : Dev nD) :
    iprop((bigSep Finset.univ fun j : J => cred (tallyAt (recvCell c j) () N)) ∗ (bigSep Finset.univ fun j : J => atPos ER (recvCell c j) 0 ∅ 0))
      ⊢ (bigSep Finset.univ (fun j : J => iprop(cred (tallyAt (recvCell c j) () N) ∗ atPos ER (recvCell c j) 0 ∅ 0)) : sProp 𝕄) :=
  Entails.of_eq (bigSep_sep' _ _ _).symm

/-- and the 31 waits for released sources, likewise on the send cells. -/
theorem sendw_res (c : Dev nD) :
    iprop((bigSep Finset.univ fun j : J => cred (tallyAt (sendCell c j) () N)) ∗ (bigSep Finset.univ fun j : J => atPos ER (sendCell c j) 0 ∅ 0))
      ⊢ (bigSep Finset.univ (fun j : J => iprop(cred (tallyAt (sendCell c j) () N) ∗ atPos ER (sendCell c j) 0 ∅ 0)) : sProp 𝕄) :=
  Entails.of_eq (bigSep_sep' _ _ _).symm

/-! ## What the waits leave -/

/-- After the 31 receive waits: the positions past round 0, and the landing buffer whole again, every row landed. -/
theorem recv_out (c : Dev nD) :
    (bigSep Finset.univ (fun j : J => iprop(atPos ER (recvCell c j) 1 ∅ 0 ∗ slotPts c j (commV m c))) : sProp 𝕄)
      ⊢ iprop((bigSep Finset.univ fun j : J => atPos ER (recvCell c j) 1 ∅ 0) ∗ (((c : Thread nD τ).loc cc0_scratch1) ↦{fullShare} commV m c)) := by
  rw [bigSep_sep']
  exact sep_mono_right (Entails.of_eq (comm_rows c (commV m c)).symm)

/-- After the 31 send waits: the positions past round 0, and the device's own row whole again, every share back. -/
theorem sendw_out (c : Dev nD) :
    iprop(ownPts c shKeep (ownV m c) ∗ (bigSep Finset.univ (fun j : J => iprop(atPos ER (sendCell c j) 1 ∅ 0 ∗ ownPts c (shTok j) (ownV m c))) : sProp 𝕄))
      ⊢ iprop((bigSep Finset.univ fun j : J => atPos ER (sendCell c j) 1 ∅ 0) ∗ (((c : Thread nD τ).loc cc0_scratch0) ↦{fullShare} ownV m c)) := by
  rw [bigSep_sep']
  iintro ⟨Hk, Hat, Hs⟩
  isplitl [Hat]; · iexact Hat
  iapply (own_shares c (ownV m c)).2
  isplitl [Hk]; · iexact Hk
  iexact Hs

/-- The 62 transfer cells close: each one's single round is consumed, so its counter, at zero, is the device's again. -/
theorem close_all (κ : Dev nD × CK → ℕ) (c : Dev nD) :
    iprop(records m κ ∗ (bigSep Finset.univ fun j : J => atPos ER (sendCell c j) 1 ∅ 0) ∗ (bigSep Finset.univ fun j : J => atPos ER (recvCell c j) 1 ∅ 0))
      ⊢ iprop(|={Set.univ}=> ((bigSep Finset.univ fun j : J => semVal (sendCell c j) 0) ∗ (bigSep Finset.univ fun j : J => semVal (recvCell c j) 0) : sProp 𝕄)) := by
  have hs : iprop(records m κ ∗ bigSep Finset.univ fun j : J => atPos ER (sendCell c j) 1 ∅ 0)
      ⊢ iprop(|={Set.univ}=> (bigSep Finset.univ fun j : J => (semVal (sendCell c j) 0 : sProp 𝕄))) :=
    (bigSep_with_persistent fun j _ => close_send m κ c j).trans (bigSep_fupd _ _)
  have hr : iprop(records m κ ∗ bigSep Finset.univ fun j : J => atPos ER (recvCell c j) 1 ∅ 0)
      ⊢ iprop(|={Set.univ}=> (bigSep Finset.univ fun j : J => (semVal (recvCell c j) 0 : sProp 𝕄))) :=
    (bigSep_with_persistent fun j _ => close_recv m κ c j).trans (bigSep_fupd _ _)
  iintro ⟨#Hrec, Hs, Hr⟩
  iapply fupd_sep
  isplitl [Hs]
  · iapply hs
    isplitr; · iexact Hrec
    iexact Hs
  · iapply hr
    isplitr; · iexact Hrec
    iexact Hr

/-! ### Axioms -/

/-- info: 'Cert.KernelIdeal.AllMax.signal_res' depends on axioms: [propext, Classical.choice, Quot.sound] -/
#guard_msgs in #print axioms signal_res

/-- info: 'Cert.KernelIdeal.AllMax.send_res' depends on axioms: [propext, Classical.choice, Quot.sound] -/
#guard_msgs in #print axioms send_res

/-- info: 'Cert.KernelIdeal.AllMax.recv_out' depends on axioms: [propext, Classical.choice, Quot.sound] -/
#guard_msgs in #print axioms recv_out

/-- info: 'Cert.KernelIdeal.AllMax.sendw_out' depends on axioms: [propext, Classical.choice, Quot.sound] -/
#guard_msgs in #print axioms sendw_out

end Cert.KernelIdeal.AllMax

end
-- ==== Proof.KernelIdeal.PayRows.lean ====
import proofs.«900910_g7700000000000911_dist_max_ax0_shard0_i_m1536_n768_v7x_i32_f32_1_alg».proof.Proof.KernelIdeal.Ghost

/-! The payload of the barrier duty each of a device's 31 signals pays, resolved at the signalling device: the
signal with offset index `j` hands the peer row `30 - j` of the signalling device's own landing buffer and the fact that
its receive cell `30 - j` is at round 0. -/

noncomputable section

namespace Cert.KernelIdeal.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

variable (m : (ℓ : Loc nD τ sig) → Buf (Elt F) ℓ)

/-- The payload of the duty the signal with offset index `j` pays, resolved at the signalling device `c`. -/
theorem payload_bar_paid (c : Dev nD) (j : J) :
    (sched (F := F) m).payload (barCell (fwd j c)) 0 (Fin.rev j)
      = iprop((∃ f, (slotM (Fin.rev j) : Memref sig .tc .vmem S1x768 .f32).view.loc (c : Thread nD τ) ↦[(slotM (Fin.rev j) : Memref sig .tc .vmem S1x768 .f32).view.set]{fullShare} f)
          ∗ reached ER (recvCell c (Fin.rev j)) 0) := by
  rw [payload_bar]; unfold barPay slotPts; rw [fwd_rev_fwd]

@[sl_rounds] theorem payload_bar_paid_0 (c : Dev nD) :
    (sched (F := F) m).payload (barCell (fwd 0 c)) 0 30
      = iprop((∃ f, (slotM 30 : Memref sig .tc .vmem S1x768 .f32).view.loc (c : Thread nD τ) ↦[(slotM 30 : Memref sig .tc .vmem S1x768 .f32).view.set]{fullShare} f)
          ∗ reached ER (recvCell c 30) 0) :=
  payload_bar_paid m c 0
@[sl_rounds] theorem payload_bar_paid_1 (c : Dev nD) :
    (sched (F := F) m).payload (barCell (fwd 1 c)) 0 29
      = iprop((∃ f, (slotM 29 : Memref sig .tc .vmem S1x768 .f32).view.loc (c : Thread nD τ) ↦[(slotM 29 : Memref sig .tc .vmem S1x768 .f32).view.set]{fullShare} f)
          ∗ reached ER (recvCell c 29) 0) :=
  payload_bar_paid m c 1
@[sl_rounds] theorem payload_bar_paid_2 (c : Dev nD) :
    (sched (F := F) m).payload (barCell (fwd 2 c)) 0 28
      = iprop((∃ f, (slotM 28 : Memref sig .tc .vmem S1x768 .f32).view.loc (c : Thread nD τ) ↦[(slotM 28 : Memref sig .tc .vmem S1x768 .f32).view.set]{fullShare} f)
          ∗ reached ER (recvCell c 28) 0) :=
  payload_bar_paid m c 2
@[sl_rounds] theorem payload_bar_paid_3 (c : Dev nD) :
    (sched (F := F) m).payload (barCell (fwd 3 c)) 0 27
      = iprop((∃ f, (slotM 27 : Memref sig .tc .vmem S1x768 .f32).view.loc (c : Thread nD τ) ↦[(slotM 27 : Memref sig .tc .vmem S1x768 .f32).view.set]{fullShare} f)
          ∗ reached ER (recvCell c 27) 0) :=
  payload_bar_paid m c 3
@[sl_rounds] theorem payload_bar_paid_4 (c : Dev nD) :
    (sched (F := F) m).payload (barCell (fwd 4 c)) 0 26
      = iprop((∃ f, (slotM 26 : Memref sig .tc .vmem S1x768 .f32).view.loc (c : Thread nD τ) ↦[(slotM 26 : Memref sig .tc .vmem S1x768 .f32).view.set]{fullShare} f)
          ∗ reached ER (recvCell c 26) 0) :=
  payload_bar_paid m c 4
@[sl_rounds] theorem payload_bar_paid_5 (c : Dev nD) :
    (sched (F := F) m).payload (barCell (fwd 5 c)) 0 25
      = iprop((∃ f, (slotM 25 : Memref sig .tc .vmem S1x768 .f32).view.loc (c : Thread nD τ) ↦[(slotM 25 : Memref sig .tc .vmem S1x768 .f32).view.set]{fullShare} f)
          ∗ reached ER (recvCell c 25) 0) :=
  payload_bar_paid m c 5
@[sl_rounds] theorem payload_bar_paid_6 (c : Dev nD) :
    (sched (F := F) m).payload (barCell (fwd 6 c)) 0 24
      = iprop((∃ f, (slotM 24 : Memref sig .tc .vmem S1x768 .f32).view.loc (c : Thread nD τ) ↦[(slotM 24 : Memref sig .tc .vmem S1x768 .f32).view.set]{fullShare} f)
          ∗ reached ER (recvCell c 24) 0) :=
  payload_bar_paid m c 6
@[sl_rounds] theorem payload_bar_paid_7 (c : Dev nD) :
    (sched (F := F) m).payload (barCell (fwd 7 c)) 0 23
      = iprop((∃ f, (slotM 23 : Memref sig .tc .vmem S1x768 .f32).view.loc (c : Thread nD τ) ↦[(slotM 23 : Memref sig .tc .vmem S1x768 .f32).view.set]{fullShare} f)
          ∗ reached ER (recvCell c 23) 0) :=
  payload_bar_paid m c 7
@[sl_rounds] theorem payload_bar_paid_8 (c : Dev nD) :
    (sched (F := F) m).payload (barCell (fwd 8 c)) 0 22
      = iprop((∃ f, (slotM 22 : Memref sig .tc .vmem S1x768 .f32).view.loc (c : Thread nD τ) ↦[(slotM 22 : Memref sig .tc .vmem S1x768 .f32).view.set]{fullShare} f)
          ∗ reached ER (recvCell c 22) 0) :=
  payload_bar_paid m c 8
@[sl_rounds] theorem payload_bar_paid_9 (c : Dev nD) :
    (sched (F := F) m).payload (barCell (fwd 9 c)) 0 21
      = iprop((∃ f, (slotM 21 : Memref sig .tc .vmem S1x768 .f32).view.loc (c : Thread nD τ) ↦[(slotM 21 : Memref sig .tc .vmem S1x768 .f32).view.set]{fullShare} f)
          ∗ reached ER (recvCell c 21) 0) :=
  payload_bar_paid m c 9
@[sl_rounds] theorem payload_bar_paid_10 (c : Dev nD) :
    (sched (F := F) m).payload (barCell (fwd 10 c)) 0 20
      = iprop((∃ f, (slotM 20 : Memref sig .tc .vmem S1x768 .f32).view.loc (c : Thread nD τ) ↦[(slotM 20 : Memref sig .tc .vmem S1x768 .f32).view.set]{fullShare} f)
          ∗ reached ER (recvCell c 20) 0) :=
  payload_bar_paid m c 10
@[sl_rounds] theorem payload_bar_paid_11 (c : Dev nD) :
    (sched (F := F) m).payload (barCell (fwd 11 c)) 0 19
      = iprop((∃ f, (slotM 19 : Memref sig .tc .vmem S1x768 .f32).view.loc (c : Thread nD τ) ↦[(slotM 19 : Memref sig .tc .vmem S1x768 .f32).view.set]{fullShare} f)
          ∗ reached ER (recvCell c 19) 0) :=
  payload_bar_paid m c 11
@[sl_rounds] theorem payload_bar_paid_12 (c : Dev nD) :
    (sched (F := F) m).payload (barCell (fwd 12 c)) 0 18
      = iprop((∃ f, (slotM 18 : Memref sig .tc .vmem S1x768 .f32).view.loc (c : Thread nD τ) ↦[(slotM 18 : Memref sig .tc .vmem S1x768 .f32).view.set]{fullShare} f)
          ∗ reached ER (recvCell c 18) 0) :=
  payload_bar_paid m c 12
@[sl_rounds] theorem payload_bar_paid_13 (c : Dev nD) :
    (sched (F := F) m).payload (barCell (fwd 13 c)) 0 17
      = iprop((∃ f, (slotM 17 : Memref sig .tc .vmem S1x768 .f32).view.loc (c : Thread nD τ) ↦[(slotM 17 : Memref sig .tc .vmem S1x768 .f32).view.set]{fullShare} f)
          ∗ reached ER (recvCell c 17) 0) :=
  payload_bar_paid m c 13
@[sl_rounds] theorem payload_bar_paid_14 (c : Dev nD) :
    (sched (F := F) m).payload (barCell (fwd 14 c)) 0 16
      = iprop((∃ f, (slotM 16 : Memref sig .tc .vmem S1x768 .f32).view.loc (c : Thread nD τ) ↦[(slotM 16 : Memref sig .tc .vmem S1x768 .f32).view.set]{fullShare} f)
          ∗ reached ER (recvCell c 16) 0) :=
  payload_bar_paid m c 14
@[sl_rounds] theorem payload_bar_paid_15 (c : Dev nD) :
    (sched (F := F) m).payload (barCell (fwd 15 c)) 0 15
      = iprop((∃ f, (slotM 15 : Memref sig .tc .vmem S1x768 .f32).view.loc (c : Thread nD τ) ↦[(slotM 15 : Memref sig .tc .vmem S1x768 .f32).view.set]{fullShare} f)
          ∗ reached ER (recvCell c 15) 0) :=
  payload_bar_paid m c 15
@[sl_rounds] theorem payload_bar_paid_16 (c : Dev nD) :
    (sched (F := F) m).payload (barCell (fwd 16 c)) 0 14
      = iprop((∃ f, (slotM 14 : Memref sig .tc .vmem S1x768 .f32).view.loc (c : Thread nD τ) ↦[(slotM 14 : Memref sig .tc .vmem S1x768 .f32).view.set]{fullShare} f)
          ∗ reached ER (recvCell c 14) 0) :=
  payload_bar_paid m c 16
@[sl_rounds] theorem payload_bar_paid_17 (c : Dev nD) :
    (sched (F := F) m).payload (barCell (fwd 17 c)) 0 13
      = iprop((∃ f, (slotM 13 : Memref sig .tc .vmem S1x768 .f32).view.loc (c : Thread nD τ) ↦[(slotM 13 : Memref sig .tc .vmem S1x768 .f32).view.set]{fullShare} f)
          ∗ reached ER (recvCell c 13) 0) :=
  payload_bar_paid m c 17
@[sl_rounds] theorem payload_bar_paid_18 (c : Dev nD) :
    (sched (F := F) m).payload (barCell (fwd 18 c)) 0 12
      = iprop((∃ f, (slotM 12 : Memref sig .tc .vmem S1x768 .f32).view.loc (c : Thread nD τ) ↦[(slotM 12 : Memref sig .tc .vmem S1x768 .f32).view.set]{fullShare} f)
          ∗ reached ER (recvCell c 12) 0) :=
  payload_bar_paid m c 18
@[sl_rounds] theorem payload_bar_paid_19 (c : Dev nD) :
    (sched (F := F) m).payload (barCell (fwd 19 c)) 0 11
      = iprop((∃ f, (slotM 11 : Memref sig .tc .vmem S1x768 .f32).view.loc (c : Thread nD τ) ↦[(slotM 11 : Memref sig .tc .vmem S1x768 .f32).view.set]{fullShare} f)
          ∗ reached ER (recvCell c 11) 0) :=
  payload_bar_paid m c 19
@[sl_rounds] theorem payload_bar_paid_20 (c : Dev nD) :
    (sched (F := F) m).payload (barCell (fwd 20 c)) 0 10
      = iprop((∃ f, (slotM 10 : Memref sig .tc .vmem S1x768 .f32).view.loc (c : Thread nD τ) ↦[(slotM 10 : Memref sig .tc .vmem S1x768 .f32).view.set]{fullShare} f)
          ∗ reached ER (recvCell c 10) 0) :=
  payload_bar_paid m c 20
@[sl_rounds] theorem payload_bar_paid_21 (c : Dev nD) :
    (sched (F := F) m).payload (barCell (fwd 21 c)) 0 9
      = iprop((∃ f, (slotM 9 : Memref sig .tc .vmem S1x768 .f32).view.loc (c : Thread nD τ) ↦[(slotM 9 : Memref sig .tc .vmem S1x768 .f32).view.set]{fullShare} f)
          ∗ reached ER (recvCell c 9) 0) :=
  payload_bar_paid m c 21
@[sl_rounds] theorem payload_bar_paid_22 (c : Dev nD) :
    (sched (F := F) m).payload (barCell (fwd 22 c)) 0 8
      = iprop((∃ f, (slotM 8 : Memref sig .tc .vmem S1x768 .f32).view.loc (c : Thread nD τ) ↦[(slotM 8 : Memref sig .tc .vmem S1x768 .f32).view.set]{fullShare} f)
          ∗ reached ER (recvCell c 8) 0) :=
  payload_bar_paid m c 22
@[sl_rounds] theorem payload_bar_paid_23 (c : Dev nD) :
    (sched (F := F) m).payload (barCell (fwd 23 c)) 0 7
      = iprop((∃ f, (slotM 7 : Memref sig .tc .vmem S1x768 .f32).view.loc (c : Thread nD τ) ↦[(slotM 7 : Memref sig .tc .vmem S1x768 .f32).view.set]{fullShare} f)
          ∗ reached ER (recvCell c 7) 0) :=
  payload_bar_paid m c 23
@[sl_rounds] theorem payload_bar_paid_24 (c : Dev nD) :
    (sched (F := F) m).payload (barCell (fwd 24 c)) 0 6
      = iprop((∃ f, (slotM 6 : Memref sig .tc .vmem S1x768 .f32).view.loc (c : Thread nD τ) ↦[(slotM 6 : Memref sig .tc .vmem S1x768 .f32).view.set]{fullShare} f)
          ∗ reached ER (recvCell c 6) 0) :=
  payload_bar_paid m c 24
@[sl_rounds] theorem payload_bar_paid_25 (c : Dev nD) :
    (sched (F := F) m).payload (barCell (fwd 25 c)) 0 5
      = iprop((∃ f, (slotM 5 : Memref sig .tc .vmem S1x768 .f32).view.loc (c : Thread nD τ) ↦[(slotM 5 : Memref sig .tc .vmem S1x768 .f32).view.set]{fullShare} f)
          ∗ reached ER (recvCell c 5) 0) :=
  payload_bar_paid m c 25
@[sl_rounds] theorem payload_bar_paid_26 (c : Dev nD) :
    (sched (F := F) m).payload (barCell (fwd 26 c)) 0 4
      = iprop((∃ f, (slotM 4 : Memref sig .tc .vmem S1x768 .f32).view.loc (c : Thread nD τ) ↦[(slotM 4 : Memref sig .tc .vmem S1x768 .f32).view.set]{fullShare} f)
          ∗ reached ER (recvCell c 4) 0) :=
  payload_bar_paid m c 26
@[sl_rounds] theorem payload_bar_paid_27 (c : Dev nD) :
    (sched (F := F) m).payload (barCell (fwd 27 c)) 0 3
      = iprop((∃ f, (slotM 3 : Memref sig .tc .vmem S1x768 .f32).view.loc (c : Thread nD τ) ↦[(slotM 3 : Memref sig .tc .vmem S1x768 .f32).view.set]{fullShare} f)
          ∗ reached ER (recvCell c 3) 0) :=
  payload_bar_paid m c 27
@[sl_rounds] theorem payload_bar_paid_28 (c : Dev nD) :
    (sched (F := F) m).payload (barCell (fwd 28 c)) 0 2
      = iprop((∃ f, (slotM 2 : Memref sig .tc .vmem S1x768 .f32).view.loc (c : Thread nD τ) ↦[(slotM 2 : Memref sig .tc .vmem S1x768 .f32).view.set]{fullShare} f)
          ∗ reached ER (recvCell c 2) 0) :=
  payload_bar_paid m c 28
@[sl_rounds] theorem payload_bar_paid_29 (c : Dev nD) :
    (sched (F := F) m).payload (barCell (fwd 29 c)) 0 1
      = iprop((∃ f, (slotM 1 : Memref sig .tc .vmem S1x768 .f32).view.loc (c : Thread nD τ) ↦[(slotM 1 : Memref sig .tc .vmem S1x768 .f32).view.set]{fullShare} f)
          ∗ reached ER (recvCell c 1) 0) :=
  payload_bar_paid m c 29
@[sl_rounds] theorem payload_bar_paid_30 (c : Dev nD) :
    (sched (F := F) m).payload (barCell (fwd 30 c)) 0 0
      = iprop((∃ f, (slotM 0 : Memref sig .tc .vmem S1x768 .f32).view.loc (c : Thread nD τ) ↦[(slotM 0 : Memref sig .tc .vmem S1x768 .f32).view.set]{fullShare} f)
          ∗ reached ER (recvCell c 0) 0) :=
  payload_bar_paid m c 30

end Cert.KernelIdeal.AllMax

end
-- ==== Proof.KernelIdeal.Data.lean ====
import proofs.«900910_g7700000000000911_dist_max_ax0_shard0_i_m1536_n768_v7x_i32_f32_1_alg».proof.Proof.KernelIdeal.Ghost
import proofs.«900910_g7700000000000911_dist_max_ax0_shard0_i_m1536_n768_v7x_i32_f32_1_alg».proof.Proof.Gen.KernelIdeal.Points

/-! The pipeline's proof data for the one grid point: the argument's block as staged, the stored row, the
invariant before the point (the launch's ghost state and the two scratch buffers at some contents) and after it
(the scratch buffers back, the 62 transfer semaphores at zero), and the body's pre- and postcondition. -/

noncomputable section

namespace Cert.KernelIdeal.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A scratch buffer held whole at some contents. -/
abbrev someBuf (c : Dev nD) (b : Ref sig .tc) : sProp 𝕄 :=
  iprop(∃ f : Buf (Elt F) (((c : Dev nD) : Thread nD τ).loc b), ((c : Thread nD τ).loc b) ↦{fullShare} f)

def Φ₀ (c : Dev nD) : sProp 𝕄 := iprop(start m c ∗ someBuf c cc0_scratch0 ∗ someBuf c cc0_scratch1)

def Φ₁ (c : Dev nD) : sProp 𝕄 :=
  iprop(someBuf (F := F) c cc0_scratch0 ∗ someBuf c cc0_scratch1
    ∗ (bigSep Finset.univ fun j : J => semVal (sendCell c j) 0) ∗ (bigSep Finset.univ fun j : J => semVal (recvCell c j) 0))

def dats (_ : Fin 1) (c : Dev nD) : Dat τ (Elt F) Unit ℕ UU ℕ cfg0 c where
  A w := m ((cfg0.win w).arr.view.loc (c : Thread nD τ))
  after w _ := match w with
    | ⟨0, _⟩ => xOf m c
    | ⟨1, _⟩ => outV m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xOf m c) ∗ stg c cc0_stg1_0 (outV m c))

/-- The kernel's body as the pipeline calls it at the point. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _) cc0_scratch2 cc0_scratch3

set_option maxRecDepth 32768 in
/-- The library's body obligation on device `c`, from the body run from `bodyPre` to `bodyPost`. -/
theorem body_obligation_of (c : Dev nD)
    (h : bodyPre m c ⊢ wp frame (wpE (defs₀ (F := F)) 𝒱₀ c none) Set.univ (theBody (F := F)) (fun _ => bodyPost m c)) :
    BodyObligation (dats (F := F) m 0 c) (defs₀ (F := F)) 𝒱₀ () Set.univ := fun t => by
  rw [fin_N t]
  rw [bigSep_W, bigSep_W]
  simp only [owns_whole_eq]
  exact h

end Cert.KernelIdeal.AllMax

end
-- ==== Proof.KernelIdeal.DevEqs.lean ====
import proofs.«900910_g7700000000000911_dist_max_ax0_shard0_i_m1536_n768_v7x_i32_f32_1_alg».proof.Proof.KernelIdeal.Ring

/-! The device each printed `device_id` chain names: chain `d` (a signal) and chain `31 + d` (a transfer), for
`d = 1 … 31`, both name the device `d` places after the firing one. -/

noncomputable section

namespace Cert.KernelIdeal.AllMax

open Cert.KernelIdeal Cert.KernelIdeal.Gen
open Idealize.ShloMosaic Idealize.ShloMosaic.Tactic

@[sl_canon] theorem dev1_eq (c : Dev nD) : (⟨k0_dev1 c, k0_dev1_lt c⟩ : Dev nD) = fwd 0 c := Fin.ext ((k0_dev1_eq c).trans rfl)
@[sl_canon] theorem dev2_eq (c : Dev nD) : (⟨k0_dev2 c, k0_dev2_lt c⟩ : Dev nD) = fwd 1 c := Fin.ext ((k0_dev2_eq c).trans rfl)
@[sl_canon] theorem dev3_eq (c : Dev nD) : (⟨k0_dev3 c, k0_dev3_lt c⟩ : Dev nD) = fwd 2 c := Fin.ext ((k0_dev3_eq c).trans rfl)
@[sl_canon] theorem dev4_eq (c : Dev nD) : (⟨k0_dev4 c, k0_dev4_lt c⟩ : Dev nD) = fwd 3 c := Fin.ext ((k0_dev4_eq c).trans rfl)
@[sl_canon] theorem dev5_eq (c : Dev nD) : (⟨k0_dev5 c, k0_dev5_lt c⟩ : Dev nD) = fwd 4 c := Fin.ext ((k0_dev5_eq c).trans rfl)
@[sl_canon] theorem dev6_eq (c : Dev nD) : (⟨k0_dev6 c, k0_dev6_lt c⟩ : Dev nD) = fwd 5 c := Fin.ext ((k0_dev6_eq c).trans rfl)
@[sl_canon] theorem dev7_eq (c : Dev nD) : (⟨k0_dev7 c, k0_dev7_lt c⟩ : Dev nD) = fwd 6 c := Fin.ext ((k0_dev7_eq c).trans rfl)
@[sl_canon] theorem dev8_eq (c : Dev nD) : (⟨k0_dev8 c, k0_dev8_lt c⟩ : Dev nD) = fwd 7 c := Fin.ext ((k0_dev8_eq c).trans rfl)
@[sl_canon] theorem dev9_eq (c : Dev nD) : (⟨k0_dev9 c, k0_dev9_lt c⟩ : Dev nD) = fwd 8 c := Fin.ext ((k0_dev9_eq c).trans rfl)
@[sl_canon] theorem dev10_eq (c : Dev nD) : (⟨k0_dev10 c, k0_dev10_lt c⟩ : Dev nD) = fwd 9 c := Fin.ext ((k0_dev10_eq c).trans rfl)
@[sl_canon] theorem dev11_eq (c : Dev nD) : (⟨k0_dev11 c, k0_dev11_lt c⟩ : Dev nD) = fwd 10 c := Fin.ext ((k0_dev11_eq c).trans rfl)
@[sl_canon] theorem dev12_eq (c : Dev nD) : (⟨k0_dev12 c, k0_dev12_lt c⟩ : Dev nD) = fwd 11 c := Fin.ext ((k0_dev12_eq c).trans rfl)
@[sl_canon] theorem dev13_eq (c : Dev nD) : (⟨k0_dev13 c, k0_dev13_lt c⟩ : Dev nD) = fwd 12 c := Fin.ext ((k0_dev13_eq c).trans rfl)
@[sl_canon] theorem dev14_eq (c : Dev nD) : (⟨k0_dev14 c, k0_dev14_lt c⟩ : Dev nD) = fwd 13 c := Fin.ext ((k0_dev14_eq c).trans rfl)
@[sl_canon] theorem dev15_eq (c : Dev nD) : (⟨k0_dev15 c, k0_dev15_lt c⟩ : Dev nD) = fwd 14 c := Fin.ext ((k0_dev15_eq c).trans rfl)
@[sl_canon] theorem dev16_eq (c : Dev nD) : (⟨k0_dev16 c, k0_dev16_lt c⟩ : Dev nD) = fwd 15 c := Fin.ext ((k0_dev16_eq c).trans rfl)
@[sl_canon] theorem dev17_eq (c : Dev nD) : (⟨k0_dev17 c, k0_dev17_lt c⟩ : Dev nD) = fwd 16 c := Fin.ext ((k0_dev17_eq c).trans rfl)
@[sl_canon] theorem dev18_eq (c : Dev nD) : (⟨k0_dev18 c, k0_dev18_lt c⟩ : Dev nD) = fwd 17 c := Fin.ext ((k0_dev18_eq c).trans rfl)
@[sl_canon] theorem dev19_eq (c : Dev nD) : (⟨k0_dev19 c, k0_dev19_lt c⟩ : Dev nD) = fwd 18 c := Fin.ext ((k0_dev19_eq c).trans rfl)
@[sl_canon] theorem dev20_eq (c : Dev nD) : (⟨k0_dev20 c, k0_dev20_lt c⟩ : Dev nD) = fwd 19 c := Fin.ext ((k0_dev20_eq c).trans rfl)
@[sl_canon] theorem dev21_eq (c : Dev nD) : (⟨k0_dev21 c, k0_dev21_lt c⟩ : Dev nD) = fwd 20 c := Fin.ext ((k0_dev21_eq c).trans rfl)
@[sl_canon] theorem dev22_eq (c : Dev nD) : (⟨k0_dev22 c, k0_dev22_lt c⟩ : Dev nD) = fwd 21 c := Fin.ext ((k0_dev22_eq c).trans rfl)
@[sl_canon] theorem dev23_eq (c : Dev nD) : (⟨k0_dev23 c, k0_dev23_lt c⟩ : Dev nD) = fwd 22 c := Fin.ext ((k0_dev23_eq c).trans rfl)
@[sl_canon] theorem dev24_eq (c : Dev nD) : (⟨k0_dev24 c, k0_dev24_lt c⟩ : Dev nD) = fwd 23 c := Fin.ext ((k0_dev24_eq c).trans rfl)
@[sl_canon] theorem dev25_eq (c : Dev nD) : (⟨k0_dev25 c, k0_dev25_lt c⟩ : Dev nD) = fwd 24 c := Fin.ext ((k0_dev25_eq c).trans rfl)
@[sl_canon] theorem dev26_eq (c : Dev nD) : (⟨k0_dev26 c, k0_dev26_lt c⟩ : Dev nD) = fwd 25 c := Fin.ext ((k0_dev26_eq c).trans rfl)
@[sl_canon] theorem dev27_eq (c : Dev nD) : (⟨k0_dev27 c, k0_dev27_lt c⟩ : Dev nD) = fwd 26 c := Fin.ext ((k0_dev27_eq c).trans rfl)
@[sl_canon] theorem dev28_eq (c : Dev nD) : (⟨k0_dev28 c, k0_dev28_lt c⟩ : Dev nD) = fwd 27 c := Fin.ext ((k0_dev28_eq c).trans rfl)
@[sl_canon] theorem dev29_eq (c : Dev nD) : (⟨k0_dev29 c, k0_dev29_lt c⟩ : Dev nD) = fwd 28 c := Fin.ext ((k0_dev29_eq c).trans rfl)
@[sl_canon] theorem dev30_eq (c : Dev nD) : (⟨k0_dev30 c, k0_dev30_lt c⟩ : Dev nD) = fwd 29 c := Fin.ext ((k0_dev30_eq c).trans rfl)
@[sl_canon] theorem dev31_eq (c : Dev nD) : (⟨k0_dev31 c, k0_dev31_lt c⟩ : Dev nD) = fwd 30 c := Fin.ext ((k0_dev31_eq c).trans rfl)
@[sl_canon] theorem dev32_eq (c : Dev nD) : (⟨k0_dev32 c, k0_dev32_lt c⟩ : Dev nD) = fwd 0 c := Fin.ext ((k0_dev32_eq c).trans rfl)
@[sl_canon] theorem dev33_eq (c : Dev nD) : (⟨k0_dev33 c, k0_dev33_lt c⟩ : Dev nD) = fwd 1 c := Fin.ext ((k0_dev33_eq c).trans rfl)
@[sl_canon] theorem dev34_eq (c : Dev nD) : (⟨k0_dev34 c, k0_dev34_lt c⟩ : Dev nD) = fwd 2 c := Fin.ext ((k0_dev34_eq c).trans rfl)
@[sl_canon] theorem dev35_eq (c : Dev nD) : (⟨k0_dev35 c, k0_dev35_lt c⟩ : Dev nD) = fwd 3 c := Fin.ext ((k0_dev35_eq c).trans rfl)
@[sl_canon] theorem dev36_eq (c : Dev nD) : (⟨k0_dev36 c, k0_dev36_lt c⟩ : Dev nD) = fwd 4 c := Fin.ext ((k0_dev36_eq c).trans rfl)
@[sl_canon] theorem dev37_eq (c : Dev nD) : (⟨k0_dev37 c, k0_dev37_lt c⟩ : Dev nD) = fwd 5 c := Fin.ext ((k0_dev37_eq c).trans rfl)
@[sl_canon] theorem dev38_eq (c : Dev nD) : (⟨k0_dev38 c, k0_dev38_lt c⟩ : Dev nD) = fwd 6 c := Fin.ext ((k0_dev38_eq c).trans rfl)
@[sl_canon] theorem dev39_eq (c : Dev nD) : (⟨k0_dev39 c, k0_dev39_lt c⟩ : Dev nD) = fwd 7 c := Fin.ext ((k0_dev39_eq c).trans rfl)
@[sl_canon] theorem dev40_eq (c : Dev nD) : (⟨k0_dev40 c, k0_dev40_lt c⟩ : Dev nD) = fwd 8 c := Fin.ext ((k0_dev40_eq c).trans rfl)
@[sl_canon] theorem dev41_eq (c : Dev nD) : (⟨k0_dev41 c, k0_dev41_lt c⟩ : Dev nD) = fwd 9 c := Fin.ext ((k0_dev41_eq c).trans rfl)
@[sl_canon] theorem dev42_eq (c : Dev nD) : (⟨k0_dev42 c, k0_dev42_lt c⟩ : Dev nD) = fwd 10 c := Fin.ext ((k0_dev42_eq c).trans rfl)
@[sl_canon] theorem dev43_eq (c : Dev nD) : (⟨k0_dev43 c, k0_dev43_lt c⟩ : Dev nD) = fwd 11 c := Fin.ext ((k0_dev43_eq c).trans rfl)
@[sl_canon] theorem dev44_eq (c : Dev nD) : (⟨k0_dev44 c, k0_dev44_lt c⟩ : Dev nD) = fwd 12 c := Fin.ext ((k0_dev44_eq c).trans rfl)
@[sl_canon] theorem dev45_eq (c : Dev nD) : (⟨k0_dev45 c, k0_dev45_lt c⟩ : Dev nD) = fwd 13 c := Fin.ext ((k0_dev45_eq c).trans rfl)
@[sl_canon] theorem dev46_eq (c : Dev nD) : (⟨k0_dev46 c, k0_dev46_lt c⟩ : Dev nD) = fwd 14 c := Fin.ext ((k0_dev46_eq c).trans rfl)
@[sl_canon] theorem dev47_eq (c : Dev nD) : (⟨k0_dev47 c, k0_dev47_lt c⟩ : Dev nD) = fwd 15 c := Fin.ext ((k0_dev47_eq c).trans rfl)
@[sl_canon] theorem dev48_eq (c : Dev nD) : (⟨k0_dev48 c, k0_dev48_lt c⟩ : Dev nD) = fwd 16 c := Fin.ext ((k0_dev48_eq c).trans rfl)
@[sl_canon] theorem dev49_eq (c : Dev nD) : (⟨k0_dev49 c, k0_dev49_lt c⟩ : Dev nD) = fwd 17 c := Fin.ext ((k0_dev49_eq c).trans rfl)
@[sl_canon] theorem dev50_eq (c : Dev nD) : (⟨k0_dev50 c, k0_dev50_lt c⟩ : Dev nD) = fwd 18 c := Fin.ext ((k0_dev50_eq c).trans rfl)
@[sl_canon] theorem dev51_eq (c : Dev nD) : (⟨k0_dev51 c, k0_dev51_lt c⟩ : Dev nD) = fwd 19 c := Fin.ext ((k0_dev51_eq c).trans rfl)
@[sl_canon] theorem dev52_eq (c : Dev nD) : (⟨k0_dev52 c, k0_dev52_lt c⟩ : Dev nD) = fwd 20 c := Fin.ext ((k0_dev52_eq c).trans rfl)
@[sl_canon] theorem dev53_eq (c : Dev nD) : (⟨k0_dev53 c, k0_dev53_lt c⟩ : Dev nD) = fwd 21 c := Fin.ext ((k0_dev53_eq c).trans rfl)
@[sl_canon] theorem dev54_eq (c : Dev nD) : (⟨k0_dev54 c, k0_dev54_lt c⟩ : Dev nD) = fwd 22 c := Fin.ext ((k0_dev54_eq c).trans rfl)
@[sl_canon] theorem dev55_eq (c : Dev nD) : (⟨k0_dev55 c, k0_dev55_lt c⟩ : Dev nD) = fwd 23 c := Fin.ext ((k0_dev55_eq c).trans rfl)
@[sl_canon] theorem dev56_eq (c : Dev nD) : (⟨k0_dev56 c, k0_dev56_lt c⟩ : Dev nD) = fwd 24 c := Fin.ext ((k0_dev56_eq c).trans rfl)
@[sl_canon] theorem dev57_eq (c : Dev nD) : (⟨k0_dev57 c, k0_dev57_lt c⟩ : Dev nD) = fwd 25 c := Fin.ext ((k0_dev57_eq c).trans rfl)
@[sl_canon] theorem dev58_eq (c : Dev nD) : (⟨k0_dev58 c, k0_dev58_lt c⟩ : Dev nD) = fwd 26 c := Fin.ext ((k0_dev58_eq c).trans rfl)
@[sl_canon] theorem dev59_eq (c : Dev nD) : (⟨k0_dev59 c, k0_dev59_lt c⟩ : Dev nD) = fwd 27 c := Fin.ext ((k0_dev59_eq c).trans rfl)
@[sl_canon] theorem dev60_eq (c : Dev nD) : (⟨k0_dev60 c, k0_dev60_lt c⟩ : Dev nD) = fwd 28 c := Fin.ext ((k0_dev60_eq c).trans rfl)
@[sl_canon] theorem dev61_eq (c : Dev nD) : (⟨k0_dev61 c, k0_dev61_lt c⟩ : Dev nD) = fwd 29 c := Fin.ext ((k0_dev61_eq c).trans rfl)
@[sl_canon] theorem dev62_eq (c : Dev nD) : (⟨k0_dev62 c, k0_dev62_lt c⟩ : Dev nD) = fwd 30 c := Fin.ext ((k0_dev62_eq c).trans rfl)

/-- Rewrites every printed device chain to its closed form. -/
macro "dev_simp" : tactic => `(tactic| simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq])

end Cert.KernelIdeal.AllMax

end
-- ==== Proof.KernelIdeal.Body.lean ====
import proofs.«900910_g7700000000000911_dist_max_ax0_shard0_i_m1536_n768_v7x_i32_f32_1_alg».proof.Proof.KernelIdeal.Loop
import proofs.«900910_g7700000000000911_dist_max_ax0_shard0_i_m1536_n768_v7x_i32_f32_1_alg».proof.Proof.KernelIdeal.Glue
import proofs.«900910_g7700000000000911_dist_max_ax0_shard0_i_m1536_n768_v7x_i32_f32_1_alg».proof.Proof.KernelIdeal.PayRows
import proofs.«900910_g7700000000000911_dist_max_ax0_shard0_i_m1536_n768_v7x_i32_f32_1_alg».proof.Proof.KernelIdeal.Data
import proofs.«900910_g7700000000000911_dist_max_ax0_shard0_i_m1536_n768_v7x_i32_f32_1_alg».proof.Proof.KernelIdeal.DevEqs

/-! One device's kernel body, run from the launch's ghost state to the closed cells and the stored row. -/

noncomputable section

namespace Cert.KernelIdeal.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

-- the barrier payloads are read through the rows resolved at the signalling device (PayRows), not the general row
attribute [-sl_rounds] payload_bar

/-- What a device owes before its signal `j`, with that signal's unit last. -/
theorem owed_sig (c : Dev nD) (j : J) (T : Finset J) :
    owedOn c (rem j.val) T = owedOn c (rem (j.val + 1)) T + tallyAt (barCell (fwd j c)) () 1 := by
  rw [← rem_succ j]; exact owedOn_peel_bar c (mem_rem j)

/-- A buffer held whole, spelt through its whole reference's view. -/
theorem x_pts (c : Dev nD) (q : PosShare TreeShare) (f : Buf (Elt F) ((c : Thread nD τ).loc cc0_stg0_0)) :
    (((c : Thread nD τ).loc cc0_stg0_0) ↦{q} f : sProp 𝕄) = ((xM : Memref sig .tc .vmem S1536x768 .f32).view.loc (c : Thread nD τ) ↦[(xM : Memref sig .tc .vmem S1536x768 .f32).view.set]{q} f) := by
  rw [View.set_whole]
theorem o_pts (c : Dev nD) (q : PosShare TreeShare) (f : Buf (Elt F) ((c : Thread nD τ).loc cc0_stg1_0)) :
    (((c : Thread nD τ).loc cc0_stg1_0) ↦{q} f : sProp 𝕄) = ((oM : Memref sig .tc .vmem S1x768 .f32).view.loc (c : Thread nD τ) ↦[(oM : Memref sig .tc .vmem S1x768 .f32).view.set]{q} f) := by
  rw [View.set_whole]
theorem own_pts (c : Dev nD) (q : PosShare TreeShare) (f : Buf (Elt F) ((c : Thread nD τ).loc cc0_scratch0)) :
    (((c : Thread nD τ).loc cc0_scratch0) ↦{q} f : sProp 𝕄) = ((ownM : Memref sig .tc .vmem S1x768 .f32).view.loc (c : Thread nD τ) ↦[(ownM : Memref sig .tc .vmem S1x768 .f32).view.set]{q} f) := by
  rw [View.set_whole]
theorem comm_pts (c : Dev nD) (q : PosShare TreeShare) (f : Buf (Elt F) ((c : Thread nD τ).loc cc0_scratch1)) :
    (((c : Thread nD τ).loc cc0_scratch1) ↦{q} f : sProp 𝕄) = ((commM : Memref sig .tc .vmem S31x1x768 .f32).view.loc (c : Thread nD τ) ↦[(commM : Memref sig .tc .vmem S31x1x768 .f32).view.set]{q} f) := by
  rw [View.set_whole]

/-- The device's row after its store: the column maxima of its block. -/
theorem own_after (c : Dev nD) (f0 : Buf (Elt F) ((c : Thread nD τ).loc cc0_scratch0)) :
    (ownM : Memref sig .tc .vmem S1x768 .f32).view.writes (Elt F) f0
      [⟨Rect.unit (s := S1x768) ![0, 0] S1x768.size inb_S1x768_S1x768_0_0,
        k0_pay1 ((xM : Memref sig .tc .vmem S1536x768 .f32).view.readAt (Elt F) (Rect.unit (s := S1536x768) ![0, 0] S1536x768.size inb_S1536x768_S1536x768_0_0).toLoadRect (xOf m c))⟩]
      = ownV m c := by
  rw [View.writes_singleton, read_x]; exact write_own f0 _

/-- The transfer cells' payloads spelt as the points-to themselves. -/
@[sl_rounds] theorem sendPay_eq (c : Dev nD) (j : J) :
    sendPay (F := F) m c j = ((ownM : Memref sig .tc .vmem S1x768 .f32).view.loc (c : Thread nD τ) ↦[(ownM : Memref sig .tc .vmem S1x768 .f32).view.set]{shTok j} ownV m c) := rfl
@[sl_rounds] theorem recvPay_eq (c : Dev nD) (j : J) :
    recvPay (F := F) m c j = ((slotM j : Memref sig .tc .vmem S1x768 .f32).view.loc (c : Thread nD τ) ↦[(slotM j : Memref sig .tc .vmem S1x768 .f32).view.set]{fullShare} commV m c) := rfl

theorem owed_sendS (c : Dev nD) (j j' : J) (h : j'.val = j.val + 1) :
    owedOn c ∅ (rem j.val) = owedOn c ∅ (rem j'.val) + tallyAt (recvCell (fwd j c) j) () N := by
  rw [h, ← rem_succ j]; exact owedOn_peel_recv c (mem_rem j)

/-- The transfer with the device it addresses named by a variable equal to the peer (the printed device chain). -/
theorem sendN (κ : Dev nD × CK → ℕ) (c : Dev nD) (j j' : J) (h : j'.val = j.val + 1) (n : Dev nD) (hn : n = fwd j c) {W : Waits sig Unit}
    (fd : Buf (Elt F) ((slotM j : Memref sig .tc .vmem S1x768 .f32).view.loc ((fwd j c : Dev nD) : Thread nD τ)))
    {hsc : (slotM j : Memref sig (Dev.tc n : Thread nD τ).2.kind .vmem S1x768 .f32).view.ref.isScScratch = false}
    {hsrc : (ownM : Memref sig .tc .vmem S1x768 .f32).view.WordExact} {hdst : (slotM j : Memref sig .tc .vmem S1x768 .f32).view.WordExact}
    {hsem : DmaTarget.Typed .vmem (.dma (recvSem j)) (.remote (Dev.tc n : Thread nD τ) (slotM j : Memref sig .tc .vmem S1x768 .f32) (.dma (sendSem j)) hsc)}
    {α : Type} {Q : α → sProp 𝕄} {k : PUnit → Prog (TpuEff nD τ sig (Elt F) Λ₀ .tc) α} :
    iprop(records m κ ∗ ownPts c (shTok j) (ownV m c) ∗ slotPts (fwd j c) j fd
        ∗ owes (c : Thread nD τ) (owedOn c ∅ (rem j.val)) W
        ∗ dutyTok ER (sendCell c j) 0 (0 : J) ∗ dutyTok ER (recvCell (fwd j c) j) 0 (0 : J))
      ⊢ iprop(((cred (tallyAt (sendCell c j) () N) ∗ owes (c : Thread nD τ) (owedOn c ∅ (rem j'.val)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownM (.remote (Dev.tc n : Thread nD τ) (slotM j) (.dma (sendSem j)) hsc) (.dma (recvSem j)) hsrc hdst hsem) k) Q) := by
  subst hn; rw [h]; exact sendR m κ c j fd

set_option hygiene false in
/-- One transfer (offset index `j`): the peer's landing row, a share of the device's row and the two duty tokens out of the
    family; the rule; the credit for the send wait into its family. -/
macro "send_step" j:term:max j':term:max hdev:term:max : tactic => `(tactic| (
  ihave Hp := (peelS (F := F) ($j : J) ($j' : J) rfl _) $$ Hsnd
  icases Hp with ⟨⟨⟨%fd, Hd⟩, Hsrc, Hts, Htv⟩, Hsnd⟩
  iapply (sendN m κ c ($j : J) ($j' : J) rfl _ ($hdev c) fd) $$ [HO Hd Hsrc Hts Htv]
  · isplitr; · iexact HR
    isplitl [Hsrc]; · iexact Hsrc
    isplitl [Hd]; · iexact Hd
    isplitl [HO]; · iexact HO
    isplitl [Hts]; · iexact Hts
    iexact Htv
  iintro ⟨Hc, HO⟩
  ihave HcS := (accS (F := F) ($j : J) ($j' : J) rfl (fun j : J => cred (tallyAt (sendCell c j) () N))) $$ [Hc HcS]
  · isplitl [Hc]; · iexact Hc
    iexact HcS))

/-- The same, leaving the index set of what is owed in its successor form (for the last index). -/
theorem sendL (κ : Dev nD × CK → ℕ) (c : Dev nD) (j : J) (n : Dev nD) (hn : n = fwd j c) {W : Waits sig Unit}
    (fd : Buf (Elt F) ((slotM j : Memref sig .tc .vmem S1x768 .f32).view.loc ((fwd j c : Dev nD) : Thread nD τ)))
    {hsc : (slotM j : Memref sig (Dev.tc n : Thread nD τ).2.kind .vmem S1x768 .f32).view.ref.isScScratch = false}
    {hsrc : (ownM : Memref sig .tc .vmem S1x768 .f32).view.WordExact} {hdst : (slotM j : Memref sig .tc .vmem S1x768 .f32).view.WordExact}
    {hsem : DmaTarget.Typed .vmem (.dma (recvSem j)) (.remote (Dev.tc n : Thread nD τ) (slotM j : Memref sig .tc .vmem S1x768 .f32) (.dma (sendSem j)) hsc)}
    {α : Type} {Q : α → sProp 𝕄} {k : PUnit → Prog (TpuEff nD τ sig (Elt F) Λ₀ .tc) α} :
    iprop(records m κ ∗ ownPts c (shTok j) (ownV m c) ∗ slotPts (fwd j c) j fd
        ∗ owes (c : Thread nD τ) (owedOn c ∅ (rem j.val)) W
        ∗ dutyTok ER (sendCell c j) 0 (0 : J) ∗ dutyTok ER (recvCell (fwd j c) j) 0 (0 : J))
      ⊢ iprop(((cred (tallyAt (sendCell c j) () N) ∗ owes (c : Thread nD τ) (owedOn c ∅ (rem (j.val + 1))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownM (.remote (Dev.tc n : Thread nD τ) (slotM j) (.dma (sendSem j)) hsc) (.dma (recvSem j)) hsrc hdst hsem) k) Q) := by
  subst hn; exact sendR m κ c j fd

set_option hygiene false in
/-- The last transfer (offset index 30). -/
macro "send_last" : tactic => `(tactic| (
  ihave Hp := (peelR (F := F) (30 : J) _) $$ Hsnd
  icases Hp with ⟨⟨⟨%fd, Hd⟩, Hsrc, Hts, Htv⟩, Hsnd⟩
  iapply (sendL m κ c (30 : J) _ (dev62_eq c) fd) $$ [HO Hd Hsrc Hts Htv]
  · isplitr; · iexact HR
    isplitl [Hsrc]; · iexact Hsrc
    isplitl [Hd]; · iexact Hd
    isplitl [HO]; · iexact HO
    isplitl [Hts]; · iexact Hts
    iexact Htv
  iintro ⟨Hc, HO⟩
  ihave HcS := (accR (F := F) (30 : J) (fun j : J => cred (tallyAt (sendCell c j) () N))) $$ [Hc HcS]
  · isplitl [Hc]; · iexact Hc
    iexact HcS))

/-- A landing row and a share of the device's row, folded back into their names. -/
theorem slotPts_fold (c : Dev nD) (j : J) (f : Buf (Elt F) ((slotM j : Memref sig .tc .vmem S1x768 .f32).view.loc (c : Thread nD τ))) :
    ((slotM j : Memref sig .tc .vmem S1x768 .f32).view.loc (c : Thread nD τ) ↦[(slotM j : Memref sig .tc .vmem S1x768 .f32).view.set]{fullShare} f : sProp 𝕄) ⊢ slotPts c j f :=
  Entails.of_eq rfl
theorem ownPts_fold (c : Dev nD) (q : PosShare TreeShare) (v : Buf (Elt F) ((ownM : Memref sig .tc .vmem S1x768 .f32).view.loc (c : Thread nD τ))) :
    ((ownM : Memref sig .tc .vmem S1x768 .f32).view.loc (c : Thread nD τ) ↦[(ownM : Memref sig .tc .vmem S1x768 .f32).view.set]{q} v : sProp 𝕄) ⊢ ownPts c q v :=
  Entails.of_eq rfl

/-- The stored row after the last store: the maximum of the device's row and the received rows. -/
theorem out_after (c : Dev nD) (g1 : Buf (Elt F) ((c : Thread nD τ).loc cc0_stg1_0)) :
    (oM : Memref sig .tc .vmem S1x768 .f32).view.writes (Elt F) g1
      [⟨Rect.unit (s := S1x768) ![0, 0] S1x768.size inb_S1x768_S1x768_0_0,
        k0_pay2 ((ownM : Memref sig .tc .vmem S1x768 .f32).view.readAt (Elt F) (Rect.unit (s := S1x768) ![0, 0] S1x768.size inb_S1x768_S1x768_0_0).toLoadRect (ownV m c))
          ((commM : Memref sig .tc .vmem S31x1x768 .f32).view.readAt (Elt F) (Rect.unit (s := S31x1x768) ![0, 0, 0] S31x1x768.size inb_S31x1x768_S31x1x768_0_0_0).toLoadRect (commV m c))⟩]
      = outV m c := by
  rw [View.writes_singleton, read_own, read_comm]; exact write_out g1 _

set_option hygiene false in
/-- One receive wait (offset index `j`): its credit and position out of the family, the cell's invariant; the step; the
    new position and the landed row into their family. -/
macro "recv_step" j:term:max j':term:max : tactic => `(tactic| (
  ihave Hp := (peelS (F := F) ($j : J) ($j' : J) rfl _) $$ Hrv
  icases Hp with ⟨⟨Hc, Hat⟩, Hrv⟩
  ihave #HIv := (inv_recv m κ c ($j : J)) $$ HR
  sl_exec
  ihave Hat_pay1 := (slotPts_fold (F := F) c ($j : J) (commV m c)) $$ Hat_pay1
  ihave HrO := (accS (F := F) ($j : J) ($j' : J) rfl (fun j : J => iprop(atPos ER (recvCell c j) 1 ∅ 0 ∗ slotPts c j (commV m c)))) $$ [Hat Hat_pay1 HrO]
  · isplitl [Hat Hat_pay1]
    · isplitl [Hat]; · iexact Hat
      iexact Hat_pay1
    iexact HrO
  iclear HIv Hat_reached))

set_option hygiene false in
macro "recv_last" : tactic => `(tactic| (
  ihave Hp := (peelR (F := F) (30 : J) _) $$ Hrv
  icases Hp with ⟨⟨Hc, Hat⟩, Hrv⟩
  ihave #HIv := (inv_recv m κ c (30 : J)) $$ HR
  sl_exec
  ihave Hat_pay1 := (slotPts_fold (F := F) c (30 : J) (commV m c)) $$ Hat_pay1
  ihave HrO := (accR (F := F) (30 : J) (fun j : J => iprop(atPos ER (recvCell c j) 1 ∅ 0 ∗ slotPts c j (commV m c)))) $$ [Hat Hat_pay1 HrO]
  · isplitl [Hat Hat_pay1]
    · isplitl [Hat]; · iexact Hat
      iexact Hat_pay1
    iexact HrO
  iclear HIv Hat_reached Hrv))

set_option hygiene false in
/-- One send wait (offset index `j`): the share of the device's row the transfer read comes back. -/
macro "sendw_step" j:term:max j':term:max : tactic => `(tactic| (
  ihave Hp := (peelS (F := F) ($j : J) ($j' : J) rfl _) $$ Hsw
  icases Hp with ⟨⟨Hc, Hat⟩, Hsw⟩
  ihave #HIs := (inv_send m κ c ($j : J)) $$ HR
  sl_exec
  ihave Hat_pay1 := (ownPts_fold (F := F) c (shTok ($j : J)) (ownV m c)) $$ Hat_pay1
  ihave HsO := (accS (F := F) ($j : J) ($j' : J) rfl (fun j : J => iprop(atPos ER (sendCell c j) 1 ∅ 0 ∗ ownPts c (shTok j) (ownV m c)))) $$ [Hat Hat_pay1 HsO]
  · isplitl [Hat Hat_pay1]
    · isplitl [Hat]; · iexact Hat
      iexact Hat_pay1
    iexact HsO
  iclear HIs Hat_reached))

set_option hygiene false in
macro "sendw_last" : tactic => `(tactic| (
  ihave Hp := (peelR (F := F) (30 : J) _) $$ Hsw
  icases Hp with ⟨⟨Hc, Hat⟩, Hsw⟩
  ihave #HIs := (inv_send m κ c (30 : J)) $$ HR
  sl_exec
  ihave Hat_pay1 := (ownPts_fold (F := F) c (shTok (30 : J)) (ownV m c)) $$ Hat_pay1
  ihave HsO := (accR (F := F) (30 : J) (fun j : J => iprop(atPos ER (sendCell c j) 1 ∅ 0 ∗ ownPts c (shTok j) (ownV m c)))) $$ [Hat Hat_pay1 HsO]
  · isplitl [Hat Hat_pay1]
    · isplitl [Hat]; · iexact Hat
      iexact Hat_pay1
    iexact HsO
  iclear HIs Hat_reached Hsw))

/-- The bookkeeping lemmas with the next index named, so that every state is spelt at a literal index. -/
theorem peelS (j j' : J) (h : j'.val = j.val + 1) (Φ : J → sProp 𝕄) : bigSep (rem j.val) Φ ⊢ iprop(Φ j ∗ bigSep (rem j'.val) Φ) := by
  rw [h]; exact peelR j Φ
theorem accS (j j' : J) (h : j'.val = j.val + 1) (Φ : J → sProp 𝕄) : iprop(Φ j ∗ bigSep (done j.val) Φ) ⊢ bigSep (done j'.val) Φ := by
  rw [h]; exact accR j Φ
theorem owed_sigS (c : Dev nD) (j j' : J) (h : j'.val = j.val + 1) (T : Finset J) :
    owedOn c (rem j.val) T = owedOn c (rem j'.val) T + tallyAt (barCell (fwd j c)) () 1 := by
  rw [h]; exact owed_sig c j T

set_option hygiene false in
/-- One signal (offset index `j`, paying the peer's duty `k = 30 - j`): its token and landing row out of the family, the
    peer cell's invariant and the two marks, the unit it pays last in what is owed; then the step. -/
macro "sig_step" j:term:max j':term:max k:term:max : tactic => `(tactic| (
  ihave Hp := (peelS (F := F) ($j : J) ($j' : J) rfl _) $$ Hsig
  icases Hp with ⟨⟨Ht, ⟨%fs, Hs⟩⟩, Hsig⟩
  ihave Ht := (Entails.of_eq (show (dutyTok ER (barCell (fwd ($j : J) c)) 0 (Fin.rev ($j : J)) : sProp 𝕄) = dutyTok ER (barCell (fwd ($j : J) c)) 0 ($k : J) from rfl)) $$ Ht
  ihave Hs := (Entails.of_eq (show (slotPts (F := F) c (Fin.rev ($j : J)) fs) = ((slotM ($k : J) : Memref sig .tc .vmem S1x768 .f32).view.loc (c : Thread nD τ) ↦[(slotM ($k : J) : Memref sig .tc .vmem S1x768 .f32).view.set]{fullShare} fs : sProp 𝕄) from rfl)) $$ Hs
  ihave #HIb := (inv_bar m κ (fwd ($j : J) c)) $$ HR
  ihave #HRb := (reached_bar m κ (fwd ($j : J) c)) $$ HR
  ihave #HRv := (reached_recv m κ c ($k : J)) $$ HR
  rw [owed_sigS c ($j : J) ($j' : J) rfl]
  sl_exec
  iclear HIb HRb HRv))

set_option hygiene false in
/-- The last signal (offset index 30, paying the peer's duty 0); the run goes on through the device's own loads and
    store to the wait on its barrier cell. -/
macro "sig_last" : tactic => `(tactic| (
  ihave Hp := (peelR (F := F) (30 : J) _) $$ Hsig
  icases Hp with ⟨⟨Ht, ⟨%fs, Hs⟩⟩, Hsig⟩
  ihave Ht := (Entails.of_eq (show (dutyTok ER (barCell (fwd (30 : J) c)) 0 (Fin.rev (30 : J)) : sProp 𝕄) = dutyTok ER (barCell (fwd (30 : J) c)) 0 (0 : J) from rfl)) $$ Ht
  ihave Hs := (Entails.of_eq (show (slotPts (F := F) c (Fin.rev (30 : J)) fs) = ((slotM (0 : J) : Memref sig .tc .vmem S1x768 .f32).view.loc (c : Thread nD τ) ↦[(slotM (0 : J) : Memref sig .tc .vmem S1x768 .f32).view.set]{fullShare} fs : sProp 𝕄) from rfl)) $$ Hs
  ihave #HIb := (inv_bar m κ (fwd (30 : J) c)) $$ HR
  ihave #HRb := (reached_bar m κ (fwd (30 : J) c)) $$ HR
  ihave #HRv := (reached_recv m κ c (0 : J)) $$ HR
  rw [owed_sig c (30 : J)]
  sl_exec))

set_option maxRecDepth 65536 in
set_option maxHeartbeats 8000000 in
theorem sound_body (c : Dev nD) :
    bodyPre m c ⊢ wp frame (wpE (defs₀ (F := F)) 𝒱₀ c none) Set.univ (theBody (F := F)) (fun _ => bodyPost m c) := by
  unfold bodyPre Φ₀ start ghost linear
  iintro ⟨⟨⟨⟨%κ, #HR, HatB, HatS, HatV, HtB, HtV, HtS⟩, HcB, HcV, #Hlev⟩, ⟨%f0, Hown⟩, ⟨%f1, Hcomm⟩⟩, Ho, ⟨%d0, %g0, %hg0, Hx⟩, ⟨%d1, %g1, %hg1, Hout⟩⟩
  have hx : g0 = xOf m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl, O₀_eq]
  unfold theBody
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel
  simp only [semSignalWord, semWaitWord, Prog.lift, Prog.bind_op, Prog.bind_ret, Prog.pure_eq_ret, wp_deviceId]
  dev_simp
  -- the 31 signals: each hands the peer the row of this device's landing buffer that peer will write
  ihave Hsig := (signal_res (F := F) c f1) $$ [HtB Hcomm]
  · isplitl [HtB]; · iexact HtB
    iexact Hcomm
  ihave Hsig := (startR (F := F) _) $$ Hsig
  sig_step 0 1 30
  sig_step 1 2 29
  sig_step 2 3 28
  sig_step 3 4 27
  sig_step 4 5 26
  sig_step 5 6 25
  sig_step 6 7 24
  sig_step 7 8 23
  sig_step 8 9 22
  sig_step 9 10 21
  sig_step 10 11 20
  sig_step 11 12 19
  sig_step 12 13 18
  sig_step 13 14 17
  sig_step 14 15 16
  sig_step 15 16 15
  sig_step 16 17 14
  sig_step 17 18 13
  sig_step 18 19 12
  sig_step 19 20 11
  sig_step 20 21 10
  sig_step 21 22 9
  sig_step 22 23 8
  sig_step 23 24 7
  sig_step 24 25 6
  sig_step 25 26 5
  sig_step 26 27 4
  sig_step 27 28 3
  sig_step 28 29 2
  sig_step 29 30 1
  -- the wait on the device's own barrier cell: its invariant, and that what is owed then (receive credit only) sits above it
  ihave #HIbc := (inv_bar m κ c) $$ HR
  have hmw : (levAts L lv : sProp 𝕄) ⊢ MayWait (c : Thread nD τ) (.reg barS) () (owedOn c (rem ((30 : J).val + 1)) (rem (0 : J).val)) := by
    rw [owed_after_signals]; exact mayWait_bar c _
  ihave Hx := (Entails.of_eq (x_pts (F := F) c fullShare _)) $$ Hx
  ihave Hown := (Entails.of_eq (own_pts (F := F) c fullShare _)) $$ Hown
  ihave Hout := (Entails.of_eq (o_pts (F := F) c fullShare _)) $$ Hout
  sig_last
  iclear HIb HRb HRv Hsig
  rw [own_after m c f0, owed_after_signals]
  -- the device's row in 32 shares: one for each transfer reading it, one kept
  ihave Hown := (Entails.of_eq (own_pts (F := F) c fullShare _).symm) $$ Hown
  ihave Hsh := (own_shares (F := F) c (ownV m c)).1 $$ Hown
  icases Hsh with ⟨HownK, HownT⟩
  -- the 31 transfers: each takes the peer's landing row (from that peer's barrier signal), a share of the device's row
  -- and the two duty tokens
  ihave Hsnd := (send_res m c) $$ [HatB_pay1 HownT HtS HtV]
  · isplitl [HatB_pay1]; · iexact HatB_pay1
    isplitl [HownT]; · iexact HownT
    isplitl [HtS]; · iexact HtS
    iexact HtV
  ihave Hsnd := (startR (F := F) _) $$ Hsnd
  ihave HcS := (startAcc (F := F) (fun j : J => cred (tallyAt (sendCell c j) () N))) $$ []
  · iempintro
  send_step 0 1 dev32_eq
  send_step 1 2 dev33_eq
  send_step 2 3 dev34_eq
  send_step 3 4 dev35_eq
  send_step 4 5 dev36_eq
  send_step 5 6 dev37_eq
  send_step 6 7 dev38_eq
  send_step 7 8 dev39_eq
  send_step 8 9 dev40_eq
  send_step 9 10 dev41_eq
  send_step 10 11 dev42_eq
  send_step 11 12 dev43_eq
  send_step 12 13 dev44_eq
  send_step 13 14 dev45_eq
  send_step 14 15 dev46_eq
  send_step 15 16 dev47_eq
  send_step 16 17 dev48_eq
  send_step 17 18 dev49_eq
  send_step 18 19 dev50_eq
  send_step 19 20 dev51_eq
  send_step 20 21 dev52_eq
  send_step 21 22 dev53_eq
  send_step 22 23 dev54_eq
  send_step 23 24 dev55_eq
  send_step 24 25 dev56_eq
  send_step 25 26 dev57_eq
  send_step 26 27 dev58_eq
  send_step 27 28 dev59_eq
  send_step 28 29 dev60_eq
  send_step 29 30 dev61_eq
  send_last
  rw [owed_after_sends]
  -- the 31 receive waits
  ihave HcS := (endAcc (F := F) _) $$ HcS
  ihave Hrv := (recv_res (F := F) c) $$ [HcV HatV]
  · isplitl [HcV]; · iexact HcV
    iexact HatV
  ihave Hrv := (startR (F := F) _) $$ Hrv
  ihave HrO := (startAcc (F := F) (fun j : J => iprop(atPos ER (recvCell c j) 1 ∅ 0 ∗ slotPts c j (commV m c)))) $$ []
  · iempintro
  iclear Hsnd HatB_reached
  recv_step 0 1
  recv_step 1 2
  recv_step 2 3
  recv_step 3 4
  recv_step 4 5
  recv_step 5 6
  recv_step 6 7
  recv_step 7 8
  recv_step 8 9
  recv_step 9 10
  recv_step 10 11
  recv_step 11 12
  recv_step 12 13
  recv_step 13 14
  recv_step 14 15
  recv_step 15 16
  recv_step 16 17
  recv_step 17 18
  recv_step 18 19
  recv_step 19 20
  recv_step 20 21
  recv_step 21 22
  recv_step 22 23
  recv_step 23 24
  recv_step 24 25
  recv_step 25 26
  recv_step 26 27
  recv_step 27 28
  recv_step 28 29
  recv_step 29 30
  recv_last
  -- the landing buffer whole again, holding every peer's row; the final loads and the store
  ihave HrO := (endAcc (F := F) _) $$ HrO
  ihave Hq := (recv_out m c) $$ HrO
  icases Hq with ⟨HatV, Hcomm⟩
  ihave Hcomm := (Entails.of_eq (comm_pts (F := F) c fullShare _)) $$ Hcomm
  unfold ownPts
  sl_exec
  rw [out_after m c g1]
  -- the 31 send waits
  ihave Hsw := (sendw_res (F := F) c) $$ [HcS HatS]
  · isplitl [HcS]; · iexact HcS
    iexact HatS
  ihave Hsw := (startR (F := F) _) $$ Hsw
  ihave HsO := (startAcc (F := F) (fun j : J => iprop(atPos ER (sendCell c j) 1 ∅ 0 ∗ ownPts c (shTok j) (ownV m c)))) $$ []
  · iempintro
  sendw_step 0 1
  sendw_step 1 2
  sendw_step 2 3
  sendw_step 3 4
  sendw_step 4 5
  sendw_step 5 6
  sendw_step 6 7
  sendw_step 7 8
  sendw_step 8 9
  sendw_step 9 10
  sendw_step 10 11
  sendw_step 11 12
  sendw_step 12 13
  sendw_step 13 14
  sendw_step 14 15
  sendw_step 15 16
  sendw_step 16 17
  sendw_step 17 18
  sendw_step 18 19
  sendw_step 19 20
  sendw_step 20 21
  sendw_step 21 22
  sendw_step 22 23
  sendw_step 23 24
  sendw_step 24 25
  sendw_step 25 26
  sendw_step 26 27
  sendw_step 27 28
  sendw_step 28 29
  sendw_step 29 30
  sendw_last
  -- the device's row whole again; the 62 transfer cells close; the invariant after the point
  ihave HsO := (endAcc (F := F) _) $$ HsO
  ihave HownK := (ownPts_fold (F := F) c shKeep (ownV m c)) $$ HownK
  ihave Hq := (sendw_out m c) $$ [HownK HsO]
  · isplitl [HownK]; · iexact HownK
    iexact HsO
  icases Hq with ⟨HatS, Hown⟩
  ihave Hcomm := (Entails.of_eq (comm_pts (F := F) c fullShare _).symm) $$ Hcomm
  ihave Hx := (Entails.of_eq (x_pts (F := F) c fullShare _).symm) $$ Hx
  ihave Hout := (Entails.of_eq (o_pts (F := F) c fullShare _).symm) $$ Hout
  imod (close_all m κ c) $$ [HatS HatV] with ⟨HzS, HzV⟩
  · isplitr; · iexact HR
    isplitl [HatS]; · iexact HatS
    iexact HatV
  rw [wp_ret]; imodintro
  unfold bodyPost Φ₁ Dat.owesAt Pipeline.owesWithin
  rw [show (dats m 0 c).owed t₀.succ = 0 from rfl]
  isplitl [Hown Hcomm HzS HzV]
  · isplitl [Hown]; · iexists _; iexact Hown
    isplitl [Hcomm]; · iexists _; iexact Hcomm
    isplitl [HzS]; · iexact HzS
    iexact HzV
  isplitl [HO]
  · iexists _
    isplitr
    swap
    · iexact HO
    · ipureintro; exact fun _ _ => Or.inl trivial
  isplitl [Hx]
  · iexists _; isplitr; · (ipureintro; rfl)
    iexact Hx
  iexists _; isplitr; · (ipureintro; rfl)
  iexact Hout

theorem body_obligation (c : Dev nD) : BodyObligation (dats (F := F) m 0 c) (defs₀ (F := F)) 𝒱₀ () Set.univ :=
  body_obligation_of m c (sound_body m c)

/-- info: 'Cert.KernelIdeal.AllMax.sound_body' depends on axioms: [propext, Classical.choice, Quot.sound] -/
#guard_msgs in #print axioms sound_body

end Cert.KernelIdeal.AllMax

end
-- ==== Proof.KernelIdeal.Launch.lean ====
import proofs.«900910_g7700000000000911_dist_max_ax0_shard0_i_m1536_n768_v7x_i32_f32_1_alg».proof.Proof.KernelIdeal.Body
import Idealize.ShloMosaic.Lib.Pipeline.Launch
import Idealize.ShloMosaic.Lib.Pipeline.Kit
import Idealize.ShloMosaic.Lib.Pipeline.Value
import Idealize.ShloMosaic.Lib.Rounds

/-! The launch: every device's body obligation, the cells funded and allocated for all devices at once, and the run of @main.

The 32 x 63 cells of the exchange are funded from one launch element; every device's 62 transfer semaphores and its
barrier semaphore, all at zero, become the cells' invariants under one update, and the duty tokens minted on a
device's own cells are dealt to the devices that pay them: the token of duty `k` of device `c`'s barrier cell to
`fwd k c`, which reaches `c` with the complementary offset index; the token of receive cell `(c, j)` to `bwd j c`,
whose transfer `j` lands there. The credit the launch deals a device for what the others owe its cells is 31 units on
its barrier cell and one row's credit on each receive cell. -/

noncomputable section

namespace Cert.KernelIdeal.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores and the staging semaphores -/

/-- The kernel's own semaphores: the 31 send and the 31 receive semaphores of the transfers. -/
abbrev osem : J ⊕ J → SemLoc sig := fun
  | .inl j => .dma (sendSem j)
  | .inr j => .dma (recvSem j)

/-- The staging semaphores are the DMA semaphores 0 and 1. -/
theorem stage_sem_lt (w : Fin cfg0.W) (s : Fin (cfg0.win w).nbuf) : ((cfg0.win w).sem s).val < 2 := by
  fin_cases w <;> fin_cases s <;> decide

theorem ownSemFacts : Pipeline.OwnSemFacts cfg0.spec osem where
  isScoped := by
    rintro (j | j)
    · revert j; decide +kernel
    · revert j; decide +kernel
  inj := by
    rintro (j | j) (j' | j') h
    · exact congrArg Sum.inl (sendSem_inj j j' (SemLoc.dma.inj h))
    · exact absurd (SemLoc.dma.inj h) (sendSem_ne_recvSem j j')
    · exact absurd (SemLoc.dma.inj h).symm (sendSem_ne_recvSem j' j)
    · exact congrArg Sum.inr (recvSem_inj j j' (SemLoc.dma.inj h))
  disj := by
    rintro (j | j) w s h
    · have h' : (sendSem j).val = ((cfg0.win w).sem s).val := congrArg (fun q : DmaSem sig => q.val) (SemLoc.dma.inj h)
      have := stage_sem_lt w s
      rw [sendSem_val] at h'; omega
    · have h' : (recvSem j).val = ((cfg0.win w).sem s).val := congrArg (fun q : DmaSem sig => q.val) (SemLoc.dma.inj h)
      have := stage_sem_lt w s
      rw [recvSem_val] at h'; omega

theorem share_eq (c : Dev nD) (w : Fin cfg0.W) : (dats m 0 c).share w = fullShare := by unfold Dat.share; split <;> rfl

/-! ## The cells' and the tokens' sets, the launch element -/

/-- The names of the duty tokens minted on a device's own cells: its barrier cell's 31 duties, and the one duty of
    each send and each receive cell. -/
abbrev TK : Type := J ⊕ (J ⊕ J)

abbrev tokOf (ct : Dev nD × TK) : GSem nD τ sig × ℕ × J := match ct.2 with
  | .inl k => (barCell ct.1, 0, k)
  | .inr (.inl j) => (sendCell ct.1 j, 0, 0)
  | .inr (.inr j) => (recvCell ct.1 j, 0, 0)

theorem tokOf_injective : Function.Injective (tokOf : Dev nD × TK → GSem nD τ sig × ℕ × J) := by
  rintro ⟨c, t⟩ ⟨c', t'⟩ h
  have h1 : c = c' := by
    have := congrArg (fun x : GSem nD τ sig × ℕ × J => x.1.1.1) h
    rcases t with k | j | j <;> rcases t' with k' | j' | j' <;> exact this
  subst h1
  have hs := congrArg (fun x : GSem nD τ sig × ℕ × J => x.1.2) h
  have hd := congrArg (fun x : GSem nD τ sig × ℕ × J => x.2.2) h
  rcases t with k | j | j <;> rcases t' with k' | j' | j'
  · have e : k = k' := hd
    rw [e]
  · exact absurd hs (fun h' => by cases h')
  · exact absurd hs (fun h' => by cases h')
  · exact absurd hs (fun h' => by cases h')
  · have e : j = j' := sendSem_inj j j' (SemLoc.dma.inj hs)
    rw [e]
  · exact absurd (SemLoc.dma.inj hs) (sendSem_ne_recvSem j j')
  · exact absurd hs (fun h' => by cases h')
  · exact absurd (SemLoc.dma.inj hs).symm (sendSem_ne_recvSem j' j)
  · have e : j = j' := recvSem_inj j j' (SemLoc.dma.inj hs)
    rw [e]

def allToks : Finset (GSem nD τ sig × ℕ × J) := Finset.univ.map ⟨tokOf, tokOf_injective⟩

/-- The launch element: the pipeline's staging cells and their tokens, the exchange's cells and theirs. -/
def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun k : J => dutyTok ER (barCell c) 0 k)
    ∗ (bigSep Finset.univ fun j : J => dutyTok ER (sendCell c j) 0 (0 : J))
    ∗ (bigSep Finset.univ fun j : J => dutyTok ER (recvCell c j) 0 (0 : J)))

/-- What the launch element deals device `c`: its cells' round states at counter zero, its positions on them with
    round 0 of each reached, and the tokens of their duties. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)

/-- What the one update at launch makes of it: the device's ghost state `ghost` at some names. -/
def G' (c : Dev nD) : sProp 𝕄 := iprop(∃ κ, ghost m κ c)

/-- A device's 63 cells one kind at a time. -/
theorem bigSep_CK (Φ : CK → sProp 𝕄) :
    bigSep Finset.univ Φ = iprop(Φ (.inl ()) ∗ (bigSep Finset.univ fun j : J => Φ (.inr (.inl j))) ∗ (bigSep Finset.univ fun j : J => Φ (.inr (.inr j)))) := by
  rw [bigSep_univ_sum, bigSep_univ_sum, bigSep_univ_of_subsingleton ()]; rfl

theorem fund_ring : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The one update at launch: every cell's invariant allocated, the tokens dealt to their payers -/

/-- The send and receive semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun j : J => semVal (sendCell c j) 0) ∗ bigSep Finset.univ fun j : J => semVal (recvCell c j) 0) := by
  unfold Pipeline.ownSems0; rw [bigSep_univ_sum]; rfl
/-- the barrier semaphore is the core's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS]; · iexact HS
  iexact HV

/-- One device's cells: each semaphore at zero with its round state becomes the cell's invariant at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k : CK => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens device `c` pays with: on the barrier cell of each peer `fwd j c` the duty named by the complementary
    offset index, each peer's receive duty, its own send duties. -/
def payToks (c : Dev nD) : sProp 𝕄 :=
  iprop((bigSep Finset.univ fun j : J => dutyTok ER (barCell (fwd j c)) 0 (Fin.rev j))
    ∗ (bigSep Finset.univ fun j : J => dutyTok ER (recvCell (fwd j c) j) 0 (0 : J))
    ∗ (bigSep Finset.univ fun j : J => dutyTok ER (sendCell c j) 0 (0 : J)))

theorem ghost_intro (κ : Dev nD × CK → ℕ) (c : Dev nD) : iprop(records m κ ∗ linear (F := F) c) ⊢ G' m c := by
  unfold G' ghost
  iintro H
  iexists κ
  iexact H

theorem linear_intro (c : Dev nD) :
    iprop((bigSep Finset.univ fun k : CK => (atPos ER (kcell (c, k)) 0 ∅ 0 : sProp 𝕄)) ∗ payToks c) ⊢ linear (F := F) c := by
  rw [bigSep_CK]; unfold linear payToks
  iintro ⟨⟨HaB, HaS, HaV⟩, HtB, HtV, HtS⟩
  isplitl [HaB]; · iexact HaB
  isplitl [HaS]; · iexact HaS
  isplitl [HaV]; · iexact HaV
  isplitl [HtB]; · iexact HtB
  isplitl [HtV]; · iexact HtV
  iexact HtS

/-- The tokens dealt to their payers. Duty `k` of `c`'s barrier cell is paid by `fwd k c`, which reaches `c` with the
    complementary offset index: over all devices, the tokens `(c, k)` are the tokens `(fwd j d, rev j)`. The duty of
    receive cell `(c, j)` is paid by `bwd j c`: the tokens `(c, j)` are the tokens `(fwd j d, j)`. -/
theorem toks_around : (bigSep Finset.univ fun c : Dev nD => (toks c : sProp 𝕄)) ⊢ bigSep Finset.univ fun c : Dev nD => payToks c := by
  have hB : (bigSep Finset.univ fun c : Dev nD => bigSep Finset.univ fun k : J => (dutyTok ER (barCell c) 0 k : sProp 𝕄))
      = bigSep Finset.univ fun c : Dev nD => bigSep Finset.univ fun j : J => (dutyTok ER (barCell (fwd j c)) 0 (Fin.rev j) : sProp 𝕄) :=
    calc (bigSep Finset.univ fun c : Dev nD => bigSep Finset.univ fun k : J => (dutyTok ER (barCell c) 0 k : sProp 𝕄))
        = bigSep Finset.univ fun k : J => bigSep Finset.univ fun c : Dev nD => (dutyTok ER (barCell c) 0 k : sProp 𝕄) :=
          bigSep_univ_comm (fun (c : Dev nD) (k : J) => (dutyTok ER (barCell c) 0 k : sProp 𝕄))
      _ = bigSep Finset.univ fun j : J => bigSep Finset.univ fun c : Dev nD => (dutyTok ER (barCell c) 0 (Fin.rev j) : sProp 𝕄) :=
          bigSep_univ_equiv Fin.revPerm (fun k : J => bigSep Finset.univ fun c : Dev nD => (dutyTok ER (barCell c) 0 k : sProp 𝕄))
      _ = bigSep Finset.univ fun j : J => bigSep Finset.univ fun c : Dev nD => (dutyTok ER (barCell (fwd j c)) 0 (Fin.rev j) : sProp 𝕄) :=
          bigSep_congr fun j _ => bigSep_univ_equiv (fwdEquiv j) (fun c : Dev nD => (dutyTok ER (barCell c) 0 (Fin.rev j) : sProp 𝕄))
      _ = bigSep Finset.univ fun c : Dev nD => bigSep Finset.univ fun j : J => (dutyTok ER (barCell (fwd j c)) 0 (Fin.rev j) : sProp 𝕄) :=
          bigSep_univ_comm (fun (j : J) (c : Dev nD) => (dutyTok ER (barCell (fwd j c)) 0 (Fin.rev j) : sProp 𝕄))
  have hR : (bigSep Finset.univ fun c : Dev nD => bigSep Finset.univ fun j : J => (dutyTok ER (recvCell c j) 0 (0 : J) : sProp 𝕄))
      = bigSep Finset.univ fun c : Dev nD => bigSep Finset.univ fun j : J => (dutyTok ER (recvCell (fwd j c) j) 0 (0 : J) : sProp 𝕄) :=
    calc (bigSep Finset.univ fun c : Dev nD => bigSep Finset.univ fun j : J => (dutyTok ER (recvCell c j) 0 (0 : J) : sProp 𝕄))
        = bigSep Finset.univ fun j : J => bigSep Finset.univ fun c : Dev nD => (dutyTok ER (recvCell c j) 0 (0 : J) : sProp 𝕄) :=
          bigSep_univ_comm (fun (c : Dev nD) (j : J) => (dutyTok ER (recvCell c j) 0 (0 : J) : sProp 𝕄))
      _ = bigSep Finset.univ fun j : J => bigSep Finset.univ fun c : Dev nD => (dutyTok ER (recvCell (fwd j c) j) 0 (0 : J) : sProp 𝕄) :=
          bigSep_congr fun j _ => bigSep_univ_equiv (fwdEquiv j) (fun c : Dev nD => (dutyTok ER (recvCell c j) 0 (0 : J) : sProp 𝕄))
      _ = bigSep Finset.univ fun c : Dev nD => bigSep Finset.univ fun j : J => (dutyTok ER (recvCell (fwd j c) j) 0 (0 : J) : sProp 𝕄) :=
          bigSep_univ_comm (fun (j : J) (c : Dev nD) => (dutyTok ER (recvCell (fwd j c) j) 0 (0 : J) : sProp 𝕄))
  unfold toks payToks
  rw [bigSep_sep', bigSep_sep', bigSep_sep', bigSep_sep', hB, hR]
  iintro ⟨H1, H2, H3⟩
  isplitl [H1]; · iexact H1
  isplitl [H3]; · iexact H3
  iexact H2

theorem regroup :
    (bigSep Finset.univ fun c : Dev nD => iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => linear_intro (F := F) c))
    isplitl [Hat]; · iexact Hat
    iexact Htk

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem nsmul_tallyAt (g : GSem nD τ sig) (n : ℕ) : n • (tallyAt g () 1 : CellTallies nD τ sig Unit) = tallyAt g () n := by
  induction n with
  | zero => rw [zero_smul, tallyAt_zero]
  | succ n ih => rw [succ_nsmul, ih, tallyAt_add]

/-- The 31 peers' units on one barrier cell are its 31 units. -/
theorem cred_bar (c : Dev nD) :
    (bigSep Finset.univ fun _ : J => (cred (tallyAt (barCell c) () 1) : sProp 𝕄)) ⊢ cred (tallyAt (barCell c) () 31) := by
  refine (Entails.of_eq (Pipeline.cred_finsetSum (Finset.univ : Finset J) (fun _ => (tallyAt (barCell c) () 1 : CellTallies nD τ sig Unit))).symm).trans
    (Entails.of_eq (congrArg cred ?_))
  rw [Finset.sum_const, Finset.card_univ, Fintype.card_fin, nsmul_tallyAt]

/-- What the launch deals device `c` for what the others owe its cells: for each offset index `j` the unit that
    `bwd j c` owes its barrier cell and the row's credit that device owes its receive cell `j`. -/
theorem creds (c : Dev nD) :
    (Pipeline.launchCred O₀ c : sProp 𝕄)
      ⊢ iprop(cred (tallyAt (barCell c) () 31) ∗ bigSep Finset.univ fun j : J => cred (tallyAt (recvCell c j) () N)) := by
  have e : (Pipeline.launchCred O₀ c : sProp 𝕄)
      = iprop((bigSep Finset.univ fun j : J => Pipeline.launchCred (fun d => bt d j) c) ∗ bigSep Finset.univ fun j : J => Pipeline.launchCred (fun d => rt d j) c) := by
    show (Pipeline.launchCred (fun d => (∑ j ∈ Finset.univ, bt d j) + ∑ j ∈ Finset.univ, rt d j) c : sProp 𝕄) = _
    rw [Pipeline.launchCred_add, Pipeline.launchCred_sum, Pipeline.launchCred_sum]
  rw [e]
  refine Idealize.SL.BI.sep_mono ((bigSep_mono fun j _ => ?_).trans (cred_bar (F := F) c)) (bigSep_mono fun j _ => ?_)
  · exact Pipeline.launchCred_tallyAt (.reg barS) (fwd j) (bwd j) (fwd_bwd j) (bwd_fwd j) () 1 c
  · exact Pipeline.launchCred_tallyAt (.dma (recvSem j)) (fwd j) (bwd j) (fwd_bwd j) (bwd_fwd j) () N c

/-! ## The launch theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H0, H1⟩
  isplitl [Hs]; · iexact Hs
  isplitl [H0]; · iexact H0
  iexact H1

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq, ownSems0_eq]
  unfold Φ₁
  iintro ⟨H0, H1, HzS, HzV⟩
  isplitr; · iempintro
  isplitl [HzS HzV]
  · isplitl [HzS] <;> iassumption
  isplitl [H0] <;> iassumption

/-- The pipeline waits on its two staging cells only, which sit below everything a device may owe. -/
theorem waits (c : Dev nD) : (levAts L lv : sProp 𝕄) ⊢ Pipeline.cellsWaits cfgs (dats m) () 0 c :=
  Pipeline.cellsWaits_intro cfgs (dats m) () 0 c fun w s t => by
    have hq : ((cfg0.win w).sem s).val < 33 := lt_trans (stage_sem_lt w s) (by decide)
    rcases t with ⟨_ | _, ht⟩
    · exact mayWait_low (F := F) c ((cfg0.win w).sem s) hq Finset.univ Finset.univ
    · have h := mayWait_low (F := F) c ((cfg0.win w).sem s) hq ∅ ∅
      rw [owedOn_empty] at h; exact h

/-! ## The final arrays -/

/-- The argument's array is never written. -/
theorem final_arg (c : Dev nD) : (dats m 0 c).arrAt (0 : Fin 2) cfg0.N = m ((c : Thread nD τ).loc main_arg0) :=
  (dats (F := F) m 0 c).arrAt_in (0 : Fin 2) rfl _

/-- The one write-back writes the stored row: the block at index 0, read through zero offsets, is the array. -/
theorem flushed_out (c : Dev nD) (t : Fin cfg0.N) (hf : (cfg0.win 1).flush t = true) :
    (dats m 0 c).flushed 1 t = ((cfg0.win 1).blk t).view.read (Elt F) (outV m c) := by
  have hz : (fun a => win0_1.index t a * main_v1.ty.shape.size a) = fun _ => 0 := funext fun a => Nat.zero_mul _
  exact (Memref.read_access_unit_zero (Elt F) main_v1 hz (fun a => by rw [congrFun hz a]; simp) (outV m c)).symm

/-- So the result array ends at the stored row: the point's block covers it. -/
theorem final_out (c : Dev nD) : (dats m 0 c).arrAt (1 : Fin 2) cfg0.N = outV m c :=
  (dats m 0 c).arrAt_eq_of_cover 1 (outV m c) (flushed_out m c) fun i =>
    ⟨t₀, flush0_1 t₀, by
      show i ∈ ((View.whole main_v1).slice (win0_1.rect t₀)).set
      rw [View.set_slice_whole, Rect.mem_set_unit]
      intro a
      refine ⟨?_, ?_⟩
      · show 0 * _ ≤ (i a : Nat)
        rw [Nat.zero_mul]; exact Nat.zero_le _
      · show (i a : Nat) < 0 * _ + _
        rw [Nat.zero_mul, Nat.zero_add]; exact (i a).isLt⟩

/-! ## The run -/

set_option maxRecDepth 8000 in
/-- The launch, for any proof of the devices' body obligations: from any memory with zero counters every weakly fair
    execution of @main on the 32 devices terminates without fault, each device's result array ends at the stored
    row and its argument array unchanged. -/
theorem run_main_of (hbody : ∀ c : Dev nD, BodyObligation (dats (F := F) m 0 c) (defs₀ (F := F)) 𝒱₀ () Set.univ) (ρ : Dev nD → PrngReg) :
    θ_run defs (onTc (τ := τ) (main (F := F))) ⟨m, fun _ => 0, ρ⟩ (fun r => ∀ c : Dev nD,
      r.2.mem ((c.tc : Thread nD τ).loc main_v1) = outV m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 1).trans (final_out m c), ((h c).1 0).trans (final_arg m c)⟩)

/-- info: 'Cert.KernelIdeal.AllMax.run_main_of' depends on axioms: [propext, Classical.choice, Quot.sound] -/
#guard_msgs in #print axioms run_main_of

/-- From any memory with zero counters every weakly fair execution of @main on the 32 devices terminates without
    fault, each device's result array ends at the stored row and its argument array unchanged. -/
theorem run_main (ρ : Dev nD → PrngReg) :
    θ_run defs (onTc (τ := τ) (main (F := F))) ⟨m, fun _ => 0, ρ⟩ (fun r => ∀ c : Dev nD,
      r.2.mem ((c.tc : Thread nD τ).loc main_v1) = outV m c
      ∧ r.2.mem ((c.tc : Thread nD τ).loc main_arg0) = m ((c.tc : Thread nD τ).loc main_arg0)) :=
  run_main_of m (body_obligation m) ρ

end Cert.KernelIdeal.AllMax

end
-- ==== Proof.RefSide.lean ====
import proofs.«900910_g7700000000000911_dist_max_ax0_shard0_i_m1536_n768_v7x_i32_f32_1_alg».proof.Defs
import proofs.«900910_g7700000000000911_dist_max_ax0_shard0_i_m1536_n768_v7x_i32_f32_1_alg».proof.Proof.Gen.ReferenceIdeal
import proofs.«900910_g7700000000000911_dist_max_ax0_shard0_i_m1536_n768_v7x_i32_f32_1_alg».proof.Proof.Gen.ReferenceIdeal.Run
import proofs.«900910_g7700000000000911_dist_max_ax0_shard0_i_m1536_n768_v7x_i32_f32_1_alg».proof.Proof.Gen.ReferenceIdeal.Read
-- ==== Proof.KernelIdeal.ValueLaw.lean ====
import proofs.«900910_g7700000000000911_dist_max_ax0_shard0_i_m1536_n768_v7x_i32_f32_1_alg».proof.Proof.KernelIdeal.Spec
import proofs.«900910_g7700000000000911_dist_max_ax0_shard0_i_m1536_n768_v7x_i32_f32_1_alg».proof.Proof.RefSide
import Idealize.ShloMosaic.PureOps.Ideal.Laws
import Idealize.ShloMosaic.PureOps.Reduce
import Idealize.ShloMosaic.Lib.ValueIdx
import Idealize.ShloMosaic.Lib.ValueLayout
import Idealize.ShloMosaic.Lib.Layout
import Idealize.ShloMosaic.Lib.Pipeline.Value

/-! The value of the exchange: on every device the stored row is the reference's row of column maxima.

At the ideal values a maximum-reduction from `-∞` over an axis is the supremum over that axis's coordinates.
Column `k` of the row device `c` stores is the larger of the supremum over its own 1536 rows and, over the 31
offset indices `j`, the supremum over the rows of the device `j + 1` places before it; the reference's is the
supremum over all 49152 rows. Row `r` of the whole array is row `r % 1536` of block `r / 1536`, and every
device other than `c` is `j + 1` places before `c` for some `j`, so the two suprema bound each other. Only the
order structure of the extended reals is used: no entry needs to be finite. -/

noncomputable section

namespace Cert.KernelIdeal.AllMax

open Cert.KernelIdeal Cert.KernelIdeal.Gen
open Idealize.ShloMosaic
open Idealize.ShloMosaic.TcCoe
open Idealize.ShloMosaic.ValueIdx

/-! ## Suprema -/

/-- A fold of `max` from the bottom element is the supremum. -/
theorem fold_max_bot_eq_sup {ι : Type} (s : Finset ι) (f : ι → EReal) : s.fold max ⊥ f = s.sup f := rfl

/-- The pattern `0xFF800000` is `-∞`, the bottom of the extended reals. -/
theorem ofBits_neg_inf : FloatOps.ofBits (F := Ideal) .f32 0xFF800000#32 = (⊥ : EReal) := by
  show Ideal.ofBits .f32 0xFF800000#32 = ⊥
  simp [Ideal.ofBits, Ideal.ieee]

/-- Every device other than `c` lies `j + 1` places before `c` for some offset index `j`. -/
theorem bwd_cover : ∀ (c d : Dev nD), d ≠ c → ∃ j : J, bwd j c = d := by decide +kernel

/-- The supremum over all rows is the larger of the supremum over block `c` and the supremum, over a family of blocks
    that covers every other block, of their suprema. -/
theorem sup_blocks (g : Fin 49152 → EReal) (c : Fin 32) (bw : Fin 31 → Fin 32)
    (hcover : ∀ d : Fin 32, d ≠ c → ∃ j, bw j = d) :
    max (Finset.univ.sup fun i : Fin 1536 => g ⟨c.val * 1536 + i.val, by omega⟩)
        (Finset.univ.sup fun j : Fin 31 => Finset.univ.sup fun i : Fin 1536 => g ⟨(bw j).val * 1536 + i.val, by omega⟩)
      = Finset.univ.sup g := by
  apply le_antisymm
  · refine max_le (Finset.sup_le fun i _ => Finset.le_sup (f := g) (Finset.mem_univ _)) ?_
    exact Finset.sup_le fun j _ => Finset.sup_le fun i _ => Finset.le_sup (f := g) (Finset.mem_univ _)
  · have key : ∀ (d : Fin 32) (i : Fin 1536), g ⟨d.val * 1536 + i.val, by omega⟩ ≤
        max (Finset.univ.sup fun i : Fin 1536 => g ⟨c.val * 1536 + i.val, by omega⟩)
          (Finset.univ.sup fun j : Fin 31 => Finset.univ.sup fun i : Fin 1536 => g ⟨(bw j).val * 1536 + i.val, by omega⟩) := by
      intro d i
      by_cases hdc : d = c
      · subst hdc
        exact le_trans (Finset.le_sup (f := fun i : Fin 1536 => g ⟨d.val * 1536 + i.val, by omega⟩) (Finset.mem_univ i))
          (le_max_left _ _)
      · obtain ⟨j, rfl⟩ := hcover d hdc
        refine le_trans ?_ (le_max_right _ _)
        refine le_trans ?_ (Finset.le_sup
          (f := fun j : Fin 31 => Finset.univ.sup fun i : Fin 1536 => g ⟨(bw j).val * 1536 + i.val, by omega⟩) (Finset.mem_univ j))
        exact Finset.le_sup (f := fun i : Fin 1536 => g ⟨(bw j).val * 1536 + i.val, by omega⟩) (Finset.mem_univ i)
    refine Finset.sup_le fun r _ => ?_
    have hd : r.val / 1536 < 32 := by omega
    have hi : r.val % 1536 < 1536 := Nat.mod_lt _ (by decide)
    have hr : r = ⟨(⟨r.val / 1536, hd⟩ : Fin 32).val * 1536 + (⟨r.val % 1536, hi⟩ : Fin 1536).val, by omega⟩ :=
      Fin.ext (by show r.val = r.val / 1536 * 1536 + r.val % 1536; omega)
    exact (congrArg g hr).le.trans (key ⟨r.val / 1536, hd⟩ ⟨r.val % 1536, hi⟩)

/-! ## Reading the indices -/

/-- Over a rank-2 array reduced along its rows, the index over column `k` with row `i` inserted is `(i, k)`. -/
theorem lift_rows {n m : Nat} (h : Shape.Reduces ⟨2, ![n, m]⟩ [0] ⟨1, ![m]⟩) (k : Fin m) (i : Fin n) :
    h.lift (ix1 k) i = ix2 i k := by
  funext c
  match c with
  | ⟨0, _⟩ => rfl
  | ⟨1, _⟩ => rfl

/-- Row `i` of block `d` is row `1536 d + i` of the whole array. -/
theorem block_rows_apply {α : Type} (X : (⟨2, ![49152, 768]⟩ : Shape).Idx → α) (d : Fin 32) (i : Fin 1536) (k : Fin 768) :
    (Layout.block ⟨2, ![1536, 768]⟩ ⟨2, ![49152, 768]⟩ 0 32 d X) (ix2 i k)
      = X (ix2 (⟨d.val * 1536 + i.val, by omega⟩ : Fin 49152) k) := by
  rw [Layout.block_apply]
  congr 1
  funext b
  match b with
  | ⟨0, _⟩ => rfl
  | ⟨1, _⟩ => rfl

/-! ## A maximum-reduction down the rows -/

/-- At the ideal values a maximum-reduction from `-∞` down the rows of an `n × m` array is, at column `k`, the supremum
    over the rows. -/
theorem rowsMax_apply {n m : Nat} (v : FVec Ideal ⟨2, ![n, m]⟩ .f32) (h : Shape.Reduces ⟨2, ![n, m]⟩ [0] ⟨1, ![m]⟩)
    (hφ : FKind.Formats .f32) (hacc : (0xFF800000#32 : BitVec 32) = FKind.maximumf.neutral .f32 hφ) (k : Fin m) :
    multiReduction .maximumf [0] ⟨1, ![m]⟩ v 0xFF800000#32 h hφ hacc (ix1 k)
      = Finset.univ.sup fun i : Fin n => v (ix2 i k) := by
  refine (Ideal.multiReduction_maximumf_single v _ h hφ hacc (ix1 k)).trans ?_
  rw [ofBits_neg_inf]
  refine (fold_max_bot_eq_sup _ _).trans ?_
  refine Finset.sup_congr rfl fun i _ => ?_
  exact congrArg v (lift_rows h k i)

/-- The host's reduction with a maximum body from an initial value `-∞`, likewise. -/
theorem hostMax_apply {n m : Nat} (X : (⟨2, ![n, m]⟩ : Shape).Idx → EReal) (init : (⟨0, ![]⟩ : Shape).Idx → EReal)
    (h' : Shape.ReducesTo ⟨2, ![n, m]⟩ [0] ⟨1, ![m]⟩) (h : Shape.Reduces ⟨2, ![n, m]⟩ [0] ⟨1, ![m]⟩)
    (hu : 0 < (⟨0, ![]⟩ : Shape).numel) (hinit : ∀ i, init i = ⊥) (k : Fin m) :
    Host.reduce (FloatOps.maximumf (F := Ideal) (φ := .f32)) X init h' hu (ix1 k)
      = Finset.univ.sup fun r : Fin n => X (ix2 r k) := by
  refine (Host.reduce_eq_fold_single _ X init h' h hu (ix1 k)).trans ?_
  rw [hinit]
  refine (fold_max_bot_eq_sup _ _).trans ?_
  refine Finset.sup_congr rfl fun i _ => ?_
  exact congrArg X (lift_rows h k i)

/-! ## The kernel's side -/

/-- A device's row of column maxima at column `k`: the supremum over its block's rows. -/
theorem colMax_apply (x : Dev nD → Vec Ideal S1536x768 .f32) (d : Dev nD) (k : Fin 768) :
    colMax x d (ix2 (0 : Fin 1) k) = Finset.univ.sup fun i : Fin 1536 => x d (ix2 i k) := by
  unfold colMax k0_pay1
  refine (shapeCast_a_1a_apply _ shapeCasts_S768_S1x768 (0 : Fin 1) k).trans ?_
  refine (rowsMax_apply _ reduces_S1536x768_S768 (.inl rfl) rfl k).trans ?_
  refine Finset.sup_congr rfl fun i _ => ?_
  exact shapeCast_apply _ _ _ _ rfl

/-- The stored row at column `k`: the larger of the device's own column maximum and the supremum of the received ones
    (row `j` of the landing buffer, read through the cast that drops its unit axis, is the row of the device `j + 1`
    places before). -/
theorem outOf_apply (x : Dev nD → Vec Ideal S1536x768 .f32) (c : Dev nD) (k : Fin 768) :
    outOf x c (ix2 (0 : Fin 1) k)
      = max (colMax x c (ix2 (0 : Fin 1) k)) (Finset.univ.sup fun j : J => colMax x (bwd j c) (ix2 (0 : Fin 1) k)) := by
  unfold outOf k0_pay2
  refine (shapeCast_a_1a_apply _ shapeCasts_S768_S1x768 (0 : Fin 1) k).trans ?_
  refine (maximumf_apply _ _ (ix1 k)).trans ?_
  refine congrArg₂ max ?_ ?_
  · exact shapeCast_1a_a_apply _ shapeCasts_S1x768_S768 k
  · refine (rowsMax_apply _ reduces_S31x768_S768 (.inl rfl) rfl k).trans ?_
    refine Finset.sup_congr rfl fun j _ => ?_
    refine (shapeCast_apply _ _ (ix2 j k) (ix3 j (0 : Fin 1) k) ?_).trans rfl
    rw [Shape.rowMajor_val_three, Shape.rowMajor_val_two]
    show (j.val * 1 + 0) * 768 + k.val = j.val * 768 + k.val
    omega

/-! ## The reference's side -/

/-- The reference's row at column `k`: the supremum over all rows of the whole array. -/
theorem ref_apply (X : (⟨Cert.ReferenceIdeal.S49152x768, .f32⟩ : BufTy).Contents (Elt Ideal)) (k : Fin 768) :
    Cert.ReferenceIdeal.Read.val_main_v1 (F := Ideal) X (ix2 (0 : Fin 1) k)
      = Finset.univ.sup fun r : Fin 49152 => X (ix2 r k) := by
  have hidx : Cert.ReferenceIdeal.Read.idx_main_v1 (ix2 (0 : Fin 1) k) = ix1 k := by
    funext a
    match a with
    | ⟨0, _⟩ => rfl
  rw [Cert.ReferenceIdeal.Read.val_main_v1_apply, hidx]
  unfold Cert.ReferenceIdeal.Read.val_main_v0
  exact hostMax_apply X _ Cert.ReferenceIdeal.Gen.reducesTo_S49152x768_S768_d0 (by decide) Cert.ReferenceIdeal.Gen.h_S_
    (fun _ => ofBits_neg_inf) k

/-! ## The two sides meet -/

/-- On every device the stored row is the reference's result. -/
theorem outOf_eq_ref (X : (⟨Cert.ReferenceIdeal.S49152x768, .f32⟩ : BufTy).Contents (Elt Ideal))
    (x : Dev nD → Vec Ideal S1536x768 .f32)
    (hx : ∀ c : Dev nD, x c = Layout.block ⟨2, ![1536, 768]⟩ ⟨2, ![49152, 768]⟩ 0 32 c X)
    (c : Dev nD) :
    outOf (F := Ideal) x c = Cert.ReferenceIdeal.Read.val_main_v1 (F := Ideal) X := by
  funext i
  obtain ⟨u, k, rfl⟩ : ∃ (u : Fin 1) (k : Fin 768), i = ix2 u k := ⟨i 0, i 1, eq_ix2 i⟩
  obtain rfl : u = 0 := Subsingleton.elim _ _
  rw [outOf_apply, ref_apply]
  simp only [colMax_apply, hx, block_rows_apply]
  exact sup_blocks (fun r => X (ix2 r k)) c (fun j => bwd j c) (bwd_cover c)

/-- info: 'Cert.KernelIdeal.AllMax.outOf_eq_ref' depends on axioms: [propext, Classical.choice, Quot.sound] -/
#guard_msgs in #print axioms outOf_eq_ref

end Cert.KernelIdeal.AllMax

end
-- ==== Proof.Kernel.Ring.lean ====
import proofs.«900910_g7700000000000911_dist_max_ax0_shard0_i_m1536_n768_v7x_i32_f32_1_alg».proof.Proof.Gen.Kernel
import proofs.«900910_g7700000000000911_dist_max_ax0_shard0_i_m1536_n768_v7x_i32_f32_1_alg».proof.Proof.Gen.Kernel.Skeleton
import proofs.«900910_g7700000000000911_dist_max_ax0_shard0_i_m1536_n768_v7x_i32_f32_1_alg».proof.Proof.Gen.Kernel.Launch
import Idealize.ShloMosaic.Lib.Pipeline.Launch
import Idealize.ShloMosaic.Lib.Pipeline.Kit
import Idealize.ShloMosaic.Lib.Tactic

/-! The mesh as a complete exchange: device `c` addresses, with offset index `j : Fin 31`, the device
`fwd j c = c + (j + 1) mod 32`, and is addressed with that index by `bwd j c = c - (j + 1) mod 32`.
The memory references and semaphore cells of the exchange, by device and offset index. -/

noncomputable section

namespace Cert.Kernel.AllMax

open Cert.Kernel Cert.Kernel.Gen
open Idealize.ShloMosaic
open Idealize.ShloMosaic.TcCoe
open Idealize.SL Idealize.SL.Sem

/-- The offset indices: offset `j + 1`, for `j` below 31. -/
abbrev J : Type := Fin 31

/-- The device `j + 1` places after `c` on the ring of 32. -/
def fwd (j : J) (c : Dev nD) : Dev nD := ⟨(c.val + j.val + 1) % 32, Nat.mod_lt _ (by decide)⟩
/-- The device `j + 1` places before `c`. -/
def bwd (j : J) (c : Dev nD) : Dev nD := ⟨(c.val + 31 - j.val) % 32, Nat.mod_lt _ (by decide)⟩

theorem bwd_fwd : ∀ (j : J) (c : Dev nD), bwd j (fwd j c) = c := by decide +kernel
theorem fwd_bwd : ∀ (j : J) (c : Dev nD), fwd j (bwd j c) = c := by decide +kernel
/-- Going on by the complementary offset closes the ring: `(j + 1) + (31 - j) = 32`. -/
theorem fwd_rev_fwd : ∀ (j : J) (c : Dev nD), fwd (Fin.rev j) (fwd j c) = c := by decide +kernel
theorem fwd_rev_eq_bwd : ∀ (j : J) (c : Dev nD), fwd (Fin.rev j) c = bwd j c := by decide +kernel
theorem bwd_rev_eq_fwd : ∀ (j : J) (c : Dev nD), bwd (Fin.rev j) c = fwd j c := by decide +kernel
theorem fwd_ne_self : ∀ (j : J) (c : Dev nD), fwd j c ≠ c := by decide +kernel
theorem fwd_inj_left : ∀ (j j' : J) (c : Dev nD), fwd j c = fwd j' c → j = j' := by decide +kernel
theorem bwd_inj_left : ∀ (j j' : J) (c : Dev nD), bwd j c = bwd j' c → j = j' := by decide +kernel

/-- `fwd j` as a permutation of the devices. -/
def fwdEquiv (j : J) : Dev nD ≃ Dev nD := ⟨fwd j, bwd j, bwd_fwd j, fwd_bwd j⟩

/-! ## Memory references -/

/-- The staged block of the argument, the staged result row, this device's row of column maxima, and the landing
    buffer of 31 rows. -/
abbrev xM : Memref sig .tc .vmem S1536x768 .f32 := Memref.whole cc0_stg0_0
abbrev oM : Memref sig .tc .vmem S1x768 .f32 := Memref.whole cc0_stg1_0
abbrev ownM : Memref sig .tc .vmem S1x768 .f32 := Memref.whole cc0_scratch0
abbrev commM : Memref sig .tc .vmem S31x1x768 .f32 := Memref.whole cc0_scratch1

theorem slot_inb (j : J) : ∀ a, (![j.val, 0, 0] : Fin 3 → Nat) a + S1x1x768.size a ≤ S31x1x768.size a := by
  revert j; decide
theorem sem_inb (j : J) : ∀ a, (![j.val] : Fin 1 → Nat) a + S1.size a ≤ S31.size a := by
  revert j; decide

/-- Row `j` of the landing buffer, as a 1×768 reference. -/
def slotM (j : J) : Memref sig .tc .vmem S1x768 .f32 :=
  ((commM.slice (Rect.unit (s := S31x1x768) ![j.val, 0, 0] S1x1x768.size (slot_inb j)) (fun _ => rfl)).squeeze S1x768 squeezes_S1x1x768_S1x768)

/-- The semaphores of the transfer with offset index `j`: the sender's and the receiver's. -/
def sendSem (j : J) : DmaSem sig := ((cc0_scratch2.slice (Rect.unit (s := S31) ![j.val] S1.size (sem_inb j))).squeeze S_ squeezes_S1_S_).sem
def recvSem (j : J) : DmaSem sig := ((cc0_scratch3.slice (Rect.unit (s := S31) ![j.val] S1.size (sem_inb j))).squeeze S_ squeezes_S1_S_).sem

theorem sendSem_val : ∀ j : J, (sendSem j).val = 2 + j.val := by decide +kernel
theorem recvSem_val : ∀ j : J, (recvSem j).val = 33 + j.val := by decide +kernel

/-- The runtime's barrier semaphore of the collective. -/
abbrev barS : Sem sig := (SemArray.scalar (sig.barrier 0 rfl) : Sems sig S_).sem

abbrev barCell (c : Dev nD) : GSem nD τ sig := ((c : Thread nD τ), .reg barS)
abbrev sendCell (c : Dev nD) (j : J) : GSem nD τ sig := ((c : Thread nD τ), .dma (sendSem j))
abbrev recvCell (c : Dev nD) (j : J) : GSem nD τ sig := ((c : Thread nD τ), .dma (recvSem j))

theorem sendSem_inj : ∀ j j' : J, sendSem j = sendSem j' → j = j' := by decide +kernel
theorem recvSem_inj : ∀ j j' : J, recvSem j = recvSem j' → j = j' := by decide +kernel
theorem sendSem_ne_recvSem : ∀ j j' : J, sendSem j ≠ recvSem j' := by decide +kernel
theorem send_ne_bar (j : J) : (SemLoc.dma (sendSem j) : SemLoc sig) ≠ .reg barS := fun h => by cases h
theorem recv_ne_bar (j : J) : (SemLoc.dma (recvSem j) : SemLoc sig) ≠ .reg barS := fun h => by cases h

/-- The credit of one row's transfer. -/
abbrev N : ℕ := (ownM : Memref sig .tc .vmem S1x768 .f32).view.dmaCredit
theorem N_pos : 0 < N := View.dmaCredit_pos _ (by decide)

end Cert.Kernel.AllMax

end
-- ==== Proof.Kernel.Spec.lean ====
import proofs.«900910_g7700000000000911_dist_max_ax0_shard0_i_m1536_n768_v7x_i32_f32_1_alg».proof.Proof.Kernel.Ring
import Idealize.ShloMosaic.Lib.ValueIdx

/-! What the exchange computes, as pure functions of every device's block: each device's row of column
maxima, the 31 rows a device has received once every transfer has landed (row `j` from the device `j + 1`
places before it), and the row it stores: the maximum of its own row and the received ones. -/

noncomputable section

namespace Cert.Kernel.AllMax

open Cert.Kernel Cert.Kernel.Gen
open Idealize.ShloMosaic
open Idealize.ShloMosaic.TcCoe

variable {F : FTy → Type} [FloatOps F]

/-- Device `c`'s row of column maxima of its block `x c`. -/
def colMax (x : Dev nD → Vec F S1536x768 .f32) (c : Dev nD) : Vec F S1x768 .f32 := k0_pay1 (x c)

/-- The landing buffer of device `c` after the exchange: row `j` is the row of the device `j + 1` before it. -/
def commOf (x : Dev nD → Vec F S1536x768 .f32) (c : Dev nD) : Vec F S31x1x768 .f32 :=
  fun i => colMax x (bwd ⟨(i 0).val, (i 0).isLt⟩ c) (ValueIdx.ix2 (0 : Fin 1) (⟨(i 2).val, (i 2).isLt⟩ : Fin 768))

/-- The row device `c` stores as its result. -/
def outOf (x : Dev nD → Vec F S1536x768 .f32) (c : Dev nD) : Vec F S1x768 .f32 := k0_pay2 (colMax x c) (commOf x c)

end Cert.Kernel.AllMax

end
-- ==== Proof.Kernel.Sched.lean ====
import proofs.«900910_g7700000000000911_dist_max_ax0_shard0_i_m1536_n768_v7x_i32_f32_1_alg».proof.Proof.Kernel.Spec

/-! The protocol of the exchange under the rounds discipline, one round per cell.
A device's barrier cell has 31 unit duties, duty `k` paid by the device `fwd k c` it will send to with offset
index `k`: that device's signal hands over row `k` of its own landing buffer and the fact that its receive cell `k`
is at round 0 — what the transfer into it needs. A send cell `(c, j)` has one duty: the transfer's source share
comes back once the source has been read. A receive cell `(c, j)` has one duty: row `j` of the landing buffer,
holding the row of column maxima of the device `j + 1` places before `c`. -/

noncomputable section

namespace Cert.Kernel.AllMax

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

/-! ## The resource algebra: the pipeline library's copy and the exchange's (duty names `J`) -/

abbrev UB : Type := URounds (GSem nD τ sig) J
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- Device `c`'s block of the argument, as the pipeline stages it. -/
def xOf (c : Dev nD) : (cc0_stg0_0 : Ref sig .tc).ty.Contents (Elt F) :=
  (win0_0.blk (0 : Fin 1)).view.read (Elt F) (m ((c : Thread nD τ).loc main_arg0))

/-- Every device's row of column maxima, what a landing buffer ends holding, and the stored row. -/
def ownV (c : Dev nD) : (cc0_scratch0 : Ref sig .tc).ty.Contents (Elt F) := colMax (fun d => xOf m d) c
def commV (c : Dev nD) : (cc0_scratch1 : Ref sig .tc).ty.Contents (Elt F) := commOf (fun d => xOf m d) c
def outV (c : Dev nD) : (cc0_stg1_0 : Ref sig .tc).ty.Contents (Elt F) := outOf (fun d => xOf m d) c

/-! ## The points-to facts the protocol moves -/

/-- The shares of a device's own row: one per transfer reading it, and the one the device keeps to read it itself. -/
abbrev shTok (j : J) : PosShare TreeShare := shareTok fullShare 31 j
abbrev shKeep : PosShare TreeShare := shareDrop fullShare 31

def ownPts (c : Dev nD) (q : PosShare TreeShare) (v : Buf (Elt F) ((ownM : Memref sig .tc .vmem S1x768 .f32).view.loc (c : Thread nD τ))) : sProp 𝕄 :=
  (ownM : Memref sig .tc .vmem S1x768 .f32).view.loc (c : Thread nD τ) ↦[(ownM : Memref sig .tc .vmem S1x768 .f32).view.set]{q} v

def slotPts (c : Dev nD) (j : J) (f : Buf (Elt F) ((slotM j : Memref sig .tc .vmem S1x768 .f32).view.loc (c : Thread nD τ))) : sProp 𝕄 :=
  (slotM j : Memref sig .tc .vmem S1x768 .f32).view.loc (c : Thread nD τ) ↦[(slotM j : Memref sig .tc .vmem S1x768 .f32).view.set]{fullShare} f

instance ownPts_storable (c : Dev nD) (q) (v) : BI.Storable (upEmb : UEmb _ 𝕄) (ownPts (F := F) c q v) := by unfold ownPts; infer_instance
instance slotPts_storable (c : Dev nD) (j) (f) : BI.Storable (upEmb : UEmb _ 𝕄) (slotPts (F := F) c j f) := by unfold slotPts; infer_instance

/-! ## The schedule -/

/-- What the signal of `fwd k c` (duty `k` of `c`'s barrier cell) hands `c`. -/
def barPay (c : Dev nD) (k : J) : sProp 𝕄 := iprop((∃ f, slotPts (fwd k c) k f) ∗ reached ER (recvCell (fwd k c) k) 0)
def sendPay (c : Dev nD) (j : J) : sProp 𝕄 := ownPts c (shTok j) (ownV m c)
def recvPay (c : Dev nD) (j : J) : sProp 𝕄 := slotPts c j (commV m c)

instance sendPay_storable (c : Dev nD) (j : J) : BI.Storable (upEmb : UEmb _ 𝕄) (sendPay (F := F) m c j) := by
  unfold sendPay; exact ownPts_storable _ _ _
instance recvPay_storable (c : Dev nD) (j : J) : BI.Storable (upEmb : UEmb _ 𝕄) (recvPay (F := F) m c j) := by
  unfold recvPay; exact slotPts_storable _ _ _

abbrev IsBar (g : GSem nD τ sig) : Prop := g.1.2 = .tc ∧ g.2 = .reg barS
abbrev IsXfer (g : GSem nD τ sig) : Prop := g.1.2 = .tc ∧ ∃ s : DmaSem sig, g.2 = .dma s ∧ 2 ≤ s.val

/-- The payload of a transfer cell, decoded from its semaphore's number: 2 … 32 are the send cells, 33 … 63 the
    receive cells. -/
def xferPay (c : Dev nD) (s : DmaSem sig) : sProp 𝕄 :=
  if h : 2 ≤ s.val ∧ s.val < 33 then sendPay m c ⟨s.val - 2, by omega⟩
  else if h' : 33 ≤ s.val then recvPay m c ⟨s.val - 33, by have h64 : s.val < 64 := s.isLt; omega⟩
  else iprop(emp)

instance : DecidablePred (IsXfer : GSem nD τ sig → Prop) := fun g => by
  unfold IsXfer
  match g.2 with
  | .reg _ => exact isFalse (fun ⟨_, s, h, _⟩ => by cases h)
  | .dma s => exact decidable_of_iff (g.1.2 = .tc ∧ 2 ≤ s.val) ⟨fun ⟨a, b⟩ => ⟨a, s, rfl, b⟩, fun ⟨a, s', h, b⟩ => ⟨a, by cases h; exact b⟩⟩

/-- One round, round 0. -/
def sched : Rounds.Schedule (GSem nD τ sig) J 𝕄 where
  duties g r := if r = 0 ∧ IsBar g then Finset.univ else if r = 0 ∧ IsXfer g then {0} else ∅
  unitless _ := False
  amount g _ _ := if g.2 = .reg barS then 1 else N
  payload g _ d := match g.2 with
    | .reg _ => barPay g.1.1 d
    | .dma s => xferPay m g.1.1 s
  amount_pos g _ _ _ := by
    by_cases h : g.2 = .reg barS
    · rw [if_pos h]; exact Nat.one_pos
    · rw [if_neg h]; exact N_pos

instance sched_payload_storable (g : GSem nD τ sig) (r : ℕ) (d : J) :
    BI.Storable (upEmb : UEmb _ 𝕄) ((sched (F := F) m).payload g r d) := by
  show BI.Storable upEmb (match g.2 with | .reg _ => barPay g.1.1 d | .dma s => xferPay m g.1.1 s)
  split
  · unfold barPay; infer_instance
  · unfold xferPay; (repeat' split) <;> infer_instance

section Tables
variable (c : Dev nD) (j : J)

theorem isXfer_send : IsXfer (sendCell c j) := ⟨rfl, sendSem j, rfl, by rw [sendSem_val]; omega⟩
theorem isXfer_recv : IsXfer (recvCell c j) := ⟨rfl, recvSem j, rfl, by rw [recvSem_val]; omega⟩
theorem not_bar_send : ¬ IsBar (sendCell c j) := fun h => send_ne_bar j h.2
theorem not_bar_recv : ¬ IsBar (recvCell c j) := fun h => recv_ne_bar j h.2

theorem duties_bar : (sched (F := F) m).duties (barCell c) 0 = Finset.univ := by dsimp only [sched]; exact if_pos ⟨rfl, rfl, rfl⟩
theorem duties_send : (sched (F := F) m).duties (sendCell c j) 0 = {0} := by
  dsimp only [sched]; rw [if_neg (fun h => not_bar_send c j h.2)]; exact if_pos ⟨rfl, isXfer_send c j⟩
theorem duties_recv : (sched (F := F) m).duties (recvCell c j) 0 = {0} := by
  dsimp only [sched]; rw [if_neg (fun h => not_bar_recv c j h.2)]; exact if_pos ⟨rfl, isXfer_recv c j⟩
theorem duties_later (g : GSem nD τ sig) : ∀ r, 1 ≤ r → (sched (F := F) m).duties g r = ∅ :=
  fun r hr => by dsimp only [sched]; rw [if_neg fun h => by omega, if_neg fun h => by omega]

theorem amount_bar (d : J) : (sched (F := F) m).amount (barCell c) 0 d = 1 := by dsimp only [sched]; exact if_pos rfl
theorem amount_send (d : J) : (sched (F := F) m).amount (sendCell c j) 0 d = N := by dsimp only [sched]; exact if_neg (send_ne_bar j)
theorem amount_recv (d : J) : (sched (F := F) m).amount (recvCell c j) 0 d = N := by dsimp only [sched]; exact if_neg (recv_ne_bar j)

theorem expect_bar : (sched (F := F) m).expect (barCell c) 0 = 31 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c j) 0 = N := by
  unfold Schedule.expect Schedule.amountOf; rw [duties_send, Finset.sum_singleton, amount_send]
theorem expect_recv : (sched (F := F) m).expect (recvCell c j) 0 = N := by
  unfold Schedule.expect Schedule.amountOf; rw [duties_recv, Finset.sum_singleton, amount_recv]

theorem payload_bar (k : J) : (sched (F := F) m).payload (barCell c) 0 k = barPay c k := rfl
theorem payload_send (d : J) : (sched (F := F) m).payload (sendCell c j) 0 d = sendPay m c j := by
  show xferPay m c (sendSem j) = _
  unfold xferPay
  have h : 2 ≤ (sendSem j).val ∧ (sendSem j).val < 33 := by rw [sendSem_val]; omega
  rw [dif_pos h]
  congr 1
  exact Fin.ext (by simp only [sendSem_val]; omega)
theorem payload_recv (d : J) : (sched (F := F) m).payload (recvCell c j) 0 d = recvPay m c j := by
  show xferPay m c (recvSem j) = _
  unfold xferPay
  have h : ¬ (2 ≤ (recvSem j).val ∧ (recvSem j).val < 33) := by rw [recvSem_val]; omega
  have h' : 33 ≤ (recvSem j).val := by rw [recvSem_val]; omega
  rw [dif_neg h, dif_pos h']
  congr 1
  exact Fin.ext (by simp only [recvSem_val]; omega)

/-- The whole of a barrier cell's round: every peer's landing row and receive-cell mark. -/
theorem rest_bar : bigSep ((sched (F := F) m).duties (barCell c) 0 \ ∅) (fun d => (sched (F := F) m).payload (barCell c) 0 d)
    = bigSep Finset.univ (fun k : J => barPay (F := F) c k) := by
  rw [Finset.sdiff_empty, duties_bar]; rfl
theorem rest_send : bigSep ((sched (F := F) m).duties (sendCell c j) 0 \ ∅) (fun d => (sched (F := F) m).payload (sendCell c j) 0 d) = sendPay m c j := by
  rw [Finset.sdiff_empty, duties_send, bigSep_singleton, payload_send]
theorem rest_recv : bigSep ((sched (F := F) m).duties (recvCell c j) 0 \ ∅) (fun d => (sched (F := F) m).payload (recvCell c j) 0 d) = recvPay m c j := by
  rw [Finset.sdiff_empty, duties_recv, bigSep_singleton, payload_recv]

end Tables

attribute [sl_rounds] duties_bar duties_send duties_recv amount_bar amount_send amount_recv expect_bar expect_send expect_recv
  payload_bar payload_send payload_recv

end Cert.Kernel.AllMax

end
-- ==== Proof.Kernel.Levels.lean ====
import proofs.«900910_g7700000000000911_dist_max_ax0_shard0_i_m1536_n768_v7x_i32_f32_1_alg».proof.Proof.Kernel.Sched

/-! What a device owes the others at launch — one unit to each peer's barrier cell and one row's credit to
each peer's receive cell — as sums over the offset indices still to be paid, and the order of the cells that
makes every wait legal: barrier cells below receive cells, everything else at the bottom. -/

noncomputable section

namespace Cert.Kernel.AllMax

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

/-- The unit device `c` owes the barrier cell of `fwd j c`, and the credit it owes that device's receive cell `j`. -/
def bt (c : Dev nD) (j : J) : CellTallies nD τ sig Unit := tallyAt (barCell (fwd j c)) () 1
def rt (c : Dev nD) (j : J) : CellTallies nD τ sig Unit := tallyAt (recvCell (fwd j c) j) () N

/-- What `c` owes while the signals with indices in `S` and the transfers with indices in `T` are still to come. -/
def owedOn (c : Dev nD) (S T : Finset J) : CellTallies nD τ sig Unit := ∑ j ∈ S, bt c j + ∑ j ∈ T, rt c j

def O₀ (c : Dev nD) : CellTallies nD τ sig Unit := owedOn c Finset.univ Finset.univ

theorem owedOn_empty (c : Dev nD) : owedOn c ∅ ∅ = 0 := by
  unfold owedOn; rw [Finset.sum_empty, Finset.sum_empty, add_zero]

theorem owedOn_peel_bar (c : Dev nD) {S T : Finset J} {j : J} (hj : j ∈ S) :
    owedOn c S T = owedOn c (S.erase j) T + tallyAt (barCell (fwd j c)) () 1 := by
  unfold owedOn
  rw [← Finset.sum_erase_add S _ hj]
  show _ = _ + bt c j
  abel

theorem owedOn_peel_recv (c : Dev nD) {S T : Finset J} {j : J} (hj : j ∈ T) :
    owedOn c S T = owedOn c S (T.erase j) + tallyAt (recvCell (fwd j c) j) () N := by
  unfold owedOn
  rw [← Finset.sum_erase_add T _ hj]
  show _ = _ + rt c j
  abel

/-- Where `c` owes something: a peer's barrier cell or a peer's receive cell. -/
theorem owedOn_pos {c : Dev nD} {S T : Finset J} {g : GSem nD τ sig} {u : Unit} (h : 0 < owedOn c S T g u) :
    (∃ j ∈ S, g = barCell (fwd j c)) ∨ (∃ j ∈ T, g = recvCell (fwd j c) j) := by
  unfold owedOn at h
  rcases Pipeline.add_pos_cases h with h | h
  · obtain ⟨j, hj, hp⟩ := Pipeline.sum_pos_exists h
    refine Or.inl ⟨j, hj, ?_⟩
    unfold bt at hp; rw [tallyAt_apply] at hp
    by_contra hn; rw [if_neg (fun h' => hn h'.1)] at hp; exact Nat.lt_irrefl 0 hp
  · obtain ⟨j, hj, hp⟩ := Pipeline.sum_pos_exists h
    refine Or.inr ⟨j, hj, ?_⟩
    unfold rt at hp; rw [tallyAt_apply] at hp
    by_contra hn; rw [if_neg (fun h' => hn h'.1)] at hp; exact Nat.lt_irrefl 0 hp

/-! ## Levels -/

def L (g : GSem nD τ sig) : Finset Unit := if g.1.2 = .tc then {()} else ∅

/-- Barrier cells at 1, receive cells at 2, everything else (staging, send) at 0. -/
def lv (g : GSem nD τ sig) (_ : Unit) : ℕ :=
  match g.2 with
  | .reg _ => 1
  | .dma s => if 33 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_recv (c : Dev nD) (j : J) : lv (recvCell c j) () = 2 := by
  show (if 33 ≤ (recvSem j).val then 2 else 0) = 2
  rw [if_pos (by rw [recvSem_val]; omega)]
theorem lv_send (c : Dev nD) (j : J) : lv (sendCell c j) () = 0 := by
  show (if 33 ≤ (sendSem j).val then 2 else 0) = 0
  rw [if_neg (by rw [sendSem_val]; omega)]
theorem lv_low (c : Dev nD) (q : DmaSem sig) (hq : q.val < 33) : lv ((c : Thread nD τ), .dma q) () = 0 := by
  show (if 33 ≤ q.val then 2 else 0) = 0
  rw [if_neg (by omega)]

omit [FloatOps F] in
/-- A wait on a cell of level 0 (a staging or a send cell) is legal whatever the device still owes. -/
theorem mayWait_low (c : Dev nD) (q : DmaSem sig) (hq : q.val < 33) (S T : Finset J) :
    (levAts L lv : sProp 𝕄) ⊢ MayWait (c : Thread nD τ) (.dma q) () (owedOn c S T) :=
  Pipeline.mayWait_of_levAts (by rw [L_tc]; exact Finset.mem_singleton_self _) fun g u hg => by
    cases u
    rcases owedOn_pos hg with ⟨j, _, rfl⟩ | ⟨j, _, rfl⟩
    · exact ⟨by rw [L_tc]; exact Finset.mem_singleton_self _, by rw [lv_low c q hq, lv_bar]; decide⟩
    · exact ⟨by rw [L_tc]; exact Finset.mem_singleton_self _, by rw [lv_low c q hq, lv_recv]; decide⟩

omit [FloatOps F] in
/-- At its barrier wait a device owes receive credit only: receive cells sit above barrier cells. -/
theorem mayWait_bar (c : Dev nD) (T : Finset J) :
    (levAts L lv : sProp 𝕄) ⊢ MayWait (c : Thread nD τ) (.reg barS) () (owedOn c ∅ T) :=
  Pipeline.mayWait_of_levAts (by rw [L_tc]; exact Finset.mem_singleton_self _) fun g u hg => by
    cases u
    rcases owedOn_pos hg with ⟨j, hj, _⟩ | ⟨j, _, rfl⟩
    · exact absurd hj (Finset.notMem_empty _)
    · exact ⟨by rw [L_tc]; exact Finset.mem_singleton_self _, by rw [lv_bar, lv_recv]; decide⟩

end Cert.Kernel.AllMax

end
-- ==== Proof.Kernel.Ghost.lean ====
import proofs.«900910_g7700000000000911_dist_max_ax0_shard0_i_m1536_n768_v7x_i32_f32_1_alg».proof.Proof.Kernel.Levels

/-! The cells of the exchange under one index, the persistent knowledge every device shares about them (each
cell's invariant, and that round 0 of each is reached), and what a device holds linearly when its kernel
starts: its positions on its own 63 cells and the tokens of the 93 duties it pays. -/

noncomputable section

namespace Cert.Kernel.AllMax

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A device's cells: its barrier cell, its 31 send cells, its 31 receive cells. -/
abbrev CK : Type := Unit ⊕ (J ⊕ J)

def csem : CK → SemLoc sig
  | .inl _ => .reg barS
  | .inr (.inl j) => .dma (sendSem j)
  | .inr (.inr j) => .dma (recvSem j)

abbrev kcell (ck : Dev nD × CK) : GSem nD τ sig := ((ck.1 : Thread nD τ), csem ck.2)

theorem csem_injective : Function.Injective csem := by
  rintro (_ | j | j) (_ | j' | j') h
  · rfl
  · exact absurd h (fun h => by cases h)
  · exact absurd h (fun h => by cases h)
  · exact absurd h (fun h => by cases h)
  · exact congrArg (Sum.inr ∘ Sum.inl) (sendSem_inj j j' (SemLoc.dma.inj h))
  · exact absurd (SemLoc.dma.inj h) (sendSem_ne_recvSem j j')
  · exact absurd h (fun h => by cases h)
  · exact absurd (SemLoc.dma.inj h).symm (sendSem_ne_recvSem j' j)
  · exact congrArg (Sum.inr ∘ Sum.inr) (recvSem_inj j j' (SemLoc.dma.inj h))

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def allCells : Finset (GSem nD τ sig) := Finset.univ.map ⟨kcell, kcell_injective⟩

/-- Every cell's invariant, under the names `κ` the launch allocated them at, and that round 0 of every cell is reached. -/
def records (κ : Dev nD × CK → ℕ) : sProp 𝕄 :=
  iprop((bigSep Finset.univ fun ck : Dev nD × CK => cellInv ER (sched m) (κ ck) (kcell ck))
    ∗ bigSep Finset.univ fun ck : Dev nD × CK => reached ER (kcell ck) 0)

instance records_persistent (κ : Dev nD × CK → ℕ) : BI.Persistent (records m κ) := by unfold records; infer_instance

theorem inv_at' (κ : Dev nD × CK → ℕ) (ck : Dev nD × CK) :
    (bigSep Finset.univ fun ck : Dev nD × CK => (cellInv ER (sched m) (κ ck) (kcell ck) : sProp 𝕄)) ⊢ cellInv ER (sched m) (κ ck) (kcell ck) :=
  bigSep_elim (Finset.mem_univ ck)
theorem reached_at' (ck : Dev nD × CK) :
    (bigSep Finset.univ fun ck : Dev nD × CK => (reached ER (kcell ck) 0 : sProp 𝕄)) ⊢ reached ER (kcell ck) 0 :=
  bigSep_elim (Finset.mem_univ ck)
theorem inv_at (κ : Dev nD × CK → ℕ) (ck : Dev nD × CK) : records m κ ⊢ cellInv ER (sched m) (κ ck) (kcell ck) := by
  unfold records
  iintro ⟨H, -⟩
  iapply (inv_at' m κ ck)
  iexact H
theorem reached_at (κ : Dev nD × CK → ℕ) (ck : Dev nD × CK) : records m κ ⊢ reached ER (kcell ck) 0 := by
  unfold records
  iintro ⟨-, H⟩
  iapply (reached_at' (F := F) ck)
  iexact H

theorem inv_bar (κ : Dev nD × CK → ℕ) (c : Dev nD) : records m κ ⊢ cellInv ER (sched m) (κ (c, .inl ())) (barCell c) := inv_at m κ (c, .inl ())
theorem inv_send (κ : Dev nD × CK → ℕ) (c : Dev nD) (j : J) : records m κ ⊢ cellInv ER (sched m) (κ (c, .inr (.inl j))) (sendCell c j) := inv_at m κ (c, .inr (.inl j))
theorem inv_recv (κ : Dev nD × CK → ℕ) (c : Dev nD) (j : J) : records m κ ⊢ cellInv ER (sched m) (κ (c, .inr (.inr j))) (recvCell c j) := inv_at m κ (c, .inr (.inr j))
theorem reached_bar (κ : Dev nD × CK → ℕ) (c : Dev nD) : records m κ ⊢ reached ER (barCell c) 0 := reached_at m κ (c, .inl ())
theorem reached_send (κ : Dev nD × CK → ℕ) (c : Dev nD) (j : J) : records m κ ⊢ reached ER (sendCell c j) 0 := reached_at m κ (c, .inr (.inl j))
theorem reached_recv (κ : Dev nD × CK → ℕ) (c : Dev nD) (j : J) : records m κ ⊢ reached ER (recvCell c j) 0 := reached_at m κ (c, .inr (.inr j))

/-- What stays with device `c`: its positions on its own cells, and the tokens of the duties it pays — on each
    peer's barrier cell the duty named by the complementary offset, each peer's receive duty, its own send duties. -/
def linear (c : Dev nD) : sProp 𝕄 :=
  iprop(atPos ER (barCell c) 0 ∅ 0
    ∗ (bigSep Finset.univ fun j : J => atPos ER (sendCell c j) 0 ∅ 0)
    ∗ (bigSep Finset.univ fun j : J => atPos ER (recvCell c j) 0 ∅ 0)
    ∗ (bigSep Finset.univ fun j : J => dutyTok ER (barCell (fwd j c)) 0 (Fin.rev j))
    ∗ (bigSep Finset.univ fun j : J => dutyTok ER (recvCell (fwd j c) j) 0 (0 : J))
    ∗ (bigSep Finset.univ fun j : J => dutyTok ER (sendCell c j) 0 (0 : J)))

def ghost (κ : Dev nD × CK → ℕ) (c : Dev nD) : sProp 𝕄 := iprop(records m κ ∗ linear (F := F) c)

/-- What device `c`'s body starts from: that at some names, the credit the launch dealt it (its barrier's 31 units,
    each receive cell's row credit) and the level facts. -/
def start (c : Dev nD) : sProp 𝕄 :=
  iprop((∃ κ, ghost m κ c) ∗ cred (tallyAt (barCell c) () 31)
    ∗ (bigSep Finset.univ fun j : J => cred (tallyAt (recvCell c j) () N)) ∗ levAts L lv)

end Cert.Kernel.AllMax

end
-- ==== Proof.Kernel.Steps.lean ====
import proofs.«900910_g7700000000000911_dist_max_ax0_shard0_i_m1536_n768_v7x_i32_f32_1_alg».proof.Proof.Kernel.Ghost

/-! One lemma per kind of cross-device step of the kernel, at a symbolic device `c` and offset index `j`:
the signal to a peer's barrier cell, the wait for the 31 peers' signals, the transfer of the device's row into
a peer's landing row, and the waits for a row to land and for a transfer's source to be released. -/

noncomputable section

namespace Cert.Kernel.AllMax

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A landing row's credit is a row's. -/
theorem slot_credit : ∀ j : J, (slotM j : Memref sig .tc .vmem S1x768 .f32).view.dmaCredit = N := by
  intro j; rfl

/-- What the signal to `fwd j c` hands over is duty `rev j`'s payload there: going on from `fwd j c` by the
    complementary offset one is back at `c`, so the row and the receive cell it names are `c`'s own. -/
theorem signal_payload (κ : Dev nD × CK → ℕ) (c : Dev nD) (j : J) :
    iprop(records m κ ∗ (∃ f, slotPts (F := F) c (Fin.rev j) f))
      ⊢ (sched (F := F) m).payload (barCell (fwd j c)) 0 (Fin.rev j) := by
  rw [payload_bar]; unfold barPay; rw [fwd_rev_fwd j c]
  iintro ⟨#Hrec, Hslot⟩
  isplitl [Hslot]; · iexact Hslot
  iapply (reached_recv m κ c (Fin.rev j)); iexact Hrec

/-- The signal to the barrier cell of `fwd j c`: it pays that cell's duty `rev j` — the one the peer reads as "the
    device I reach with offset index `rev j`" — with row `rev j` of `c`'s own landing buffer. -/
theorem step_signal (κ : Dev nD × CK → ℕ) (c : Dev nD) (j : J) {S T : Finset J} (hj : j ∈ S) {W : Waits sig Unit}
    {α : Type} {Q : α → sProp 𝕄} {k : PUnit → Prog (TpuEff nD τ sig (Elt F) Λ₀ .tc) α} :
    iprop(records m κ ∗ owes (c : Thread nD τ) (owedOn c S T) W ∗ dutyTok ER (barCell (fwd j c)) 0 (Fin.rev j)
        ∗ (∃ f, slotPts (F := F) c (Fin.rev j) f))
      ⊢ iprop((owes (c : Thread nD τ) (owedOn c (S.erase j) T) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((fwd j c : Dev nD), Proc.tc) barS (1#32 : BitVec 32).toNat) k) Q) := by
  iintro ⟨#Hrec, HO, Htok, Hslot⟩ Hk
  iapply (Rounds.wp_signal 𝒱₀ ER (sched m) (c : Thread nD τ) none (dst := (fwd j c : Thread nD τ)) (sem := barS)
      (r := 0) (d := Fin.rev j) (k' := (1#32 : BitVec 32).toNat) (κ := κ (fwd j c, .inl ()))
      (by rw [duties_bar]; exact Finset.mem_univ _)
      ((amount_bar m (fwd j c) (Fin.rev j)).trans (by decide)) () (owedOn c (S.erase j) T) (owedOn_peel_bar c hj))
    $$ [HO Htok Hslot]
  · isplitr; · iapply (inv_bar m κ (fwd j c)); iexact Hrec
    isplitl [HO]; · iexact HO
    isplitl [Htok]; · iexact Htok
    isplitl [Hslot]
    · iapply (signal_payload m κ c j)
      isplitr; · iexact Hrec
      iexact Hslot
    · iapply (reached_bar m κ (fwd j c)); iexact Hrec
  iexact Hk

/-- The wait for the 31 units of the device's own barrier cell, owing receive credit only: every peer's landing
    row for this device comes with it. -/
theorem step_bar_wait (κ : Dev nD × CK → ℕ) (c : Dev nD) {T : Finset J} {W : Waits sig Unit}
    {α : Type} {Q : α → sProp 𝕄} {k : PUnit → Prog (TpuEff nD τ sig (Elt F) Λ₀ .tc) α} :
    iprop(records m κ ∗ cred (tallyAt (barCell c) () 31) ∗ owes (c : Thread nD τ) (owedOn c ∅ T) W ∗ levAts L lv
        ∗ atPos ER (barCell c) 0 ∅ 0)
      ⊢ iprop(((owes (c : Thread nD τ) (owedOn c ∅ T) (insert (SemLoc.reg barS, ()) W) ∗ atPos ER (barCell c) 1 ∅ 0
              ∗ bigSep Finset.univ (fun k : J => barPay (F := F) c k))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (31#32 : BitVec 32).toNat) k) Q) := by
  iintro ⟨#Hrec, Hc, HO, Hlev, Hat⟩ Hk
  iapply (Rounds.wp_wait_rest_token 𝒱₀ ER (sched m) (c : Thread nD τ) none (sm := .reg barS)
      (k' := (31#32 : BitVec 32).toNat) (κ := κ (c, .inl ()))
      (wpE_semWait_eq 𝒱₀ (c : Thread nD τ) none Set.univ) (Set.mem_univ _) () (O := owedOn c ∅ T) (W := W)
      (R := 0) (m := 0) (T := ∅) (by rw [expect_bar]; decide)) $$ [Hc HO Hlev Hat]
  · isplitr; · iapply (inv_bar m κ c); iexact Hrec
    isplitl [Hc]; · iexact Hc
    isplitl [HO]; · iexact HO
    isplitl [Hlev]; · iapply (mayWait_bar c T); iexact Hlev
    iexact Hat
  iintro ⟨HO, Hat, -, Hpay⟩
  iapply Hk
  isplitl [HO]; · iexact HO
  isplitl [Hat]; · iexact Hat
  iapply (Entails.of_eq (rest_bar m c)); iexact Hpay

/-- A send or receive cell whose one round is consumed closes: its counter, at zero, is the device's again. -/
theorem close_send (κ : Dev nD × CK → ℕ) (c : Dev nD) (j : J) :
    iprop(records m κ ∗ atPos ER (sendCell c j) 1 ∅ 0) ⊢ iprop(|={Set.univ}=> (semVal (sendCell c j) 0 : sProp 𝕄)) := by
  iintro ⟨#Hrec, Hat⟩
  iapply (Rounds.cell_close ER (sched m) (Set.mem_univ (κ (c, .inr (.inl j)))) (fun h => h) (R := 1)
      (duties_later m (sendCell c j)))
  isplitr; · iapply (inv_send m κ c j); iexact Hrec
  iexact Hat
theorem close_recv (κ : Dev nD × CK → ℕ) (c : Dev nD) (j : J) :
    iprop(records m κ ∗ atPos ER (recvCell c j) 1 ∅ 0) ⊢ iprop(|={Set.univ}=> (semVal (recvCell c j) 0 : sProp 𝕄)) := by
  iintro ⟨#Hrec, Hat⟩
  iapply (Rounds.cell_close ER (sched m) (Set.mem_univ (κ (c, .inr (.inr j)))) (fun h => h) (R := 1)
      (duties_later m (recvCell c j)))
  isplitr; · iapply (inv_recv m κ c j); iexact Hrec
  iexact Hat

/-- info: 'Cert.Kernel.AllMax.slot_credit' depends on axioms: [propext, Classical.choice, Quot.sound] -/
#guard_msgs in #print axioms slot_credit

/-- info: 'Cert.Kernel.AllMax.signal_payload' depends on axioms: [propext, Classical.choice, Quot.sound] -/
#guard_msgs in #print axioms signal_payload

/-- info: 'Cert.Kernel.AllMax.step_signal' depends on axioms: [propext, Classical.choice, Quot.sound] -/
#guard_msgs in #print axioms step_signal

/-- info: 'Cert.Kernel.AllMax.step_bar_wait' depends on axioms: [propext, Classical.choice, Quot.sound] -/
#guard_msgs in #print axioms step_bar_wait

/-- info: 'Cert.Kernel.AllMax.close_send' depends on axioms: [propext, Classical.choice, Quot.sound] -/
#guard_msgs in #print axioms close_send

/-- info: 'Cert.Kernel.AllMax.close_recv' depends on axioms: [propext, Classical.choice, Quot.sound] -/
#guard_msgs in #print axioms close_recv

end Cert.Kernel.AllMax

end
-- ==== Proof.Kernel.Mem.lean ====
import proofs.«900910_g7700000000000911_dist_max_ax0_shard0_i_m1536_n768_v7x_i32_f32_1_alg».proof.Proof.Kernel.Sched
import Idealize.ShloMosaic.Lib.Ring
import Idealize.ShloMosaic.Lib.Pipeline.Value
import Idealize.ShloMosaic.Lib.Transfers

/-! The memory facts of the exchange. A device's own row of column maxima, held whole, is the share it keeps
and the 31 shares its transfers read through; its landing buffer, held whole, is its 31 rows. What a transfer of
a row lands in a landing row is determined on that row's elements, and for the transfer from the device
`j + 1` places before the receiver it is the receiver's expected row `j`. The body's whole-buffer loads and
stores read and write the buffer's contents themselves, and the staged argument block is the launched array. -/

noncomputable section

namespace Cert.Kernel.AllMax

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Whole-buffer loads and stores -/

/-- The zero offsets of a rank-2 and of a rank-3 access, as the constant function. -/
theorem zero2 : (![0, 0] : Fin 2 → Nat) = fun _ => 0 := by funext a; fin_cases a <;> rfl
theorem zero3 : (![0, 0, 0] : Fin 3 → Nat) = fun _ => 0 := by funext a; fin_cases a <;> rfl

/-- A load of a whole buffer at zero offsets reads its contents. -/
theorem read_x (f : (cc0_stg0_0 : Ref sig .tc).ty.Contents (Elt F)) :
    (xM : Memref sig .tc .vmem S1536x768 .f32).view.readAt (Elt F)
      (Rect.unit (s := S1536x768) ![0, 0] S1536x768.size inb_S1536x768_S1536x768_0_0).toLoadRect f = f :=
  Memref.readAt_unit_zero (Elt F) cc0_stg0_0 zero2 inb_S1536x768_S1536x768_0_0 f

theorem read_own (f : (cc0_scratch0 : Ref sig .tc).ty.Contents (Elt F)) :
    (ownM : Memref sig .tc .vmem S1x768 .f32).view.readAt (Elt F)
      (Rect.unit (s := S1x768) ![0, 0] S1x768.size inb_S1x768_S1x768_0_0).toLoadRect f = f :=
  Memref.readAt_unit_zero (Elt F) cc0_scratch0 zero2 inb_S1x768_S1x768_0_0 f

theorem read_out (f : (cc0_stg1_0 : Ref sig .tc).ty.Contents (Elt F)) :
    (oM : Memref sig .tc .vmem S1x768 .f32).view.readAt (Elt F)
      (Rect.unit (s := S1x768) ![0, 0] S1x768.size inb_S1x768_S1x768_0_0).toLoadRect f = f :=
  Memref.readAt_unit_zero (Elt F) cc0_stg1_0 zero2 inb_S1x768_S1x768_0_0 f

theorem read_comm (f : (cc0_scratch1 : Ref sig .tc).ty.Contents (Elt F)) :
    (commM : Memref sig .tc .vmem S31x1x768 .f32).view.readAt (Elt F)
      (Rect.unit (s := S31x1x768) ![0, 0, 0] S31x1x768.size inb_S31x1x768_S31x1x768_0_0_0).toLoadRect f = f :=
  Memref.readAt_unit_zero (Elt F) cc0_scratch1 zero3 inb_S31x1x768_S31x1x768_0_0_0 f

/-- An unmasked store through a whole buffer at zero offsets leaves the stored vector as its contents. -/
theorem write_own (f w : (cc0_scratch0 : Ref sig .tc).ty.Contents (Elt F)) :
    ((ownM : Memref sig .tc .vmem S1x768 .f32).access
      (Rect.unit (s := S1x768) ![0, 0] S1x768.size inb_S1x768_S1x768_0_0) : View sig .tc _ _ _).write (Elt F) f w Finset.univ = w :=
  Memref.write_access_unit_zero_univ (Elt F) cc0_scratch0 zero2 inb_S1x768_S1x768_0_0 f w

theorem write_out (f w : (cc0_stg1_0 : Ref sig .tc).ty.Contents (Elt F)) :
    ((oM : Memref sig .tc .vmem S1x768 .f32).access
      (Rect.unit (s := S1x768) ![0, 0] S1x768.size inb_S1x768_S1x768_0_0) : View sig .tc _ _ _).write (Elt F) f w Finset.univ = w :=
  Memref.write_access_unit_zero_univ (Elt F) cc0_stg1_0 zero2 inb_S1x768_S1x768_0_0 f w

/-- The staged block of the argument is the launched array: the window is the whole array at block index 0. -/
theorem xOf_eq (c : Dev nD) : xOf m c = m ((c : Thread nD τ).loc main_arg0) :=
  Memref.read_access_unit_zero (Elt F) main_arg0 (funext fun a => Nat.zero_mul _) _ _

/-! ## The own row by shares -/

/-- A device's own row held whole is the share the device keeps and the 31 shares its transfers read through. -/
theorem own_shares (c : Dev nD) (v : Buf (Elt F) ((c : Thread nD τ).loc cc0_scratch0)) :
    ((((c : Thread nD τ).loc cc0_scratch0) ↦{fullShare} v : sProp 𝕄)) ⊣⊢
      iprop(ownPts c shKeep v ∗ bigSep Finset.univ (fun j : J => ownPts (F := F) c (shTok j) v)) := by
  unfold ownPts
  rw [show (ownM : Memref sig .tc .vmem S1x768 .f32).view.set = Finset.univ from View.set_whole _]
  exact Transfers.pointsTo_toks fullShare 31

/-! ## The landing buffer by rows -/

/-- The elements of row `j` of the landing buffer: the unit rectangle at offset `j` on the leading axis, one row
    long there and whole on the other two axes. -/
abbrev rowSet (j : J) : Finset S31x1x768.Idx :=
  (Rect.unit (s := S31x1x768) ![j.val, 0, 0] S1x1x768.size (slot_inb j)).set

/-- They are the elements under the row's reference: squeezing keeps a slice's elements. -/
theorem slot_set (j : J) : (slotM j : Memref sig .tc .vmem S1x768 .f32).view.set = rowSet j :=
  (View.set_reshape (v := (commM : Memref sig .tc .vmem S31x1x768 .f32).view.slice
      (Rect.unit (s := S31x1x768) ![j.val, 0, 0] S1x1x768.size (slot_inb j))) squeezes_S1x1x768_S1x768.numel_eq).trans
    (View.set_slice_whole cc0_scratch1 _)

/-- Different rows share no element, -/
theorem row_disjoint (j j' : J) (h : j ≠ j') : Disjoint (rowSet j) (rowSet j') :=
  Ring.lead_disjoint (s := S31x1x768) (NB := 31) (0 : Fin 3) 1 (fun j : Fin 31 => ![j.val, 0, 0]) S1x1x768.size slot_inb
    (fun b => (Nat.one_mul _).symm) rfl j j' h

/-- and the 31 rows are the whole buffer. -/
theorem row_cover : Finset.univ.biUnion (fun j : J => rowSet j) = Finset.univ :=
  Ring.lead_cover (s := S31x1x768) (NB := 31) (0 : Fin 3) 1 (fun j : Fin 31 => ![j.val, 0, 0]) S1x1x768.size slot_inb
    (fun b => (Nat.one_mul _).symm) (by decide) rfl (by decide) rfl

/-- A row's points-to, over the row's element set. -/
theorem slotPts_eq (c : Dev nD) (j : J) (f : Buf (Elt F) ((c : Thread nD τ).loc cc0_scratch1)) :
    slotPts (F := F) c j f = (((c : Thread nD τ).loc cc0_scratch1) ↦[rowSet j]{fullShare} f : sProp 𝕄) := by
  unfold slotPts
  rw [slot_set]
  rfl

/-- The whole landing buffer is its 31 rows, at any contents. -/
theorem comm_rows (c : Dev nD) (f : Buf (Elt F) ((c : Thread nD τ).loc cc0_scratch1)) :
    ((((c : Thread nD τ).loc cc0_scratch1) ↦{fullShare} f : sProp 𝕄)) = bigSep Finset.univ (fun j : J => slotPts (F := F) c j f) := by
  rw [show (fun j : J => slotPts (F := F) c j f)
      = fun j : J => (((c : Thread nD τ).loc cc0_scratch1) ↦[rowSet j]{fullShare} f : sProp 𝕄) from funext fun j => slotPts_eq c j f]
  exact Ring.pointsTo_blocks (ℓ := (c : Thread nD τ).loc cc0_scratch1) (fun j : J => rowSet j) row_disjoint row_cover f

/-! ## What a transfer lands in a row -/

/-- Where element `y` of row `j` sits in the landing buffer: at row `j`, column `y 1`. -/
theorem slot_emb (j : J) (y : S1x768.Idx) :
    (slotM j : Memref sig .tc .vmem S1x768 .f32).view.emb y
      = ValueIdx.ix3 (⟨j.val, j.isLt⟩ : Fin 31) (0 : Fin 1) (⟨(y 1).val, (y 1).isLt⟩ : Fin 768) := by
  have he : (slotM j : Memref sig .tc .vmem S1x768 .f32).view.emb y
      = (Rect.unit (s := S31x1x768) ![j.val, 0, 0] S1x1x768.size (slot_inb j)).emb
          (Shape.reshapeEquiv (s := S1x1x768) (s' := S1x768) squeezes_S1x1x768_S1x768.numel_eq y) := rfl
  rw [he, Shape.reshapeEquiv_cons_one (n := 2) (d := ![1, 768])]
  funext a
  apply Fin.ext
  rw [Rect.emb_apply]
  match a with
  | ⟨0, _⟩ => show j.val + 1 * 0 = j.val; omega
  | ⟨1, _⟩ =>
    have h0 : (y 0).val < 1 := (y 0).isLt
    show 0 + 1 * (y 0).val = 0; omega
  | ⟨2, _⟩ => show 0 + 1 * (y 1).val = (y 1).val; omega

/-- What a transfer of the row `v` lands in row `j`: on row `j`'s elements the written buffer agrees with any
    contents `g` whose row `j` is `v`. -/
theorem slot_landed (c : Dev nD) (j : J) (fd : Buf (Elt F) ((slotM j : Memref sig .tc .vmem S1x768 .f32).view.loc (c : Thread nD τ)))
    (v : Buf (Elt F) ((ownM : Memref sig .tc .vmem S1x768 .f32).view.loc (c : Thread nD τ)))
    (g : Buf (Elt F) ((slotM j : Memref sig .tc .vmem S1x768 .f32).view.loc (c : Thread nD τ)))
    (hg : ∀ k : Fin 768, g (ValueIdx.ix3 (⟨j.val, j.isLt⟩ : Fin 31) (0 : Fin 1) k) = v (ValueIdx.ix2 (0 : Fin 1) k)) :
    slotPts c j ((slotM j : Memref sig .tc .vmem S1x768 .f32).view.write (Elt F) fd
        ((ownM : Memref sig .tc .vmem S1x768 .f32).view.read (Elt F) v) Finset.univ) = slotPts c j g := by
  unfold slotPts
  refine pointsTo_congr fun i hi => ?_
  obtain ⟨y, rfl⟩ := View.exists_emb_of_mem_set _ hi
  rw [View.write_emb_of_mem _ _ (Finset.mem_univ y), slot_emb j y, hg]
  have hy : y = ValueIdx.ix2 (0 : Fin 1) (⟨(y 1).val, (y 1).isLt⟩ : Fin 768) := by
    funext a
    match a with
    | ⟨0, _⟩ => exact Fin.ext (by have h0 : (y 0).val < 1 := (y 0).isLt; show (y 0).val = 0; omega)
    | ⟨1, _⟩ => rfl
  conv_lhs => rw [hy]
  rfl

/-- Its instance for the protocol: what the transfer from `c` into `fwd j c` lands is the payload of that
    device's receive cell `j`, since the device `j + 1` places before `fwd j c` is `c`. -/
theorem recv_payload_of_write (c : Dev nD) (j : J)
    (fd : Buf (Elt F) ((slotM j : Memref sig .tc .vmem S1x768 .f32).view.loc ((fwd j c : Dev nD) : Thread nD τ))) :
    ((slotM j : Memref sig .tc .vmem S1x768 .f32).view.loc ((fwd j c : Dev nD) : Thread nD τ) ↦[(slotM j : Memref sig .tc .vmem S1x768 .f32).view.set]{fullShare}
        ((slotM j : Memref sig .tc .vmem S1x768 .f32).view.write (Elt F) fd
          ((ownM : Memref sig .tc .vmem S1x768 .f32).view.read (Elt F) (ownV m c)) Finset.univ) : sProp 𝕄)
      ⊢ recvPay m (fwd j c) j := by
  refine Entails.of_eq ?_
  unfold recvPay
  refine slot_landed (F := F) (fwd j c) j fd (ownV m c) (commV m (fwd j c)) fun k => ?_
  show colMax (fun d => xOf m d) (bwd ⟨j.val, j.isLt⟩ (fwd j c)) (ValueIdx.ix2 (0 : Fin 1) (⟨k.val, k.isLt⟩ : Fin 768)) = _
  rw [show (⟨j.val, j.isLt⟩ : J) = j from rfl, bwd_fwd]
  rfl

/-- Rows held at some contents each join to the landing buffer held whole at some contents
    (`f₀` only witnesses that contents exist). -/
theorem comm_rows_join (c : Dev nD) (f₀ : Buf (Elt F) ((c : Thread nD τ).loc cc0_scratch1)) :
    bigSep Finset.univ (fun j : J => (iprop(∃ f, slotPts (F := F) c j f) : sProp 𝕄))
      ⊢ (iprop(∃ g, ((c : Thread nD τ).loc cc0_scratch1) ↦{fullShare} g) : sProp 𝕄) := by
  have hrow : (fun j : J => (iprop(∃ f, slotPts (F := F) c j f) : sProp 𝕄))
      = fun j : J => (iprop(∃ f, (((c : Thread nD τ).loc cc0_scratch1) ↦[rowSet j]{fullShare} f)) : sProp 𝕄) :=
    funext fun j => congrArg (fun P : Buf (Elt F) ((c : Thread nD τ).loc cc0_scratch1) → sProp 𝕄 => (iprop(∃ f, P f) : sProp 𝕄))
      (funext fun f => slotPts_eq c j f)
  rw [hrow]
  exact Ring.pointsTo_blocks_join_exists (ℓ := (c : Thread nD τ).loc cc0_scratch1) (fun j : J => rowSet j) row_disjoint row_cover f₀

/-! ### Axioms -/

/-- info: 'Cert.Kernel.AllMax.comm_rows' depends on axioms: [propext, Classical.choice, Quot.sound] -/
#guard_msgs in #print axioms comm_rows

/-- info: 'Cert.Kernel.AllMax.own_shares' depends on axioms: [propext, Classical.choice, Quot.sound] -/
#guard_msgs in #print axioms own_shares

/-- info: 'Cert.Kernel.AllMax.recv_payload_of_write' depends on axioms: [propext, Classical.choice, Quot.sound] -/
#guard_msgs in #print axioms recv_payload_of_write

end Cert.Kernel.AllMax

end
-- ==== Proof.Kernel.StepsB.lean ====
import proofs.«900910_g7700000000000911_dist_max_ax0_shard0_i_m1536_n768_v7x_i32_f32_1_alg».proof.Proof.Kernel.Steps
import proofs.«900910_g7700000000000911_dist_max_ax0_shard0_i_m1536_n768_v7x_i32_f32_1_alg».proof.Proof.Kernel.Mem

/-! The transfer steps at a symbolic device `c` and offset index `j`: the transfer of the device's row into a peer's landing
row, the wait for a row to land, and the wait for a transfer's source to be released. -/

noncomputable section

namespace Cert.Kernel.AllMax

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The transfer of the device's row into row `j` of the landing buffer of `fwd j c`: it pays the device's own send
    duty (the source share comes back with it) and the peer's receive duty (the landed row). -/
theorem step_send (κ : Dev nD × CK → ℕ) (c : Dev nD) (j : J) {T : Finset J} (hj : j ∈ T) {W : Waits sig Unit}
    (fd : Buf (Elt F) ((slotM j : Memref sig .tc .vmem S1x768 .f32).view.loc ((fwd j c : Dev nD) : Thread nD τ)))
    {hsc : (slotM j : Memref sig (Dev.tc (fwd j c) : Thread nD τ).2.kind .vmem S1x768 .f32).view.ref.isScScratch = false}
    {hsrc : (ownM : Memref sig .tc .vmem S1x768 .f32).view.WordExact} {hdst : (slotM j : Memref sig .tc .vmem S1x768 .f32).view.WordExact}
    {hsem : DmaTarget.Typed .vmem (.dma (recvSem j)) (.remote (Dev.tc (fwd j c) : Thread nD τ) (slotM j : Memref sig .tc .vmem S1x768 .f32) (.dma (sendSem j)) hsc)}
    {α : Type} {Q : α → sProp 𝕄} {k : PUnit → Prog (TpuEff nD τ sig (Elt F) Λ₀ .tc) α} :
    iprop(records m κ ∗ ownPts c (shTok j) (ownV m c) ∗ slotPts (fwd j c) j fd
        ∗ owes (c : Thread nD τ) (owedOn c ∅ T) W
        ∗ dutyTok ER (sendCell c j) 0 (0 : J) ∗ dutyTok ER (recvCell (fwd j c) j) 0 (0 : J))
      ⊢ iprop(((cred (tallyAt (sendCell c j) () N) ∗ owes (c : Thread nD τ) (owedOn c ∅ (T.erase j)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownM (.remote (Dev.tc (fwd j c) : Thread nD τ) (slotM j) (.dma (sendSem j)) hsc) (.dma (recvSem j)) hsrc hdst hsem) k) Q) := by
  -- the two duties paid: duty 0 of round 0 of the device's send cell and of the peer's receive cell
  have hd₁ : (0 : J) ∈ (sched (F := F) m).duties (sendCell c j) 0 := by rw [duties_send]; exact Finset.mem_singleton_self _
  have hd₂ : (0 : J) ∈ (sched (F := F) m).duties (recvCell (fwd j c) j) 0 := by rw [duties_recv]; exact Finset.mem_singleton_self _
  -- a landing row is credited as a whole row is
  have hN : (slotM j : Memref sig .tc .vmem S1x768 .f32).view.amount (SemLoc.dma (recvSem j)) = N :=
    (View.amount_dma _ _).trans (slot_credit j)
  -- what is owed before the transfer is what is owed after it and the peer's receive credit
  have hO : owedOn c ∅ T = owedOn c ∅ (T.erase j) + tallyAt (recvCell (fwd j c) j) () N := owedOn_peel_recv c hj
  -- the source share is the send duty's payload; the landed row is the receive duty's
  have hpay₁ : ((ownM : Memref sig .tc .vmem S1x768 .f32).view.loc (c : Thread nD τ) ↦[(ownM : Memref sig .tc .vmem S1x768 .f32).view.set]{shTok j} ownV m c : sProp 𝕄)
      ⊢ (sched (F := F) m).payload (sendCell c j) 0 (0 : J) :=
    Entails.of_eq (by rw [payload_send]; rfl)
  have hpay₂ : ((slotM j : Memref sig .tc .vmem S1x768 .f32).view.loc ((fwd j c : Dev nD) : Thread nD τ) ↦[(slotM j : Memref sig .tc .vmem S1x768 .f32).view.set]{fullShare}
        ((slotM j : Memref sig .tc .vmem S1x768 .f32).view.write (Elt F) fd ((ownM : Memref sig .tc .vmem S1x768 .f32).view.read (Elt F) (ownV m c)) Finset.univ) : sProp 𝕄)
      ⊢ (sched (F := F) m).payload (recvCell (fwd j c) j) 0 (0 : J) :=
    (recv_payload_of_write m c j fd).trans (Entails.of_eq (payload_recv m (fwd j c) j 0).symm)
  unfold ownPts slotPts
  iintro ⟨#Hrec, Hsrc, Hdst, HL, Hts, Htr⟩ Hk
  iapply (Rounds.wp_send_pointsTo 𝒱₀ ER (sched m) (c : Thread nD τ) none (c' := (Dev.tc (fwd j c) : Thread nD τ))
      (src := ownM) (dst := slotM j) (sS := SemLoc.dma (sendSem j)) (sem := SemLoc.dma (recvSem j))
      (q := shTok j) (fs := ownV m c) (fd := fd) (r₁ := 0) (r₂ := 0) (d₁ := (0 : J)) (d₂ := (0 : J))
      (κ₁ := κ (c, .inr (.inl j))) (κ₂ := κ (fwd j c, .inr (.inr j)))
      hd₁ hd₂ () () N hN (amount_send m c j 0) (amount_recv m (fwd j c) j 0) (owedOn c ∅ (T.erase j)) hO hpay₁ hpay₂) $$ [Hsrc Hdst HL Hts Htr]
  · isplitr; · iapply (inv_send m κ c j); iexact Hrec
    isplitr; · iapply (inv_recv m κ (fwd j c) j); iexact Hrec
    isplitl [Hsrc]; · iexact Hsrc
    isplitl [Hdst]; · iexact Hdst
    isplitl [HL]; · iexact HL
    isplitl [Hts]; · iexact Hts
    isplitr; · iapply (reached_send m κ c j); iexact Hrec
    isplitl [Htr]; · iexact Htr
    iapply (reached_recv m κ (fwd j c) j); iexact Hrec
  iexact Hk

/-- The wait for row `j` to land: the row, holding the column maxima of the device `j + 1` places before. -/
theorem step_recv_wait (κ : Dev nD × CK → ℕ) (c : Dev nD) (j : J) {W : Waits sig Unit}
    {hsrc : (ownM : Memref sig .tc .vmem S1x768 .f32).view.WordExact} {hdst : (slotM j : Memref sig .tc .vmem S1x768 .f32).view.WordExact}
    {α : Type} {Q : α → sProp 𝕄} {k : PUnit → Prog (TpuEff nD τ sig (Elt F) Λ₀ .tc) α} :
    iprop(records m κ ∗ cred (tallyAt (recvCell c j) () N) ∗ owes (c : Thread nD τ) 0 W ∗ atPos ER (recvCell c j) 0 ∅ 0)
      ⊢ iprop(((owes (c : Thread nD τ) 0 (insert (SemLoc.dma (recvSem j), ()) W) ∗ atPos ER (recvCell c j) 1 ∅ 0 ∗ slotPts c j (commV m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvSem j) ownM (slotM j) hsrc hdst) k) Q) := by
  -- the wait consumes a landing row's credit, which is a row's
  have hw : ∀ K : PUnit → sProp 𝕄,
      wpE (defs₀ (F := F)) 𝒱₀ (c : Thread nD τ) none Set.univ (.waitDma2 (recvSem j) ownM (slotM j) hsrc hdst) K
        = waitSpec (c : Thread nD τ) Set.univ (SemLoc.dma (recvSem j)) N K := fun K =>
    (wpE_waitDma2_eq 𝒱₀ (c : Thread nD τ) none Set.univ K).trans
      (congrArg (fun n => waitSpec (c : Thread nD τ) Set.univ (SemLoc.dma (recvSem j)) n K) (slot_credit j))
  -- and that is the whole of the cell's one round
  have hk : 0 + N = (sched (F := F) m).expect (recvCell c j) 0 := by rw [expect_recv, Nat.zero_add]
  -- the rest of the round is its one duty's payload: the landed row
  have hrest : (bigSep ((sched (F := F) m).duties (recvCell c j) 0 \ ∅) (fun d => (sched (F := F) m).payload (recvCell c j) 0 d) : sProp 𝕄)
      ⊢ slotPts c j (commV m c) := Entails.of_eq (rest_recv m c j)
  iintro ⟨#Hrec, Hc, HL, Hat⟩ Hk
  iapply (Rounds.wp_wait_rest_token 𝒱₀ ER (sched m) (c : Thread nD τ) none (κ := κ (c, .inr (.inr j))) (sm := SemLoc.dma (recvSem j))
      hw (Set.mem_univ _) () (O := 0) (W := W) (R := 0) (m := 0) (T := ∅) hk) $$ [Hc HL Hat]
  · isplitr; · iapply (inv_recv m κ c j); iexact Hrec
    isplitl [Hc]; · iexact Hc
    isplitl [HL]; · iexact HL
    isplitr; · rw [MayWait_zero]; iempintro
    iexact Hat
  iintro ⟨HL, Hat, -, Hrest⟩
  ihave Hp := hrest $$ Hrest
  iapply Hk
  isplitl [HL]; · iexact HL
  isplitl [Hat]; · iexact Hat
  iexact Hp

/-- The wait for transfer `j`'s source to be released: the share of the device's row it read comes back. -/
theorem step_send_wait (κ : Dev nD × CK → ℕ) (c : Dev nD) (j : J) {W : Waits sig Unit}
    {hsrc : (slotM j : Memref sig .tc .vmem S1x768 .f32).view.WordExact} {hdst : (ownM : Memref sig .tc .vmem S1x768 .f32).view.WordExact}
    {α : Type} {Q : α → sProp 𝕄} {k : PUnit → Prog (TpuEff nD τ sig (Elt F) Λ₀ .tc) α} :
    iprop(records m κ ∗ cred (tallyAt (sendCell c j) () N) ∗ owes (c : Thread nD τ) 0 W ∗ atPos ER (sendCell c j) 0 ∅ 0)
      ⊢ iprop(((owes (c : Thread nD τ) 0 (insert (SemLoc.dma (sendSem j), ()) W) ∗ atPos ER (sendCell c j) 1 ∅ 0 ∗ ownPts c (shTok j) (ownV m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendSem j) (slotM j) ownM hsrc hdst) k) Q) := by
  -- the wait consumes the credit of the device's own row, the whole of the cell's one round
  have hk : 0 + (ownM : Memref sig .tc .vmem S1x768 .f32).view.dmaCredit = (sched (F := F) m).expect (sendCell c j) 0 := by
    rw [expect_send, Nat.zero_add]
  -- the rest of the round is its one duty's payload: the share of the row the transfer read
  have hrest : (bigSep ((sched (F := F) m).duties (sendCell c j) 0 \ ∅) (fun d => (sched (F := F) m).payload (sendCell c j) 0 d) : sProp 𝕄)
      ⊢ ownPts c (shTok j) (ownV m c) := Entails.of_eq (rest_send m c j)
  iintro ⟨#Hrec, Hc, HL, Hat⟩ Hk
  iapply (Rounds.wp_wait_rest_token 𝒱₀ ER (sched m) (c : Thread nD τ) none (κ := κ (c, .inr (.inl j))) (sm := SemLoc.dma (sendSem j))
      (wpE_waitDma2_eq 𝒱₀ (c : Thread nD τ) none Set.univ) (Set.mem_univ _) () (O := 0) (W := W) (R := 0) (m := 0) (T := ∅) hk) $$ [Hc HL Hat]
  · isplitr; · iapply (inv_send m κ c j); iexact Hrec
    isplitl [Hc]; · iexact Hc
    isplitl [HL]; · iexact HL
    isplitr; · rw [MayWait_zero]; iempintro
    iexact Hat
  iintro ⟨HL, Hat, -, Hrest⟩
  ihave Hp := hrest $$ Hrest
  iapply Hk
  isplitl [HL]; · iexact HL
  isplitl [Hat]; · iexact Hat
  iexact Hp

/-- info: 'Cert.Kernel.AllMax.step_send_wait' depends on axioms: [propext, Classical.choice, Quot.sound] -/
#guard_msgs in #print axioms step_send_wait

end Cert.Kernel.AllMax

end
-- ==== Proof.Kernel.Loop.lean ====
import proofs.«900910_g7700000000000911_dist_max_ax0_shard0_i_m1536_n768_v7x_i32_f32_1_alg».proof.Proof.Kernel.StepsB
import proofs.«900910_g7700000000000911_dist_max_ax0_shard0_i_m1536_n768_v7x_i32_f32_1_alg».proof.Proof.Kernel.Mem

/-! The 31 steps of each family — signals, transfers, waits — are taken in the order of the offset indices
`j = 0, 1, …, 30`. Before step `j` the indices still to do are those not below `j`, and those done are the ones
below it: a separating conjunction over the former gives up its term at `j`, one over the latter takes it in,
and what a device owes is indexed by the indices still to do. The signal and the transfer steps in that form. -/

noncomputable section

namespace Cert.Kernel.AllMax

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The indices still to do and those done -/

/-- the offset indices not below n, and those below n -/
def rem (n : ℕ) : Finset J := Finset.univ.filter fun i => n ≤ i.val
def done (n : ℕ) : Finset J := Finset.univ.filter fun i => i.val < n

theorem mem_rem_iff {n : ℕ} {i : J} : i ∈ rem n ↔ n ≤ i.val := by
  unfold rem; rw [Finset.mem_filter]; exact ⟨fun h => h.2, fun h => ⟨Finset.mem_univ _, h⟩⟩
theorem mem_done_iff {n : ℕ} {i : J} : i ∈ done n ↔ i.val < n := by
  unfold done; rw [Finset.mem_filter]; exact ⟨fun h => h.2, fun h => ⟨Finset.mem_univ _, h⟩⟩

theorem rem_zero : rem 0 = Finset.univ :=
  Finset.ext fun i => by rw [mem_rem_iff]; exact ⟨fun _ => Finset.mem_univ _, fun _ => Nat.zero_le _⟩
theorem rem_end : rem 31 = ∅ :=
  Finset.ext fun i => by
    rw [mem_rem_iff]
    exact ⟨fun h => absurd i.isLt (Nat.not_lt.mpr h), fun h => absurd h (Finset.notMem_empty _)⟩
theorem done_zero : done 0 = ∅ :=
  Finset.ext fun i => by
    rw [mem_done_iff]
    exact ⟨fun h => absurd h (Nat.not_lt_zero _), fun h => absurd h (Finset.notMem_empty _)⟩
theorem done_end : done 31 = Finset.univ :=
  Finset.ext fun i => by rw [mem_done_iff]; exact ⟨fun _ => Finset.mem_univ _, fun _ => i.isLt⟩

theorem mem_rem : ∀ j : J, j ∈ rem j.val := fun j => mem_rem_iff.mpr (Nat.le_refl _)

/-- Past step `j` the indices still to do are those not below `j + 1`. -/
theorem rem_succ : ∀ j : J, (rem j.val).erase j = rem (j.val + 1) := fun j =>
  Finset.ext fun i => by
    rw [Finset.mem_erase, mem_rem_iff, mem_rem_iff]
    constructor
    · rintro ⟨hne, hle⟩
      have hv : i.val ≠ j.val := fun h => hne (Fin.ext h)
      omega
    · intro h
      exact ⟨fun he => by rw [he] at h; omega, by omega⟩

theorem not_mem_done : ∀ j : J, j ∉ done j.val := fun j h => Nat.lt_irrefl _ (mem_done_iff.mp h)

/-- and those done are the ones below `j + 1`. -/
theorem done_succ : ∀ j : J, insert j (done j.val) = done (j.val + 1) := fun j =>
  Finset.ext fun i => by
    rw [Finset.mem_insert, mem_done_iff, mem_done_iff]
    constructor
    · rintro (he | h)
      · rw [he]; exact Nat.lt_succ_self _
      · omega
    · intro h
      by_cases he : i = j
      · exact Or.inl he
      · have hv : i.val ≠ j.val := fun h' => he (Fin.ext h')
        exact Or.inr (by omega)

/-! ## Separating conjunctions over them -/

/-- The conjunction over the indices still to do gives up its term at `j`. -/
theorem peelR (j : J) (Φ : J → sProp 𝕄) : bigSep (rem j.val) Φ ⊢ iprop(Φ j ∗ bigSep (rem (j.val + 1)) Φ) := by
  rw [← rem_succ j]
  exact Entails.of_eq ((bigSep_erase (mem_rem j)).trans rfl)

/-- The conjunction over the indices done takes the term at `j` in. -/
theorem accR (j : J) (Φ : J → sProp 𝕄) : iprop(Φ j ∗ bigSep (done j.val) Φ) ⊢ bigSep (done (j.val + 1)) Φ := by
  rw [← done_succ j]
  exact Entails.of_eq ((bigSep_insert (not_mem_done j)).symm.trans rfl)

/-- At the start every index is still to do and none is done; at the end all are done. -/
theorem startR (Φ : J → sProp 𝕄) : bigSep Finset.univ Φ ⊢ bigSep (rem (0 : J).val) Φ :=
  Entails.of_eq (congrArg (fun s => bigSep s Φ) rem_zero).symm
theorem startAcc (Φ : J → sProp 𝕄) : (iprop(emp) : sProp 𝕄) ⊢ bigSep (done (0 : J).val) Φ :=
  Entails.of_eq ((congrArg (fun s => bigSep s Φ) done_zero).trans bigSep_empty).symm
theorem endAcc (Φ : J → sProp 𝕄) : bigSep (done ((30 : J).val + 1)) Φ ⊢ bigSep Finset.univ Φ :=
  Entails.of_eq (congrArg (fun s => bigSep s Φ) done_end)

/-! ## What is owed, by the indices still to do -/

theorem O₀_eq (c : Dev nD) : O₀ c = owedOn c (rem (0 : J).val) (rem (0 : J).val) :=
  (congrArg (fun s => owedOn c s s) rem_zero).symm
theorem owed_after_signals (c : Dev nD) (T : Finset J) : owedOn c (rem ((30 : J).val + 1)) T = owedOn c ∅ T :=
  congrArg (fun s => owedOn c s T) rem_end
theorem owed_after_sends (c : Dev nD) : owedOn c ∅ (rem ((30 : J).val + 1)) = 0 :=
  (congrArg (fun s => owedOn c ∅ s) rem_end).trans (owedOn_empty c)

/-! ## The signal and the transfer at step `j` -/

/-- Steps.lean's step_signal and StepsB.lean's step_send with the index sets in this form -/
theorem sigR (κ : Dev nD × CK → ℕ) (c : Dev nD) (j : J) {T : Finset J} {W : Waits sig Unit}
    {α : Type} {Q : α → sProp 𝕄} {k : PUnit → Prog (TpuEff nD τ sig (Elt F) Λ₀ .tc) α} :
    iprop(records m κ ∗ owes (c : Thread nD τ) (owedOn c (rem j.val) T) W ∗ dutyTok ER (barCell (fwd j c)) 0 (Fin.rev j)
        ∗ (∃ f, slotPts (F := F) c (Fin.rev j) f))
      ⊢ iprop((owes (c : Thread nD τ) (owedOn c (rem (j.val + 1)) T) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((fwd j c : Dev nD), Proc.tc) barS (1#32 : BitVec 32).toNat) k) Q) := by
  rw [← rem_succ j]; exact step_signal m κ c j (mem_rem j)

theorem sendR (κ : Dev nD × CK → ℕ) (c : Dev nD) (j : J) {W : Waits sig Unit}
    (fd : Buf (Elt F) ((slotM j : Memref sig .tc .vmem S1x768 .f32).view.loc ((fwd j c : Dev nD) : Thread nD τ)))
    {hsc : (slotM j : Memref sig (Dev.tc (fwd j c) : Thread nD τ).2.kind .vmem S1x768 .f32).view.ref.isScScratch = false}
    {hsrc : (ownM : Memref sig .tc .vmem S1x768 .f32).view.WordExact} {hdst : (slotM j : Memref sig .tc .vmem S1x768 .f32).view.WordExact}
    {hsem : DmaTarget.Typed .vmem (.dma (recvSem j)) (.remote (Dev.tc (fwd j c) : Thread nD τ) (slotM j : Memref sig .tc .vmem S1x768 .f32) (.dma (sendSem j)) hsc)}
    {α : Type} {Q : α → sProp 𝕄} {k : PUnit → Prog (TpuEff nD τ sig (Elt F) Λ₀ .tc) α} :
    iprop(records m κ ∗ ownPts c (shTok j) (ownV m c) ∗ slotPts (fwd j c) j fd
        ∗ owes (c : Thread nD τ) (owedOn c ∅ (rem j.val)) W
        ∗ dutyTok ER (sendCell c j) 0 (0 : J) ∗ dutyTok ER (recvCell (fwd j c) j) 0 (0 : J))
      ⊢ iprop(((cred (tallyAt (sendCell c j) () N) ∗ owes (c : Thread nD τ) (owedOn c ∅ (rem (j.val + 1))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownM (.remote (Dev.tc (fwd j c) : Thread nD τ) (slotM j) (.dma (sendSem j)) hsc) (.dma (recvSem j)) hsrc hdst hsem) k) Q) := by
  rw [← rem_succ j]; exact step_send m κ c j (mem_rem j) fd

/-- info: 'Cert.Kernel.AllMax.peelR' depends on axioms: [propext, Classical.choice, Quot.sound] -/
#guard_msgs in #print axioms peelR

/-- info: 'Cert.Kernel.AllMax.accR' depends on axioms: [propext, Classical.choice, Quot.sound] -/
#guard_msgs in #print axioms accR

/-- info: 'Cert.Kernel.AllMax.endAcc' depends on axioms: [propext, Classical.choice, Quot.sound] -/
#guard_msgs in #print axioms endAcc

/-- info: 'Cert.Kernel.AllMax.O₀_eq' depends on axioms: [propext, Classical.choice, Quot.sound] -/
#guard_msgs in #print axioms O₀_eq

/-- info: 'Cert.Kernel.AllMax.owed_after_sends' depends on axioms: [propext, Classical.choice, Quot.sound] -/
#guard_msgs in #print axioms owed_after_sends

end Cert.Kernel.AllMax

end
-- ==== Proof.Kernel.Glue.lean ====
import proofs.«900910_g7700000000000911_dist_max_ax0_shard0_i_m1536_n768_v7x_i32_f32_1_alg».proof.Proof.Kernel.Mem
import proofs.«900910_g7700000000000911_dist_max_ax0_shard0_i_m1536_n768_v7x_i32_f32_1_alg».proof.Proof.Kernel.Steps
import Idealize.SL.ProofMode.BigOp

/-! The bookkeeping between the steps of a device's body. Each family of 31 steps runs over the set of offset
indices still to do: one index is taken out of a family of resources, and what its step leaves is added to the
family of results. The resources each family of steps consumes are regrouped by offset index, and what the
waits leave is split back into families: the landing buffer held whole again, the device's own row held whole
again, and the 62 transfer cells closed. -/

noncomputable section

namespace Cert.Kernel.AllMax

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## One index out of a family, one result into a family -/

/-- A family over a set holding `j` is its member at `j` and the family over the rest. -/
theorem peel {S : Finset J} {j : J} (hj : j ∈ S) (Φ : J → sProp 𝕄) : bigSep S Φ ⊢ iprop(Φ j ∗ bigSep (S.erase j) Φ) :=
  Entails.of_eq (bigSep_erase hj)

/-- The results so far are those of the indices no longer to do; taking `j` out of the indices to do adds its result. -/
theorem acc {T : Finset J} {j : J} (hj : j ∈ T) (Φ : J → sProp 𝕄) :
    iprop(Φ j ∗ bigSep (Finset.univ \ T) Φ) ⊢ bigSep (Finset.univ \ T.erase j) Φ := by
  rw [Finset.sdiff_erase (Finset.mem_univ j), bigSep_insert (Finset.notMem_sdiff_of_mem_right hj)]
  exact .rfl

/-- With every index still to do there are no results yet, -/
theorem acc_start (Φ : J → sProp 𝕄) : (iprop(emp) : sProp 𝕄) ⊢ bigSep (Finset.univ \ (Finset.univ : Finset J)) Φ := by
  rw [Finset.sdiff_self, bigSep_empty]
  exact .rfl

/-- and with none left the results are the whole family. -/
theorem acc_done {T : Finset J} (hT : T = ∅) (Φ : J → sProp 𝕄) : bigSep (Finset.univ \ T) Φ ⊢ bigSep Finset.univ Φ := by
  rw [hT, Finset.sdiff_empty]

/-! ## The resources of each family of steps, by offset index -/

/-- What the 31 signals consume, by the signal's offset index `j`: the token of duty `rev j` of the barrier cell of
    `fwd j c`, and row `rev j` of the device's own landing buffer — the row that peer will write. The buffer held
    whole is its rows, and `rev` permutes the row indices. -/
theorem signal_res (c : Dev nD) (f : Buf (Elt F) ((c : Thread nD τ).loc cc0_scratch1)) :
    iprop((bigSep Finset.univ fun j : J => dutyTok ER (barCell (fwd j c)) 0 (Fin.rev j)) ∗ (((c : Thread nD τ).loc cc0_scratch1) ↦{fullShare} f))
      ⊢ bigSep Finset.univ (fun j : J => iprop(dutyTok ER (barCell (fwd j c)) 0 (Fin.rev j) ∗ ∃ f, slotPts (F := F) c (Fin.rev j) f)) := by
  have e1 : bigSep Finset.univ (fun j : J => slotPts (F := F) c j f)
      = bigSep Finset.univ (fun j : J => slotPts (F := F) c (Fin.rev j) f) := bigSep_univ_equiv Fin.revPerm _
  have h1 : ∀ j : J, (slotPts (F := F) c (Fin.rev j) f : sProp 𝕄) ⊢ iprop(∃ f, slotPts (F := F) c (Fin.rev j) f) :=
    fun j => by iintro H; iexists f; iexact H
  rw [comm_rows c f, e1, bigSep_sep']
  exact sep_mono_right (bigSep_mono fun j _ => h1 j)

/-- What the 31 transfers consume, by offset index `j`: row `j` of the landing buffer of `fwd j c` (handed over by
    that peer's barrier signal), share `j` of the device's own row, and the tokens of the transfer's two duties.
    The mark that came with the peer's row is not needed again. -/
theorem send_res (c : Dev nD) :
    iprop((bigSep Finset.univ fun k : J => barPay (F := F) c k) ∗ (bigSep Finset.univ fun j : J => ownPts c (shTok j) (ownV m c))
        ∗ (bigSep Finset.univ fun j : J => dutyTok ER (sendCell c j) 0 (0 : J)) ∗ (bigSep Finset.univ fun j : J => dutyTok ER (recvCell (fwd j c) j) 0 (0 : J)))
      ⊢ bigSep Finset.univ (fun j : J => iprop((∃ fd, slotPts (F := F) (fwd j c) j fd) ∗ ownPts c (shTok j) (ownV m c)
          ∗ dutyTok ER (sendCell c j) 0 (0 : J) ∗ dutyTok ER (recvCell (fwd j c) j) 0 (0 : J))) := by
  have h1 : ∀ k : J, barPay (F := F) c k ⊢ iprop(∃ fd, slotPts (F := F) (fwd k c) k fd) :=
    fun k => by unfold barPay; iintro ⟨H, -⟩; iexact H
  rw [bigSep_sep', bigSep_sep', bigSep_sep']
  exact sep_mono_left (bigSep_mono fun k _ => h1 k)

/-- What the 31 waits for landed rows consume, by offset index: the receive cell's credit and the position on it; -/
theorem recv_res (c : Dev nD) :
    iprop((bigSep Finset.univ fun j : J => cred (tallyAt (recvCell c j) () N)) ∗ (bigSep Finset.univ fun j : J => atPos ER (recvCell c j) 0 ∅ 0))
      ⊢ (bigSep Finset.univ (fun j : J => iprop(cred (tallyAt (recvCell c j) () N) ∗ atPos ER (recvCell c j) 0 ∅ 0)) : sProp 𝕄) :=
  Entails.of_eq (bigSep_sep' _ _ _).symm

/-- and the 31 waits for released sources, likewise on the send cells. -/
theorem sendw_res (c : Dev nD) :
    iprop((bigSep Finset.univ fun j : J => cred (tallyAt (sendCell c j) () N)) ∗ (bigSep Finset.univ fun j : J => atPos ER (sendCell c j) 0 ∅ 0))
      ⊢ (bigSep Finset.univ (fun j : J => iprop(cred (tallyAt (sendCell c j) () N) ∗ atPos ER (sendCell c j) 0 ∅ 0)) : sProp 𝕄) :=
  Entails.of_eq (bigSep_sep' _ _ _).symm

/-! ## What the waits leave -/

/-- After the 31 receive waits: the positions past round 0, and the landing buffer whole again, every row landed. -/
theorem recv_out (c : Dev nD) :
    (bigSep Finset.univ (fun j : J => iprop(atPos ER (recvCell c j) 1 ∅ 0 ∗ slotPts c j (commV m c))) : sProp 𝕄)
      ⊢ iprop((bigSep Finset.univ fun j : J => atPos ER (recvCell c j) 1 ∅ 0) ∗ (((c : Thread nD τ).loc cc0_scratch1) ↦{fullShare} commV m c)) := by
  rw [bigSep_sep']
  exact sep_mono_right (Entails.of_eq (comm_rows c (commV m c)).symm)

/-- After the 31 send waits: the positions past round 0, and the device's own row whole again, every share back. -/
theorem sendw_out (c : Dev nD) :
    iprop(ownPts c shKeep (ownV m c) ∗ (bigSep Finset.univ (fun j : J => iprop(atPos ER (sendCell c j) 1 ∅ 0 ∗ ownPts c (shTok j) (ownV m c))) : sProp 𝕄))
      ⊢ iprop((bigSep Finset.univ fun j : J => atPos ER (sendCell c j) 1 ∅ 0) ∗ (((c : Thread nD τ).loc cc0_scratch0) ↦{fullShare} ownV m c)) := by
  rw [bigSep_sep']
  iintro ⟨Hk, Hat, Hs⟩
  isplitl [Hat]; · iexact Hat
  iapply (own_shares c (ownV m c)).2
  isplitl [Hk]; · iexact Hk
  iexact Hs

/-- The 62 transfer cells close: each one's single round is consumed, so its counter, at zero, is the device's again. -/
theorem close_all (κ : Dev nD × CK → ℕ) (c : Dev nD) :
    iprop(records m κ ∗ (bigSep Finset.univ fun j : J => atPos ER (sendCell c j) 1 ∅ 0) ∗ (bigSep Finset.univ fun j : J => atPos ER (recvCell c j) 1 ∅ 0))
      ⊢ iprop(|={Set.univ}=> ((bigSep Finset.univ fun j : J => semVal (sendCell c j) 0) ∗ (bigSep Finset.univ fun j : J => semVal (recvCell c j) 0) : sProp 𝕄)) := by
  have hs : iprop(records m κ ∗ bigSep Finset.univ fun j : J => atPos ER (sendCell c j) 1 ∅ 0)
      ⊢ iprop(|={Set.univ}=> (bigSep Finset.univ fun j : J => (semVal (sendCell c j) 0 : sProp 𝕄))) :=
    (bigSep_with_persistent fun j _ => close_send m κ c j).trans (bigSep_fupd _ _)
  have hr : iprop(records m κ ∗ bigSep Finset.univ fun j : J => atPos ER (recvCell c j) 1 ∅ 0)
      ⊢ iprop(|={Set.univ}=> (bigSep Finset.univ fun j : J => (semVal (recvCell c j) 0 : sProp 𝕄))) :=
    (bigSep_with_persistent fun j _ => close_recv m κ c j).trans (bigSep_fupd _ _)
  iintro ⟨#Hrec, Hs, Hr⟩
  iapply fupd_sep
  isplitl [Hs]
  · iapply hs
    isplitr; · iexact Hrec
    iexact Hs
  · iapply hr
    isplitr; · iexact Hrec
    iexact Hr

/-! ### Axioms -/

/-- info: 'Cert.Kernel.AllMax.signal_res' depends on axioms: [propext, Classical.choice, Quot.sound] -/
#guard_msgs in #print axioms signal_res

/-- info: 'Cert.Kernel.AllMax.send_res' depends on axioms: [propext, Classical.choice, Quot.sound] -/
#guard_msgs in #print axioms send_res

/-- info: 'Cert.Kernel.AllMax.recv_out' depends on axioms: [propext, Classical.choice, Quot.sound] -/
#guard_msgs in #print axioms recv_out

/-- info: 'Cert.Kernel.AllMax.sendw_out' depends on axioms: [propext, Classical.choice, Quot.sound] -/
#guard_msgs in #print axioms sendw_out

end Cert.Kernel.AllMax

end
-- ==== Proof.Kernel.PayRows.lean ====
import proofs.«900910_g7700000000000911_dist_max_ax0_shard0_i_m1536_n768_v7x_i32_f32_1_alg».proof.Proof.Kernel.Ghost

/-! The payload of the barrier duty each of a device's 31 signals pays, resolved at the signalling device: the
signal with offset index `j` hands the peer row `30 - j` of the signalling device's own landing buffer and the fact that
its receive cell `30 - j` is at round 0. -/

noncomputable section

namespace Cert.Kernel.AllMax

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

variable (m : (ℓ : Loc nD τ sig) → Buf (Elt F) ℓ)

/-- The payload of the duty the signal with offset index `j` pays, resolved at the signalling device `c`. -/
theorem payload_bar_paid (c : Dev nD) (j : J) :
    (sched (F := F) m).payload (barCell (fwd j c)) 0 (Fin.rev j)
      = iprop((∃ f, (slotM (Fin.rev j) : Memref sig .tc .vmem S1x768 .f32).view.loc (c : Thread nD τ) ↦[(slotM (Fin.rev j) : Memref sig .tc .vmem S1x768 .f32).view.set]{fullShare} f)
          ∗ reached ER (recvCell c (Fin.rev j)) 0) := by
  rw [payload_bar]; unfold barPay slotPts; rw [fwd_rev_fwd]

@[sl_rounds] theorem payload_bar_paid_0 (c : Dev nD) :
    (sched (F := F) m).payload (barCell (fwd 0 c)) 0 30
      = iprop((∃ f, (slotM 30 : Memref sig .tc .vmem S1x768 .f32).view.loc (c : Thread nD τ) ↦[(slotM 30 : Memref sig .tc .vmem S1x768 .f32).view.set]{fullShare} f)
          ∗ reached ER (recvCell c 30) 0) :=
  payload_bar_paid m c 0
@[sl_rounds] theorem payload_bar_paid_1 (c : Dev nD) :
    (sched (F := F) m).payload (barCell (fwd 1 c)) 0 29
      = iprop((∃ f, (slotM 29 : Memref sig .tc .vmem S1x768 .f32).view.loc (c : Thread nD τ) ↦[(slotM 29 : Memref sig .tc .vmem S1x768 .f32).view.set]{fullShare} f)
          ∗ reached ER (recvCell c 29) 0) :=
  payload_bar_paid m c 1
@[sl_rounds] theorem payload_bar_paid_2 (c : Dev nD) :
    (sched (F := F) m).payload (barCell (fwd 2 c)) 0 28
      = iprop((∃ f, (slotM 28 : Memref sig .tc .vmem S1x768 .f32).view.loc (c : Thread nD τ) ↦[(slotM 28 : Memref sig .tc .vmem S1x768 .f32).view.set]{fullShare} f)
          ∗ reached ER (recvCell c 28) 0) :=
  payload_bar_paid m c 2
@[sl_rounds] theorem payload_bar_paid_3 (c : Dev nD) :
    (sched (F := F) m).payload (barCell (fwd 3 c)) 0 27
      = iprop((∃ f, (slotM 27 : Memref sig .tc .vmem S1x768 .f32).view.loc (c : Thread nD τ) ↦[(slotM 27 : Memref sig .tc .vmem S1x768 .f32).view.set]{fullShare} f)
          ∗ reached ER (recvCell c 27) 0) :=
  payload_bar_paid m c 3
@[sl_rounds] theorem payload_bar_paid_4 (c : Dev nD) :
    (sched (F := F) m).payload (barCell (fwd 4 c)) 0 26
      = iprop((∃ f, (slotM 26 : Memref sig .tc .vmem S1x768 .f32).view.loc (c : Thread nD τ) ↦[(slotM 26 : Memref sig .tc .vmem S1x768 .f32).view.set]{fullShare} f)
          ∗ reached ER (recvCell c 26) 0) :=
  payload_bar_paid m c 4
@[sl_rounds] theorem payload_bar_paid_5 (c : Dev nD) :
    (sched (F := F) m).payload (barCell (fwd 5 c)) 0 25
      = iprop((∃ f, (slotM 25 : Memref sig .tc .vmem S1x768 .f32).view.loc (c : Thread nD τ) ↦[(slotM 25 : Memref sig .tc .vmem S1x768 .f32).view.set]{fullShare} f)
          ∗ reached ER (recvCell c 25) 0) :=
  payload_bar_paid m c 5
@[sl_rounds] theorem payload_bar_paid_6 (c : Dev nD) :
    (sched (F := F) m).payload (barCell (fwd 6 c)) 0 24
      = iprop((∃ f, (slotM 24 : Memref sig .tc .vmem S1x768 .f32).view.loc (c : Thread nD τ) ↦[(slotM 24 : Memref sig .tc .vmem S1x768 .f32).view.set]{fullShare} f)
          ∗ reached ER (recvCell c 24) 0) :=
  payload_bar_paid m c 6
@[sl_rounds] theorem payload_bar_paid_7 (c : Dev nD) :
    (sched (F := F) m).payload (barCell (fwd 7 c)) 0 23
      = iprop((∃ f, (slotM 23 : Memref sig .tc .vmem S1x768 .f32).view.loc (c : Thread nD τ) ↦[(slotM 23 : Memref sig .tc .vmem S1x768 .f32).view.set]{fullShare} f)
          ∗ reached ER (recvCell c 23) 0) :=
  payload_bar_paid m c 7
@[sl_rounds] theorem payload_bar_paid_8 (c : Dev nD) :
    (sched (F := F) m).payload (barCell (fwd 8 c)) 0 22
      = iprop((∃ f, (slotM 22 : Memref sig .tc .vmem S1x768 .f32).view.loc (c : Thread nD τ) ↦[(slotM 22 : Memref sig .tc .vmem S1x768 .f32).view.set]{fullShare} f)
          ∗ reached ER (recvCell c 22) 0) :=
  payload_bar_paid m c 8
@[sl_rounds] theorem payload_bar_paid_9 (c : Dev nD) :
    (sched (F := F) m).payload (barCell (fwd 9 c)) 0 21
      = iprop((∃ f, (slotM 21 : Memref sig .tc .vmem S1x768 .f32).view.loc (c : Thread nD τ) ↦[(slotM 21 : Memref sig .tc .vmem S1x768 .f32).view.set]{fullShare} f)
          ∗ reached ER (recvCell c 21) 0) :=
  payload_bar_paid m c 9
@[sl_rounds] theorem payload_bar_paid_10 (c : Dev nD) :
    (sched (F := F) m).payload (barCell (fwd 10 c)) 0 20
      = iprop((∃ f, (slotM 20 : Memref sig .tc .vmem S1x768 .f32).view.loc (c : Thread nD τ) ↦[(slotM 20 : Memref sig .tc .vmem S1x768 .f32).view.set]{fullShare} f)
          ∗ reached ER (recvCell c 20) 0) :=
  payload_bar_paid m c 10
@[sl_rounds] theorem payload_bar_paid_11 (c : Dev nD) :
    (sched (F := F) m).payload (barCell (fwd 11 c)) 0 19
      = iprop((∃ f, (slotM 19 : Memref sig .tc .vmem S1x768 .f32).view.loc (c : Thread nD τ) ↦[(slotM 19 : Memref sig .tc .vmem S1x768 .f32).view.set]{fullShare} f)
          ∗ reached ER (recvCell c 19) 0) :=
  payload_bar_paid m c 11
@[sl_rounds] theorem payload_bar_paid_12 (c : Dev nD) :
    (sched (F := F) m).payload (barCell (fwd 12 c)) 0 18
      = iprop((∃ f, (slotM 18 : Memref sig .tc .vmem S1x768 .f32).view.loc (c : Thread nD τ) ↦[(slotM 18 : Memref sig .tc .vmem S1x768 .f32).view.set]{fullShare} f)
          ∗ reached ER (recvCell c 18) 0) :=
  payload_bar_paid m c 12
@[sl_rounds] theorem payload_bar_paid_13 (c : Dev nD) :
    (sched (F := F) m).payload (barCell (fwd 13 c)) 0 17
      = iprop((∃ f, (slotM 17 : Memref sig .tc .vmem S1x768 .f32).view.loc (c : Thread nD τ) ↦[(slotM 17 : Memref sig .tc .vmem S1x768 .f32).view.set]{fullShare} f)
          ∗ reached ER (recvCell c 17) 0) :=
  payload_bar_paid m c 13
@[sl_rounds] theorem payload_bar_paid_14 (c : Dev nD) :
    (sched (F := F) m).payload (barCell (fwd 14 c)) 0 16
      = iprop((∃ f, (slotM 16 : Memref sig .tc .vmem S1x768 .f32).view.loc (c : Thread nD τ) ↦[(slotM 16 : Memref sig .tc .vmem S1x768 .f32).view.set]{fullShare} f)
          ∗ reached ER (recvCell c 16) 0) :=
  payload_bar_paid m c 14
@[sl_rounds] theorem payload_bar_paid_15 (c : Dev nD) :
    (sched (F := F) m).payload (barCell (fwd 15 c)) 0 15
      = iprop((∃ f, (slotM 15 : Memref sig .tc .vmem S1x768 .f32).view.loc (c : Thread nD τ) ↦[(slotM 15 : Memref sig .tc .vmem S1x768 .f32).view.set]{fullShare} f)
          ∗ reached ER (recvCell c 15) 0) :=
  payload_bar_paid m c 15
@[sl_rounds] theorem payload_bar_paid_16 (c : Dev nD) :
    (sched (F := F) m).payload (barCell (fwd 16 c)) 0 14
      = iprop((∃ f, (slotM 14 : Memref sig .tc .vmem S1x768 .f32).view.loc (c : Thread nD τ) ↦[(slotM 14 : Memref sig .tc .vmem S1x768 .f32).view.set]{fullShare} f)
          ∗ reached ER (recvCell c 14) 0) :=
  payload_bar_paid m c 16
@[sl_rounds] theorem payload_bar_paid_17 (c : Dev nD) :
    (sched (F := F) m).payload (barCell (fwd 17 c)) 0 13
      = iprop((∃ f, (slotM 13 : Memref sig .tc .vmem S1x768 .f32).view.loc (c : Thread nD τ) ↦[(slotM 13 : Memref sig .tc .vmem S1x768 .f32).view.set]{fullShare} f)
          ∗ reached ER (recvCell c 13) 0) :=
  payload_bar_paid m c 17
@[sl_rounds] theorem payload_bar_paid_18 (c : Dev nD) :
    (sched (F := F) m).payload (barCell (fwd 18 c)) 0 12
      = iprop((∃ f, (slotM 12 : Memref sig .tc .vmem S1x768 .f32).view.loc (c : Thread nD τ) ↦[(slotM 12 : Memref sig .tc .vmem S1x768 .f32).view.set]{fullShare} f)
          ∗ reached ER (recvCell c 12) 0) :=
  payload_bar_paid m c 18
@[sl_rounds] theorem payload_bar_paid_19 (c : Dev nD) :
    (sched (F := F) m).payload (barCell (fwd 19 c)) 0 11
      = iprop((∃ f, (slotM 11 : Memref sig .tc .vmem S1x768 .f32).view.loc (c : Thread nD τ) ↦[(slotM 11 : Memref sig .tc .vmem S1x768 .f32).view.set]{fullShare} f)
          ∗ reached ER (recvCell c 11) 0) :=
  payload_bar_paid m c 19
@[sl_rounds] theorem payload_bar_paid_20 (c : Dev nD) :
    (sched (F := F) m).payload (barCell (fwd 20 c)) 0 10
      = iprop((∃ f, (slotM 10 : Memref sig .tc .vmem S1x768 .f32).view.loc (c : Thread nD τ) ↦[(slotM 10 : Memref sig .tc .vmem S1x768 .f32).view.set]{fullShare} f)
          ∗ reached ER (recvCell c 10) 0) :=
  payload_bar_paid m c 20
@[sl_rounds] theorem payload_bar_paid_21 (c : Dev nD) :
    (sched (F := F) m).payload (barCell (fwd 21 c)) 0 9
      = iprop((∃ f, (slotM 9 : Memref sig .tc .vmem S1x768 .f32).view.loc (c : Thread nD τ) ↦[(slotM 9 : Memref sig .tc .vmem S1x768 .f32).view.set]{fullShare} f)
          ∗ reached ER (recvCell c 9) 0) :=
  payload_bar_paid m c 21
@[sl_rounds] theorem payload_bar_paid_22 (c : Dev nD) :
    (sched (F := F) m).payload (barCell (fwd 22 c)) 0 8
      = iprop((∃ f, (slotM 8 : Memref sig .tc .vmem S1x768 .f32).view.loc (c : Thread nD τ) ↦[(slotM 8 : Memref sig .tc .vmem S1x768 .f32).view.set]{fullShare} f)
          ∗ reached ER (recvCell c 8) 0) :=
  payload_bar_paid m c 22
@[sl_rounds] theorem payload_bar_paid_23 (c : Dev nD) :
    (sched (F := F) m).payload (barCell (fwd 23 c)) 0 7
      = iprop((∃ f, (slotM 7 : Memref sig .tc .vmem S1x768 .f32).view.loc (c : Thread nD τ) ↦[(slotM 7 : Memref sig .tc .vmem S1x768 .f32).view.set]{fullShare} f)
          ∗ reached ER (recvCell c 7) 0) :=
  payload_bar_paid m c 23
@[sl_rounds] theorem payload_bar_paid_24 (c : Dev nD) :
    (sched (F := F) m).payload (barCell (fwd 24 c)) 0 6
      = iprop((∃ f, (slotM 6 : Memref sig .tc .vmem S1x768 .f32).view.loc (c : Thread nD τ) ↦[(slotM 6 : Memref sig .tc .vmem S1x768 .f32).view.set]{fullShare} f)
          ∗ reached ER (recvCell c 6) 0) :=
  payload_bar_paid m c 24
@[sl_rounds] theorem payload_bar_paid_25 (c : Dev nD) :
    (sched (F := F) m).payload (barCell (fwd 25 c)) 0 5
      = iprop((∃ f, (slotM 5 : Memref sig .tc .vmem S1x768 .f32).view.loc (c : Thread nD τ) ↦[(slotM 5 : Memref sig .tc .vmem S1x768 .f32).view.set]{fullShare} f)
          ∗ reached ER (recvCell c 5) 0) :=
  payload_bar_paid m c 25
@[sl_rounds] theorem payload_bar_paid_26 (c : Dev nD) :
    (sched (F := F) m).payload (barCell (fwd 26 c)) 0 4
      = iprop((∃ f, (slotM 4 : Memref sig .tc .vmem S1x768 .f32).view.loc (c : Thread nD τ) ↦[(slotM 4 : Memref sig .tc .vmem S1x768 .f32).view.set]{fullShare} f)
          ∗ reached ER (recvCell c 4) 0) :=
  payload_bar_paid m c 26
@[sl_rounds] theorem payload_bar_paid_27 (c : Dev nD) :
    (sched (F := F) m).payload (barCell (fwd 27 c)) 0 3
      = iprop((∃ f, (slotM 3 : Memref sig .tc .vmem S1x768 .f32).view.loc (c : Thread nD τ) ↦[(slotM 3 : Memref sig .tc .vmem S1x768 .f32).view.set]{fullShare} f)
          ∗ reached ER (recvCell c 3) 0) :=
  payload_bar_paid m c 27
@[sl_rounds] theorem payload_bar_paid_28 (c : Dev nD) :
    (sched (F := F) m).payload (barCell (fwd 28 c)) 0 2
      = iprop((∃ f, (slotM 2 : Memref sig .tc .vmem S1x768 .f32).view.loc (c : Thread nD τ) ↦[(slotM 2 : Memref sig .tc .vmem S1x768 .f32).view.set]{fullShare} f)
          ∗ reached ER (recvCell c 2) 0) :=
  payload_bar_paid m c 28
@[sl_rounds] theorem payload_bar_paid_29 (c : Dev nD) :
    (sched (F := F) m).payload (barCell (fwd 29 c)) 0 1
      = iprop((∃ f, (slotM 1 : Memref sig .tc .vmem S1x768 .f32).view.loc (c : Thread nD τ) ↦[(slotM 1 : Memref sig .tc .vmem S1x768 .f32).view.set]{fullShare} f)
          ∗ reached ER (recvCell c 1) 0) :=
  payload_bar_paid m c 29
@[sl_rounds] theorem payload_bar_paid_30 (c : Dev nD) :
    (sched (F := F) m).payload (barCell (fwd 30 c)) 0 0
      = iprop((∃ f, (slotM 0 : Memref sig .tc .vmem S1x768 .f32).view.loc (c : Thread nD τ) ↦[(slotM 0 : Memref sig .tc .vmem S1x768 .f32).view.set]{fullShare} f)
          ∗ reached ER (recvCell c 0) 0) :=
  payload_bar_paid m c 30

end Cert.Kernel.AllMax

end
-- ==== Proof.Kernel.Data.lean ====
import proofs.«900910_g7700000000000911_dist_max_ax0_shard0_i_m1536_n768_v7x_i32_f32_1_alg».proof.Proof.Kernel.Ghost
import proofs.«900910_g7700000000000911_dist_max_ax0_shard0_i_m1536_n768_v7x_i32_f32_1_alg».proof.Proof.Gen.Kernel.Points

/-! The pipeline's proof data for the one grid point: the argument's block as staged, the stored row, the
invariant before the point (the launch's ghost state and the two scratch buffers at some contents) and after it
(the scratch buffers back, the 62 transfer semaphores at zero), and the body's pre- and postcondition. -/

noncomputable section

namespace Cert.Kernel.AllMax

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A scratch buffer held whole at some contents. -/
abbrev someBuf (c : Dev nD) (b : Ref sig .tc) : sProp 𝕄 :=
  iprop(∃ f : Buf (Elt F) (((c : Dev nD) : Thread nD τ).loc b), ((c : Thread nD τ).loc b) ↦{fullShare} f)

def Φ₀ (c : Dev nD) : sProp 𝕄 := iprop(start m c ∗ someBuf c cc0_scratch0 ∗ someBuf c cc0_scratch1)

def Φ₁ (c : Dev nD) : sProp 𝕄 :=
  iprop(someBuf (F := F) c cc0_scratch0 ∗ someBuf c cc0_scratch1
    ∗ (bigSep Finset.univ fun j : J => semVal (sendCell c j) 0) ∗ (bigSep Finset.univ fun j : J => semVal (recvCell c j) 0))

def dats (_ : Fin 1) (c : Dev nD) : Dat τ (Elt F) Unit ℕ UU ℕ cfg0 c where
  A w := m ((cfg0.win w).arr.view.loc (c : Thread nD τ))
  after w _ := match w with
    | ⟨0, _⟩ => xOf m c
    | ⟨1, _⟩ => outV m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xOf m c) ∗ stg c cc0_stg1_0 (outV m c))

/-- The kernel's body as the pipeline calls it at the point. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _) cc0_scratch2 cc0_scratch3

set_option maxRecDepth 32768 in
/-- The library's body obligation on device `c`, from the body run from `bodyPre` to `bodyPost`. -/
theorem body_obligation_of (c : Dev nD)
    (h : bodyPre m c ⊢ wp frame (wpE (defs₀ (F := F)) 𝒱₀ c none) Set.univ (theBody (F := F)) (fun _ => bodyPost m c)) :
    BodyObligation (dats (F := F) m 0 c) (defs₀ (F := F)) 𝒱₀ () Set.univ := fun t => by
  rw [fin_N t]
  rw [bigSep_W, bigSep_W]
  simp only [owns_whole_eq]
  exact h

end Cert.Kernel.AllMax

end
-- ==== Proof.Kernel.DevEqs.lean ====
import proofs.«900910_g7700000000000911_dist_max_ax0_shard0_i_m1536_n768_v7x_i32_f32_1_alg».proof.Proof.Kernel.Ring

/-! The device each printed `device_id` chain names: chain `d` (a signal) and chain `31 + d` (a transfer), for
`d = 1 … 31`, both name the device `d` places after the firing one. -/

noncomputable section

namespace Cert.Kernel.AllMax

open Cert.Kernel Cert.Kernel.Gen
open Idealize.ShloMosaic Idealize.ShloMosaic.Tactic

@[sl_canon] theorem dev1_eq (c : Dev nD) : (⟨k0_dev1 c, k0_dev1_lt c⟩ : Dev nD) = fwd 0 c := Fin.ext ((k0_dev1_eq c).trans rfl)
@[sl_canon] theorem dev2_eq (c : Dev nD) : (⟨k0_dev2 c, k0_dev2_lt c⟩ : Dev nD) = fwd 1 c := Fin.ext ((k0_dev2_eq c).trans rfl)
@[sl_canon] theorem dev3_eq (c : Dev nD) : (⟨k0_dev3 c, k0_dev3_lt c⟩ : Dev nD) = fwd 2 c := Fin.ext ((k0_dev3_eq c).trans rfl)
@[sl_canon] theorem dev4_eq (c : Dev nD) : (⟨k0_dev4 c, k0_dev4_lt c⟩ : Dev nD) = fwd 3 c := Fin.ext ((k0_dev4_eq c).trans rfl)
@[sl_canon] theorem dev5_eq (c : Dev nD) : (⟨k0_dev5 c, k0_dev5_lt c⟩ : Dev nD) = fwd 4 c := Fin.ext ((k0_dev5_eq c).trans rfl)
@[sl_canon] theorem dev6_eq (c : Dev nD) : (⟨k0_dev6 c, k0_dev6_lt c⟩ : Dev nD) = fwd 5 c := Fin.ext ((k0_dev6_eq c).trans rfl)
@[sl_canon] theorem dev7_eq (c : Dev nD) : (⟨k0_dev7 c, k0_dev7_lt c⟩ : Dev nD) = fwd 6 c := Fin.ext ((k0_dev7_eq c).trans rfl)
@[sl_canon] theorem dev8_eq (c : Dev nD) : (⟨k0_dev8 c, k0_dev8_lt c⟩ : Dev nD) = fwd 7 c := Fin.ext ((k0_dev8_eq c).trans rfl)
@[sl_canon] theorem dev9_eq (c : Dev nD) : (⟨k0_dev9 c, k0_dev9_lt c⟩ : Dev nD) = fwd 8 c := Fin.ext ((k0_dev9_eq c).trans rfl)
@[sl_canon] theorem dev10_eq (c : Dev nD) : (⟨k0_dev10 c, k0_dev10_lt c⟩ : Dev nD) = fwd 9 c := Fin.ext ((k0_dev10_eq c).trans rfl)
@[sl_canon] theorem dev11_eq (c : Dev nD) : (⟨k0_dev11 c, k0_dev11_lt c⟩ : Dev nD) = fwd 10 c := Fin.ext ((k0_dev11_eq c).trans rfl)
@[sl_canon] theorem dev12_eq (c : Dev nD) : (⟨k0_dev12 c, k0_dev12_lt c⟩ : Dev nD) = fwd 11 c := Fin.ext ((k0_dev12_eq c).trans rfl)
@[sl_canon] theorem dev13_eq (c : Dev nD) : (⟨k0_dev13 c, k0_dev13_lt c⟩ : Dev nD) = fwd 12 c := Fin.ext ((k0_dev13_eq c).trans rfl)
@[sl_canon] theorem dev14_eq (c : Dev nD) : (⟨k0_dev14 c, k0_dev14_lt c⟩ : Dev nD) = fwd 13 c := Fin.ext ((k0_dev14_eq c).trans rfl)
@[sl_canon] theorem dev15_eq (c : Dev nD) : (⟨k0_dev15 c, k0_dev15_lt c⟩ : Dev nD) = fwd 14 c := Fin.ext ((k0_dev15_eq c).trans rfl)
@[sl_canon] theorem dev16_eq (c : Dev nD) : (⟨k0_dev16 c, k0_dev16_lt c⟩ : Dev nD) = fwd 15 c := Fin.ext ((k0_dev16_eq c).trans rfl)
@[sl_canon] theorem dev17_eq (c : Dev nD) : (⟨k0_dev17 c, k0_dev17_lt c⟩ : Dev nD) = fwd 16 c := Fin.ext ((k0_dev17_eq c).trans rfl)
@[sl_canon] theorem dev18_eq (c : Dev nD) : (⟨k0_dev18 c, k0_dev18_lt c⟩ : Dev nD) = fwd 17 c := Fin.ext ((k0_dev18_eq c).trans rfl)
@[sl_canon] theorem dev19_eq (c : Dev nD) : (⟨k0_dev19 c, k0_dev19_lt c⟩ : Dev nD) = fwd 18 c := Fin.ext ((k0_dev19_eq c).trans rfl)
@[sl_canon] theorem dev20_eq (c : Dev nD) : (⟨k0_dev20 c, k0_dev20_lt c⟩ : Dev nD) = fwd 19 c := Fin.ext ((k0_dev20_eq c).trans rfl)
@[sl_canon] theorem dev21_eq (c : Dev nD) : (⟨k0_dev21 c, k0_dev21_lt c⟩ : Dev nD) = fwd 20 c := Fin.ext ((k0_dev21_eq c).trans rfl)
@[sl_canon] theorem dev22_eq (c : Dev nD) : (⟨k0_dev22 c, k0_dev22_lt c⟩ : Dev nD) = fwd 21 c := Fin.ext ((k0_dev22_eq c).trans rfl)
@[sl_canon] theorem dev23_eq (c : Dev nD) : (⟨k0_dev23 c, k0_dev23_lt c⟩ : Dev nD) = fwd 22 c := Fin.ext ((k0_dev23_eq c).trans rfl)
@[sl_canon] theorem dev24_eq (c : Dev nD) : (⟨k0_dev24 c, k0_dev24_lt c⟩ : Dev nD) = fwd 23 c := Fin.ext ((k0_dev24_eq c).trans rfl)
@[sl_canon] theorem dev25_eq (c : Dev nD) : (⟨k0_dev25 c, k0_dev25_lt c⟩ : Dev nD) = fwd 24 c := Fin.ext ((k0_dev25_eq c).trans rfl)
@[sl_canon] theorem dev26_eq (c : Dev nD) : (⟨k0_dev26 c, k0_dev26_lt c⟩ : Dev nD) = fwd 25 c := Fin.ext ((k0_dev26_eq c).trans rfl)
@[sl_canon] theorem dev27_eq (c : Dev nD) : (⟨k0_dev27 c, k0_dev27_lt c⟩ : Dev nD) = fwd 26 c := Fin.ext ((k0_dev27_eq c).trans rfl)
@[sl_canon] theorem dev28_eq (c : Dev nD) : (⟨k0_dev28 c, k0_dev28_lt c⟩ : Dev nD) = fwd 27 c := Fin.ext ((k0_dev28_eq c).trans rfl)
@[sl_canon] theorem dev29_eq (c : Dev nD) : (⟨k0_dev29 c, k0_dev29_lt c⟩ : Dev nD) = fwd 28 c := Fin.ext ((k0_dev29_eq c).trans rfl)
@[sl_canon] theorem dev30_eq (c : Dev nD) : (⟨k0_dev30 c, k0_dev30_lt c⟩ : Dev nD) = fwd 29 c := Fin.ext ((k0_dev30_eq c).trans rfl)
@[sl_canon] theorem dev31_eq (c : Dev nD) : (⟨k0_dev31 c, k0_dev31_lt c⟩ : Dev nD) = fwd 30 c := Fin.ext ((k0_dev31_eq c).trans rfl)
@[sl_canon] theorem dev32_eq (c : Dev nD) : (⟨k0_dev32 c, k0_dev32_lt c⟩ : Dev nD) = fwd 0 c := Fin.ext ((k0_dev32_eq c).trans rfl)
@[sl_canon] theorem dev33_eq (c : Dev nD) : (⟨k0_dev33 c, k0_dev33_lt c⟩ : Dev nD) = fwd 1 c := Fin.ext ((k0_dev33_eq c).trans rfl)
@[sl_canon] theorem dev34_eq (c : Dev nD) : (⟨k0_dev34 c, k0_dev34_lt c⟩ : Dev nD) = fwd 2 c := Fin.ext ((k0_dev34_eq c).trans rfl)
@[sl_canon] theorem dev35_eq (c : Dev nD) : (⟨k0_dev35 c, k0_dev35_lt c⟩ : Dev nD) = fwd 3 c := Fin.ext ((k0_dev35_eq c).trans rfl)
@[sl_canon] theorem dev36_eq (c : Dev nD) : (⟨k0_dev36 c, k0_dev36_lt c⟩ : Dev nD) = fwd 4 c := Fin.ext ((k0_dev36_eq c).trans rfl)
@[sl_canon] theorem dev37_eq (c : Dev nD) : (⟨k0_dev37 c, k0_dev37_lt c⟩ : Dev nD) = fwd 5 c := Fin.ext ((k0_dev37_eq c).trans rfl)
@[sl_canon] theorem dev38_eq (c : Dev nD) : (⟨k0_dev38 c, k0_dev38_lt c⟩ : Dev nD) = fwd 6 c := Fin.ext ((k0_dev38_eq c).trans rfl)
@[sl_canon] theorem dev39_eq (c : Dev nD) : (⟨k0_dev39 c, k0_dev39_lt c⟩ : Dev nD) = fwd 7 c := Fin.ext ((k0_dev39_eq c).trans rfl)
@[sl_canon] theorem dev40_eq (c : Dev nD) : (⟨k0_dev40 c, k0_dev40_lt c⟩ : Dev nD) = fwd 8 c := Fin.ext ((k0_dev40_eq c).trans rfl)
@[sl_canon] theorem dev41_eq (c : Dev nD) : (⟨k0_dev41 c, k0_dev41_lt c⟩ : Dev nD) = fwd 9 c := Fin.ext ((k0_dev41_eq c).trans rfl)
@[sl_canon] theorem dev42_eq (c : Dev nD) : (⟨k0_dev42 c, k0_dev42_lt c⟩ : Dev nD) = fwd 10 c := Fin.ext ((k0_dev42_eq c).trans rfl)
@[sl_canon] theorem dev43_eq (c : Dev nD) : (⟨k0_dev43 c, k0_dev43_lt c⟩ : Dev nD) = fwd 11 c := Fin.ext ((k0_dev43_eq c).trans rfl)
@[sl_canon] theorem dev44_eq (c : Dev nD) : (⟨k0_dev44 c, k0_dev44_lt c⟩ : Dev nD) = fwd 12 c := Fin.ext ((k0_dev44_eq c).trans rfl)
@[sl_canon] theorem dev45_eq (c : Dev nD) : (⟨k0_dev45 c, k0_dev45_lt c⟩ : Dev nD) = fwd 13 c := Fin.ext ((k0_dev45_eq c).trans rfl)
@[sl_canon] theorem dev46_eq (c : Dev nD) : (⟨k0_dev46 c, k0_dev46_lt c⟩ : Dev nD) = fwd 14 c := Fin.ext ((k0_dev46_eq c).trans rfl)
@[sl_canon] theorem dev47_eq (c : Dev nD) : (⟨k0_dev47 c, k0_dev47_lt c⟩ : Dev nD) = fwd 15 c := Fin.ext ((k0_dev47_eq c).trans rfl)
@[sl_canon] theorem dev48_eq (c : Dev nD) : (⟨k0_dev48 c, k0_dev48_lt c⟩ : Dev nD) = fwd 16 c := Fin.ext ((k0_dev48_eq c).trans rfl)
@[sl_canon] theorem dev49_eq (c : Dev nD) : (⟨k0_dev49 c, k0_dev49_lt c⟩ : Dev nD) = fwd 17 c := Fin.ext ((k0_dev49_eq c).trans rfl)
@[sl_canon] theorem dev50_eq (c : Dev nD) : (⟨k0_dev50 c, k0_dev50_lt c⟩ : Dev nD) = fwd 18 c := Fin.ext ((k0_dev50_eq c).trans rfl)
@[sl_canon] theorem dev51_eq (c : Dev nD) : (⟨k0_dev51 c, k0_dev51_lt c⟩ : Dev nD) = fwd 19 c := Fin.ext ((k0_dev51_eq c).trans rfl)
@[sl_canon] theorem dev52_eq (c : Dev nD) : (⟨k0_dev52 c, k0_dev52_lt c⟩ : Dev nD) = fwd 20 c := Fin.ext ((k0_dev52_eq c).trans rfl)
@[sl_canon] theorem dev53_eq (c : Dev nD) : (⟨k0_dev53 c, k0_dev53_lt c⟩ : Dev nD) = fwd 21 c := Fin.ext ((k0_dev53_eq c).trans rfl)
@[sl_canon] theorem dev54_eq (c : Dev nD) : (⟨k0_dev54 c, k0_dev54_lt c⟩ : Dev nD) = fwd 22 c := Fin.ext ((k0_dev54_eq c).trans rfl)
@[sl_canon] theorem dev55_eq (c : Dev nD) : (⟨k0_dev55 c, k0_dev55_lt c⟩ : Dev nD) = fwd 23 c := Fin.ext ((k0_dev55_eq c).trans rfl)
@[sl_canon] theorem dev56_eq (c : Dev nD) : (⟨k0_dev56 c, k0_dev56_lt c⟩ : Dev nD) = fwd 24 c := Fin.ext ((k0_dev56_eq c).trans rfl)
@[sl_canon] theorem dev57_eq (c : Dev nD) : (⟨k0_dev57 c, k0_dev57_lt c⟩ : Dev nD) = fwd 25 c := Fin.ext ((k0_dev57_eq c).trans rfl)
@[sl_canon] theorem dev58_eq (c : Dev nD) : (⟨k0_dev58 c, k0_dev58_lt c⟩ : Dev nD) = fwd 26 c := Fin.ext ((k0_dev58_eq c).trans rfl)
@[sl_canon] theorem dev59_eq (c : Dev nD) : (⟨k0_dev59 c, k0_dev59_lt c⟩ : Dev nD) = fwd 27 c := Fin.ext ((k0_dev59_eq c).trans rfl)
@[sl_canon] theorem dev60_eq (c : Dev nD) : (⟨k0_dev60 c, k0_dev60_lt c⟩ : Dev nD) = fwd 28 c := Fin.ext ((k0_dev60_eq c).trans rfl)
@[sl_canon] theorem dev61_eq (c : Dev nD) : (⟨k0_dev61 c, k0_dev61_lt c⟩ : Dev nD) = fwd 29 c := Fin.ext ((k0_dev61_eq c).trans rfl)
@[sl_canon] theorem dev62_eq (c : Dev nD) : (⟨k0_dev62 c, k0_dev62_lt c⟩ : Dev nD) = fwd 30 c := Fin.ext ((k0_dev62_eq c).trans rfl)

/-- Rewrites every printed device chain to its closed form. -/
macro "dev_simp" : tactic => `(tactic| simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq])

end Cert.Kernel.AllMax

end
-- ==== Proof.Kernel.Body.lean ====
import proofs.«900910_g7700000000000911_dist_max_ax0_shard0_i_m1536_n768_v7x_i32_f32_1_alg».proof.Proof.Kernel.Loop
import proofs.«900910_g7700000000000911_dist_max_ax0_shard0_i_m1536_n768_v7x_i32_f32_1_alg».proof.Proof.Kernel.Glue
import proofs.«900910_g7700000000000911_dist_max_ax0_shard0_i_m1536_n768_v7x_i32_f32_1_alg».proof.Proof.Kernel.PayRows
import proofs.«900910_g7700000000000911_dist_max_ax0_shard0_i_m1536_n768_v7x_i32_f32_1_alg».proof.Proof.Kernel.Data
import proofs.«900910_g7700000000000911_dist_max_ax0_shard0_i_m1536_n768_v7x_i32_f32_1_alg».proof.Proof.Kernel.DevEqs

/-! One device's kernel body, run from the launch's ghost state to the closed cells and the stored row. -/

noncomputable section

namespace Cert.Kernel.AllMax

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

-- the barrier payloads are read through the rows resolved at the signalling device (PayRows), not the general row
attribute [-sl_rounds] payload_bar

/-- What a device owes before its signal `j`, with that signal's unit last. -/
theorem owed_sig (c : Dev nD) (j : J) (T : Finset J) :
    owedOn c (rem j.val) T = owedOn c (rem (j.val + 1)) T + tallyAt (barCell (fwd j c)) () 1 := by
  rw [← rem_succ j]; exact owedOn_peel_bar c (mem_rem j)

/-- A buffer held whole, spelt through its whole reference's view. -/
theorem x_pts (c : Dev nD) (q : PosShare TreeShare) (f : Buf (Elt F) ((c : Thread nD τ).loc cc0_stg0_0)) :
    (((c : Thread nD τ).loc cc0_stg0_0) ↦{q} f : sProp 𝕄) = ((xM : Memref sig .tc .vmem S1536x768 .f32).view.loc (c : Thread nD τ) ↦[(xM : Memref sig .tc .vmem S1536x768 .f32).view.set]{q} f) := by
  rw [View.set_whole]
theorem o_pts (c : Dev nD) (q : PosShare TreeShare) (f : Buf (Elt F) ((c : Thread nD τ).loc cc0_stg1_0)) :
    (((c : Thread nD τ).loc cc0_stg1_0) ↦{q} f : sProp 𝕄) = ((oM : Memref sig .tc .vmem S1x768 .f32).view.loc (c : Thread nD τ) ↦[(oM : Memref sig .tc .vmem S1x768 .f32).view.set]{q} f) := by
  rw [View.set_whole]
theorem own_pts (c : Dev nD) (q : PosShare TreeShare) (f : Buf (Elt F) ((c : Thread nD τ).loc cc0_scratch0)) :
    (((c : Thread nD τ).loc cc0_scratch0) ↦{q} f : sProp 𝕄) = ((ownM : Memref sig .tc .vmem S1x768 .f32).view.loc (c : Thread nD τ) ↦[(ownM : Memref sig .tc .vmem S1x768 .f32).view.set]{q} f) := by
  rw [View.set_whole]
theorem comm_pts (c : Dev nD) (q : PosShare TreeShare) (f : Buf (Elt F) ((c : Thread nD τ).loc cc0_scratch1)) :
    (((c : Thread nD τ).loc cc0_scratch1) ↦{q} f : sProp 𝕄) = ((commM : Memref sig .tc .vmem S31x1x768 .f32).view.loc (c : Thread nD τ) ↦[(commM : Memref sig .tc .vmem S31x1x768 .f32).view.set]{q} f) := by
  rw [View.set_whole]

/-- The device's row after its store: the column maxima of its block. -/
theorem own_after (c : Dev nD) (f0 : Buf (Elt F) ((c : Thread nD τ).loc cc0_scratch0)) :
    (ownM : Memref sig .tc .vmem S1x768 .f32).view.writes (Elt F) f0
      [⟨Rect.unit (s := S1x768) ![0, 0] S1x768.size inb_S1x768_S1x768_0_0,
        k0_pay1 ((xM : Memref sig .tc .vmem S1536x768 .f32).view.readAt (Elt F) (Rect.unit (s := S1536x768) ![0, 0] S1536x768.size inb_S1536x768_S1536x768_0_0).toLoadRect (xOf m c))⟩]
      = ownV m c := by
  rw [View.writes_singleton, read_x]; exact write_own f0 _

/-- The transfer cells' payloads spelt as the points-to themselves. -/
@[sl_rounds] theorem sendPay_eq (c : Dev nD) (j : J) :
    sendPay (F := F) m c j = ((ownM : Memref sig .tc .vmem S1x768 .f32).view.loc (c : Thread nD τ) ↦[(ownM : Memref sig .tc .vmem S1x768 .f32).view.set]{shTok j} ownV m c) := rfl
@[sl_rounds] theorem recvPay_eq (c : Dev nD) (j : J) :
    recvPay (F := F) m c j = ((slotM j : Memref sig .tc .vmem S1x768 .f32).view.loc (c : Thread nD τ) ↦[(slotM j : Memref sig .tc .vmem S1x768 .f32).view.set]{fullShare} commV m c) := rfl

theorem owed_sendS (c : Dev nD) (j j' : J) (h : j'.val = j.val + 1) :
    owedOn c ∅ (rem j.val) = owedOn c ∅ (rem j'.val) + tallyAt (recvCell (fwd j c) j) () N := by
  rw [h, ← rem_succ j]; exact owedOn_peel_recv c (mem_rem j)

/-- The transfer with the device it addresses named by a variable equal to the peer (the printed device chain). -/
theorem sendN (κ : Dev nD × CK → ℕ) (c : Dev nD) (j j' : J) (h : j'.val = j.val + 1) (n : Dev nD) (hn : n = fwd j c) {W : Waits sig Unit}
    (fd : Buf (Elt F) ((slotM j : Memref sig .tc .vmem S1x768 .f32).view.loc ((fwd j c : Dev nD) : Thread nD τ)))
    {hsc : (slotM j : Memref sig (Dev.tc n : Thread nD τ).2.kind .vmem S1x768 .f32).view.ref.isScScratch = false}
    {hsrc : (ownM : Memref sig .tc .vmem S1x768 .f32).view.WordExact} {hdst : (slotM j : Memref sig .tc .vmem S1x768 .f32).view.WordExact}
    {hsem : DmaTarget.Typed .vmem (.dma (recvSem j)) (.remote (Dev.tc n : Thread nD τ) (slotM j : Memref sig .tc .vmem S1x768 .f32) (.dma (sendSem j)) hsc)}
    {α : Type} {Q : α → sProp 𝕄} {k : PUnit → Prog (TpuEff nD τ sig (Elt F) Λ₀ .tc) α} :
    iprop(records m κ ∗ ownPts c (shTok j) (ownV m c) ∗ slotPts (fwd j c) j fd
        ∗ owes (c : Thread nD τ) (owedOn c ∅ (rem j.val)) W
        ∗ dutyTok ER (sendCell c j) 0 (0 : J) ∗ dutyTok ER (recvCell (fwd j c) j) 0 (0 : J))
      ⊢ iprop(((cred (tallyAt (sendCell c j) () N) ∗ owes (c : Thread nD τ) (owedOn c ∅ (rem j'.val)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownM (.remote (Dev.tc n : Thread nD τ) (slotM j) (.dma (sendSem j)) hsc) (.dma (recvSem j)) hsrc hdst hsem) k) Q) := by
  subst hn; rw [h]; exact sendR m κ c j fd

set_option hygiene false in
/-- One transfer (offset index `j`): the peer's landing row, a share of the device's row and the two duty tokens out of the
    family; the rule; the credit for the send wait into its family. -/
macro "send_step" j:term:max j':term:max hdev:term:max : tactic => `(tactic| (
  ihave Hp := (peelS (F := F) ($j : J) ($j' : J) rfl _) $$ Hsnd
  icases Hp with ⟨⟨⟨%fd, Hd⟩, Hsrc, Hts, Htv⟩, Hsnd⟩
  iapply (sendN m κ c ($j : J) ($j' : J) rfl _ ($hdev c) fd) $$ [HO Hd Hsrc Hts Htv]
  · isplitr; · iexact HR
    isplitl [Hsrc]; · iexact Hsrc
    isplitl [Hd]; · iexact Hd
    isplitl [HO]; · iexact HO
    isplitl [Hts]; · iexact Hts
    iexact Htv
  iintro ⟨Hc, HO⟩
  ihave HcS := (accS (F := F) ($j : J) ($j' : J) rfl (fun j : J => cred (tallyAt (sendCell c j) () N))) $$ [Hc HcS]
  · isplitl [Hc]; · iexact Hc
    iexact HcS))

/-- The same, leaving the index set of what is owed in its successor form (for the last index). -/
theorem sendL (κ : Dev nD × CK → ℕ) (c : Dev nD) (j : J) (n : Dev nD) (hn : n = fwd j c) {W : Waits sig Unit}
    (fd : Buf (Elt F) ((slotM j : Memref sig .tc .vmem S1x768 .f32).view.loc ((fwd j c : Dev nD) : Thread nD τ)))
    {hsc : (slotM j : Memref sig (Dev.tc n : Thread nD τ).2.kind .vmem S1x768 .f32).view.ref.isScScratch = false}
    {hsrc : (ownM : Memref sig .tc .vmem S1x768 .f32).view.WordExact} {hdst : (slotM j : Memref sig .tc .vmem S1x768 .f32).view.WordExact}
    {hsem : DmaTarget.Typed .vmem (.dma (recvSem j)) (.remote (Dev.tc n : Thread nD τ) (slotM j : Memref sig .tc .vmem S1x768 .f32) (.dma (sendSem j)) hsc)}
    {α : Type} {Q : α → sProp 𝕄} {k : PUnit → Prog (TpuEff nD τ sig (Elt F) Λ₀ .tc) α} :
    iprop(records m κ ∗ ownPts c (shTok j) (ownV m c) ∗ slotPts (fwd j c) j fd
        ∗ owes (c : Thread nD τ) (owedOn c ∅ (rem j.val)) W
        ∗ dutyTok ER (sendCell c j) 0 (0 : J) ∗ dutyTok ER (recvCell (fwd j c) j) 0 (0 : J))
      ⊢ iprop(((cred (tallyAt (sendCell c j) () N) ∗ owes (c : Thread nD τ) (owedOn c ∅ (rem (j.val + 1))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownM (.remote (Dev.tc n : Thread nD τ) (slotM j) (.dma (sendSem j)) hsc) (.dma (recvSem j)) hsrc hdst hsem) k) Q) := by
  subst hn; exact sendR m κ c j fd

set_option hygiene false in
/-- The last transfer (offset index 30). -/
macro "send_last" : tactic => `(tactic| (
  ihave Hp := (peelR (F := F) (30 : J) _) $$ Hsnd
  icases Hp with ⟨⟨⟨%fd, Hd⟩, Hsrc, Hts, Htv⟩, Hsnd⟩
  iapply (sendL m κ c (30 : J) _ (dev62_eq c) fd) $$ [HO Hd Hsrc Hts Htv]
  · isplitr; · iexact HR
    isplitl [Hsrc]; · iexact Hsrc
    isplitl [Hd]; · iexact Hd
    isplitl [HO]; · iexact HO
    isplitl [Hts]; · iexact Hts
    iexact Htv
  iintro ⟨Hc, HO⟩
  ihave HcS := (accR (F := F) (30 : J) (fun j : J => cred (tallyAt (sendCell c j) () N))) $$ [Hc HcS]
  · isplitl [Hc]; · iexact Hc
    iexact HcS))

/-- A landing row and a share of the device's row, folded back into their names. -/
theorem slotPts_fold (c : Dev nD) (j : J) (f : Buf (Elt F) ((slotM j : Memref sig .tc .vmem S1x768 .f32).view.loc (c : Thread nD τ))) :
    ((slotM j : Memref sig .tc .vmem S1x768 .f32).view.loc (c : Thread nD τ) ↦[(slotM j : Memref sig .tc .vmem S1x768 .f32).view.set]{fullShare} f : sProp 𝕄) ⊢ slotPts c j f :=
  Entails.of_eq rfl
theorem ownPts_fold (c : Dev nD) (q : PosShare TreeShare) (v : Buf (Elt F) ((ownM : Memref sig .tc .vmem S1x768 .f32).view.loc (c : Thread nD τ))) :
    ((ownM : Memref sig .tc .vmem S1x768 .f32).view.loc (c : Thread nD τ) ↦[(ownM : Memref sig .tc .vmem S1x768 .f32).view.set]{q} v : sProp 𝕄) ⊢ ownPts c q v :=
  Entails.of_eq rfl

/-- The stored row after the last store: the maximum of the device's row and the received rows. -/
theorem out_after (c : Dev nD) (g1 : Buf (Elt F) ((c : Thread nD τ).loc cc0_stg1_0)) :
    (oM : Memref sig .tc .vmem S1x768 .f32).view.writes (Elt F) g1
      [⟨Rect.unit (s := S1x768) ![0, 0] S1x768.size inb_S1x768_S1x768_0_0,
        k0_pay2 ((ownM : Memref sig .tc .vmem S1x768 .f32).view.readAt (Elt F) (Rect.unit (s := S1x768) ![0, 0] S1x768.size inb_S1x768_S1x768_0_0).toLoadRect (ownV m c))
          ((commM : Memref sig .tc .vmem S31x1x768 .f32).view.readAt (Elt F) (Rect.unit (s := S31x1x768) ![0, 0, 0] S31x1x768.size inb_S31x1x768_S31x1x768_0_0_0).toLoadRect (commV m c))⟩]
      = outV m c := by
  rw [View.writes_singleton, read_own, read_comm]; exact write_out g1 _

set_option hygiene false in
/-- One receive wait (offset index `j`): its credit and position out of the family, the cell's invariant; the step; the
    new position and the landed row into their family. -/
macro "recv_step" j:term:max j':term:max : tactic => `(tactic| (
  ihave Hp := (peelS (F := F) ($j : J) ($j' : J) rfl _) $$ Hrv
  icases Hp with ⟨⟨Hc, Hat⟩, Hrv⟩
  ihave #HIv := (inv_recv m κ c ($j : J)) $$ HR
  sl_exec
  ihave Hat_pay1 := (slotPts_fold (F := F) c ($j : J) (commV m c)) $$ Hat_pay1
  ihave HrO := (accS (F := F) ($j : J) ($j' : J) rfl (fun j : J => iprop(atPos ER (recvCell c j) 1 ∅ 0 ∗ slotPts c j (commV m c)))) $$ [Hat Hat_pay1 HrO]
  · isplitl [Hat Hat_pay1]
    · isplitl [Hat]; · iexact Hat
      iexact Hat_pay1
    iexact HrO
  iclear HIv Hat_reached))

set_option hygiene false in
macro "recv_last" : tactic => `(tactic| (
  ihave Hp := (peelR (F := F) (30 : J) _) $$ Hrv
  icases Hp with ⟨⟨Hc, Hat⟩, Hrv⟩
  ihave #HIv := (inv_recv m κ c (30 : J)) $$ HR
  sl_exec
  ihave Hat_pay1 := (slotPts_fold (F := F) c (30 : J) (commV m c)) $$ Hat_pay1
  ihave HrO := (accR (F := F) (30 : J) (fun j : J => iprop(atPos ER (recvCell c j) 1 ∅ 0 ∗ slotPts c j (commV m c)))) $$ [Hat Hat_pay1 HrO]
  · isplitl [Hat Hat_pay1]
    · isplitl [Hat]; · iexact Hat
      iexact Hat_pay1
    iexact HrO
  iclear HIv Hat_reached Hrv))

set_option hygiene false in
/-- One send wait (offset index `j`): the share of the device's row the transfer read comes back. -/
macro "sendw_step" j:term:max j':term:max : tactic => `(tactic| (
  ihave Hp := (peelS (F := F) ($j : J) ($j' : J) rfl _) $$ Hsw
  icases Hp with ⟨⟨Hc, Hat⟩, Hsw⟩
  ihave #HIs := (inv_send m κ c ($j : J)) $$ HR
  sl_exec
  ihave Hat_pay1 := (ownPts_fold (F := F) c (shTok ($j : J)) (ownV m c)) $$ Hat_pay1
  ihave HsO := (accS (F := F) ($j : J) ($j' : J) rfl (fun j : J => iprop(atPos ER (sendCell c j) 1 ∅ 0 ∗ ownPts c (shTok j) (ownV m c)))) $$ [Hat Hat_pay1 HsO]
  · isplitl [Hat Hat_pay1]
    · isplitl [Hat]; · iexact Hat
      iexact Hat_pay1
    iexact HsO
  iclear HIs Hat_reached))

set_option hygiene false in
macro "sendw_last" : tactic => `(tactic| (
  ihave Hp := (peelR (F := F) (30 : J) _) $$ Hsw
  icases Hp with ⟨⟨Hc, Hat⟩, Hsw⟩
  ihave #HIs := (inv_send m κ c (30 : J)) $$ HR
  sl_exec
  ihave Hat_pay1 := (ownPts_fold (F := F) c (shTok (30 : J)) (ownV m c)) $$ Hat_pay1
  ihave HsO := (accR (F := F) (30 : J) (fun j : J => iprop(atPos ER (sendCell c j) 1 ∅ 0 ∗ ownPts c (shTok j) (ownV m c)))) $$ [Hat Hat_pay1 HsO]
  · isplitl [Hat Hat_pay1]
    · isplitl [Hat]; · iexact Hat
      iexact Hat_pay1
    iexact HsO
  iclear HIs Hat_reached Hsw))

/-- The bookkeeping lemmas with the next index named, so that every state is spelt at a literal index. -/
theorem peelS (j j' : J) (h : j'.val = j.val + 1) (Φ : J → sProp 𝕄) : bigSep (rem j.val) Φ ⊢ iprop(Φ j ∗ bigSep (rem j'.val) Φ) := by
  rw [h]; exact peelR j Φ
theorem accS (j j' : J) (h : j'.val = j.val + 1) (Φ : J → sProp 𝕄) : iprop(Φ j ∗ bigSep (done j.val) Φ) ⊢ bigSep (done j'.val) Φ := by
  rw [h]; exact accR j Φ
theorem owed_sigS (c : Dev nD) (j j' : J) (h : j'.val = j.val + 1) (T : Finset J) :
    owedOn c (rem j.val) T = owedOn c (rem j'.val) T + tallyAt (barCell (fwd j c)) () 1 := by
  rw [h]; exact owed_sig c j T

set_option hygiene false in
/-- One signal (offset index `j`, paying the peer's duty `k = 30 - j`): its token and landing row out of the family, the
    peer cell's invariant and the two marks, the unit it pays last in what is owed; then the step. -/
macro "sig_step" j:term:max j':term:max k:term:max : tactic => `(tactic| (
  ihave Hp := (peelS (F := F) ($j : J) ($j' : J) rfl _) $$ Hsig
  icases Hp with ⟨⟨Ht, ⟨%fs, Hs⟩⟩, Hsig⟩
  ihave Ht := (Entails.of_eq (show (dutyTok ER (barCell (fwd ($j : J) c)) 0 (Fin.rev ($j : J)) : sProp 𝕄) = dutyTok ER (barCell (fwd ($j : J) c)) 0 ($k : J) from rfl)) $$ Ht
  ihave Hs := (Entails.of_eq (show (slotPts (F := F) c (Fin.rev ($j : J)) fs) = ((slotM ($k : J) : Memref sig .tc .vmem S1x768 .f32).view.loc (c : Thread nD τ) ↦[(slotM ($k : J) : Memref sig .tc .vmem S1x768 .f32).view.set]{fullShare} fs : sProp 𝕄) from rfl)) $$ Hs
  ihave #HIb := (inv_bar m κ (fwd ($j : J) c)) $$ HR
  ihave #HRb := (reached_bar m κ (fwd ($j : J) c)) $$ HR
  ihave #HRv := (reached_recv m κ c ($k : J)) $$ HR
  rw [owed_sigS c ($j : J) ($j' : J) rfl]
  sl_exec
  iclear HIb HRb HRv))

set_option hygiene false in
/-- The last signal (offset index 30, paying the peer's duty 0); the run goes on through the device's own loads and
    store to the wait on its barrier cell. -/
macro "sig_last" : tactic => `(tactic| (
  ihave Hp := (peelR (F := F) (30 : J) _) $$ Hsig
  icases Hp with ⟨⟨Ht, ⟨%fs, Hs⟩⟩, Hsig⟩
  ihave Ht := (Entails.of_eq (show (dutyTok ER (barCell (fwd (30 : J) c)) 0 (Fin.rev (30 : J)) : sProp 𝕄) = dutyTok ER (barCell (fwd (30 : J) c)) 0 (0 : J) from rfl)) $$ Ht
  ihave Hs := (Entails.of_eq (show (slotPts (F := F) c (Fin.rev (30 : J)) fs) = ((slotM (0 : J) : Memref sig .tc .vmem S1x768 .f32).view.loc (c : Thread nD τ) ↦[(slotM (0 : J) : Memref sig .tc .vmem S1x768 .f32).view.set]{fullShare} fs : sProp 𝕄) from rfl)) $$ Hs
  ihave #HIb := (inv_bar m κ (fwd (30 : J) c)) $$ HR
  ihave #HRb := (reached_bar m κ (fwd (30 : J) c)) $$ HR
  ihave #HRv := (reached_recv m κ c (0 : J)) $$ HR
  rw [owed_sig c (30 : J)]
  sl_exec))

set_option maxRecDepth 65536 in
set_option maxHeartbeats 8000000 in
theorem sound_body (c : Dev nD) :
    bodyPre m c ⊢ wp frame (wpE (defs₀ (F := F)) 𝒱₀ c none) Set.univ (theBody (F := F)) (fun _ => bodyPost m c) := by
  unfold bodyPre Φ₀ start ghost linear
  iintro ⟨⟨⟨⟨%κ, #HR, HatB, HatS, HatV, HtB, HtV, HtS⟩, HcB, HcV, #Hlev⟩, ⟨%f0, Hown⟩, ⟨%f1, Hcomm⟩⟩, Ho, ⟨%d0, %g0, %hg0, Hx⟩, ⟨%d1, %g1, %hg1, Hout⟩⟩
  have hx : g0 = xOf m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl, O₀_eq]
  unfold theBody
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel
  simp only [semSignalWord, semWaitWord, Prog.lift, Prog.bind_op, Prog.bind_ret, Prog.pure_eq_ret, wp_deviceId]
  dev_simp
  -- the 31 signals: each hands the peer the row of this device's landing buffer that peer will write
  ihave Hsig := (signal_res (F := F) c f1) $$ [HtB Hcomm]
  · isplitl [HtB]; · iexact HtB
    iexact Hcomm
  ihave Hsig := (startR (F := F) _) $$ Hsig
  sig_step 0 1 30
  sig_step 1 2 29
  sig_step 2 3 28
  sig_step 3 4 27
  sig_step 4 5 26
  sig_step 5 6 25
  sig_step 6 7 24
  sig_step 7 8 23
  sig_step 8 9 22
  sig_step 9 10 21
  sig_step 10 11 20
  sig_step 11 12 19
  sig_step 12 13 18
  sig_step 13 14 17
  sig_step 14 15 16
  sig_step 15 16 15
  sig_step 16 17 14
  sig_step 17 18 13
  sig_step 18 19 12
  sig_step 19 20 11
  sig_step 20 21 10
  sig_step 21 22 9
  sig_step 22 23 8
  sig_step 23 24 7
  sig_step 24 25 6
  sig_step 25 26 5
  sig_step 26 27 4
  sig_step 27 28 3
  sig_step 28 29 2
  sig_step 29 30 1
  -- the wait on the device's own barrier cell: its invariant, and that what is owed then (receive credit only) sits above it
  ihave #HIbc := (inv_bar m κ c) $$ HR
  have hmw : (levAts L lv : sProp 𝕄) ⊢ MayWait (c : Thread nD τ) (.reg barS) () (owedOn c (rem ((30 : J).val + 1)) (rem (0 : J).val)) := by
    rw [owed_after_signals]; exact mayWait_bar c _
  ihave Hx := (Entails.of_eq (x_pts (F := F) c fullShare _)) $$ Hx
  ihave Hown := (Entails.of_eq (own_pts (F := F) c fullShare _)) $$ Hown
  ihave Hout := (Entails.of_eq (o_pts (F := F) c fullShare _)) $$ Hout
  sig_last
  iclear HIb HRb HRv Hsig
  rw [own_after m c f0, owed_after_signals]
  -- the device's row in 32 shares: one for each transfer reading it, one kept
  ihave Hown := (Entails.of_eq (own_pts (F := F) c fullShare _).symm) $$ Hown
  ihave Hsh := (own_shares (F := F) c (ownV m c)).1 $$ Hown
  icases Hsh with ⟨HownK, HownT⟩
  -- the 31 transfers: each takes the peer's landing row (from that peer's barrier signal), a share of the device's row
  -- and the two duty tokens
  ihave Hsnd := (send_res m c) $$ [HatB_pay1 HownT HtS HtV]
  · isplitl [HatB_pay1]; · iexact HatB_pay1
    isplitl [HownT]; · iexact HownT
    isplitl [HtS]; · iexact HtS
    iexact HtV
  ihave Hsnd := (startR (F := F) _) $$ Hsnd
  ihave HcS := (startAcc (F := F) (fun j : J => cred (tallyAt (sendCell c j) () N))) $$ []
  · iempintro
  send_step 0 1 dev32_eq
  send_step 1 2 dev33_eq
  send_step 2 3 dev34_eq
  send_step 3 4 dev35_eq
  send_step 4 5 dev36_eq
  send_step 5 6 dev37_eq
  send_step 6 7 dev38_eq
  send_step 7 8 dev39_eq
  send_step 8 9 dev40_eq
  send_step 9 10 dev41_eq
  send_step 10 11 dev42_eq
  send_step 11 12 dev43_eq
  send_step 12 13 dev44_eq
  send_step 13 14 dev45_eq
  send_step 14 15 dev46_eq
  send_step 15 16 dev47_eq
  send_step 16 17 dev48_eq
  send_step 17 18 dev49_eq
  send_step 18 19 dev50_eq
  send_step 19 20 dev51_eq
  send_step 20 21 dev52_eq
  send_step 21 22 dev53_eq
  send_step 22 23 dev54_eq
  send_step 23 24 dev55_eq
  send_step 24 25 dev56_eq
  send_step 25 26 dev57_eq
  send_step 26 27 dev58_eq
  send_step 27 28 dev59_eq
  send_step 28 29 dev60_eq
  send_step 29 30 dev61_eq
  send_last
  rw [owed_after_sends]
  -- the 31 receive waits
  ihave HcS := (endAcc (F := F) _) $$ HcS
  ihave Hrv := (recv_res (F := F) c) $$ [HcV HatV]
  · isplitl [HcV]; · iexact HcV
    iexact HatV
  ihave Hrv := (startR (F := F) _) $$ Hrv
  ihave HrO := (startAcc (F := F) (fun j : J => iprop(atPos ER (recvCell c j) 1 ∅ 0 ∗ slotPts c j (commV m c)))) $$ []
  · iempintro
  iclear Hsnd HatB_reached
  recv_step 0 1
  recv_step 1 2
  recv_step 2 3
  recv_step 3 4
  recv_step 4 5
  recv_step 5 6
  recv_step 6 7
  recv_step 7 8
  recv_step 8 9
  recv_step 9 10
  recv_step 10 11
  recv_step 11 12
  recv_step 12 13
  recv_step 13 14
  recv_step 14 15
  recv_step 15 16
  recv_step 16 17
  recv_step 17 18
  recv_step 18 19
  recv_step 19 20
  recv_step 20 21
  recv_step 21 22
  recv_step 22 23
  recv_step 23 24
  recv_step 24 25
  recv_step 25 26
  recv_step 26 27
  recv_step 27 28
  recv_step 28 29
  recv_step 29 30
  recv_last
  -- the landing buffer whole again, holding every peer's row; the final loads and the store
  ihave HrO := (endAcc (F := F) _) $$ HrO
  ihave Hq := (recv_out m c) $$ HrO
  icases Hq with ⟨HatV, Hcomm⟩
  ihave Hcomm := (Entails.of_eq (comm_pts (F := F) c fullShare _)) $$ Hcomm
  unfold ownPts
  sl_exec
  rw [out_after m c g1]
  -- the 31 send waits
  ihave Hsw := (sendw_res (F := F) c) $$ [HcS HatS]
  · isplitl [HcS]; · iexact HcS
    iexact HatS
  ihave Hsw := (startR (F := F) _) $$ Hsw
  ihave HsO := (startAcc (F := F) (fun j : J => iprop(atPos ER (sendCell c j) 1 ∅ 0 ∗ ownPts c (shTok j) (ownV m c)))) $$ []
  · iempintro
  sendw_step 0 1
  sendw_step 1 2
  sendw_step 2 3
  sendw_step 3 4
  sendw_step 4 5
  sendw_step 5 6
  sendw_step 6 7
  sendw_step 7 8
  sendw_step 8 9
  sendw_step 9 10
  sendw_step 10 11
  sendw_step 11 12
  sendw_step 12 13
  sendw_step 13 14
  sendw_step 14 15
  sendw_step 15 16
  sendw_step 16 17
  sendw_step 17 18
  sendw_step 18 19
  sendw_step 19 20
  sendw_step 20 21
  sendw_step 21 22
  sendw_step 22 23
  sendw_step 23 24
  sendw_step 24 25
  sendw_step 25 26
  sendw_step 26 27
  sendw_step 27 28
  sendw_step 28 29
  sendw_step 29 30
  sendw_last
  -- the device's row whole again; the 62 transfer cells close; the invariant after the point
  ihave HsO := (endAcc (F := F) _) $$ HsO
  ihave HownK := (ownPts_fold (F := F) c shKeep (ownV m c)) $$ HownK
  ihave Hq := (sendw_out m c) $$ [HownK HsO]
  · isplitl [HownK]; · iexact HownK
    iexact HsO
  icases Hq with ⟨HatS, Hown⟩
  ihave Hcomm := (Entails.of_eq (comm_pts (F := F) c fullShare _).symm) $$ Hcomm
  ihave Hx := (Entails.of_eq (x_pts (F := F) c fullShare _).symm) $$ Hx
  ihave Hout := (Entails.of_eq (o_pts (F := F) c fullShare _).symm) $$ Hout
  imod (close_all m κ c) $$ [HatS HatV] with ⟨HzS, HzV⟩
  · isplitr; · iexact HR
    isplitl [HatS]; · iexact HatS
    iexact HatV
  rw [wp_ret]; imodintro
  unfold bodyPost Φ₁ Dat.owesAt Pipeline.owesWithin
  rw [show (dats m 0 c).owed t₀.succ = 0 from rfl]
  isplitl [Hown Hcomm HzS HzV]
  · isplitl [Hown]; · iexists _; iexact Hown
    isplitl [Hcomm]; · iexists _; iexact Hcomm
    isplitl [HzS]; · iexact HzS
    iexact HzV
  isplitl [HO]
  · iexists _
    isplitr
    swap
    · iexact HO
    · ipureintro; exact fun _ _ => Or.inl trivial
  isplitl [Hx]
  · iexists _; isplitr; · (ipureintro; rfl)
    iexact Hx
  iexists _; isplitr; · (ipureintro; rfl)
  iexact Hout

theorem body_obligation (c : Dev nD) : BodyObligation (dats (F := F) m 0 c) (defs₀ (F := F)) 𝒱₀ () Set.univ :=
  body_obligation_of m c (sound_body m c)

/-- info: 'Cert.Kernel.AllMax.sound_body' depends on axioms: [propext, Classical.choice, Quot.sound] -/
#guard_msgs in #print axioms sound_body

end Cert.Kernel.AllMax

end
-- ==== Proof.Kernel.Launch.lean ====
import proofs.«900910_g7700000000000911_dist_max_ax0_shard0_i_m1536_n768_v7x_i32_f32_1_alg».proof.Proof.Kernel.Body
import Idealize.ShloMosaic.Lib.Pipeline.Launch
import Idealize.ShloMosaic.Lib.Pipeline.Kit
import Idealize.ShloMosaic.Lib.Pipeline.Value
import Idealize.ShloMosaic.Lib.Rounds

/-! The launch: every device's body obligation, the cells funded and allocated for all devices at once, and the run of @main.

The 32 x 63 cells of the exchange are funded from one launch element; every device's 62 transfer semaphores and its
barrier semaphore, all at zero, become the cells' invariants under one update, and the duty tokens minted on a
device's own cells are dealt to the devices that pay them: the token of duty `k` of device `c`'s barrier cell to
`fwd k c`, which reaches `c` with the complementary offset index; the token of receive cell `(c, j)` to `bwd j c`,
whose transfer `j` lands there. The credit the launch deals a device for what the others owe its cells is 31 units on
its barrier cell and one row's credit on each receive cell. -/

noncomputable section

namespace Cert.Kernel.AllMax

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores and the staging semaphores -/

/-- The kernel's own semaphores: the 31 send and the 31 receive semaphores of the transfers. -/
abbrev osem : J ⊕ J → SemLoc sig := fun
  | .inl j => .dma (sendSem j)
  | .inr j => .dma (recvSem j)

/-- The staging semaphores are the DMA semaphores 0 and 1. -/
theorem stage_sem_lt (w : Fin cfg0.W) (s : Fin (cfg0.win w).nbuf) : ((cfg0.win w).sem s).val < 2 := by
  fin_cases w <;> fin_cases s <;> decide

theorem ownSemFacts : Pipeline.OwnSemFacts cfg0.spec osem where
  isScoped := by
    rintro (j | j)
    · revert j; decide +kernel
    · revert j; decide +kernel
  inj := by
    rintro (j | j) (j' | j') h
    · exact congrArg Sum.inl (sendSem_inj j j' (SemLoc.dma.inj h))
    · exact absurd (SemLoc.dma.inj h) (sendSem_ne_recvSem j j')
    · exact absurd (SemLoc.dma.inj h).symm (sendSem_ne_recvSem j' j)
    · exact congrArg Sum.inr (recvSem_inj j j' (SemLoc.dma.inj h))
  disj := by
    rintro (j | j) w s h
    · have h' : (sendSem j).val = ((cfg0.win w).sem s).val := congrArg (fun q : DmaSem sig => q.val) (SemLoc.dma.inj h)
      have := stage_sem_lt w s
      rw [sendSem_val] at h'; omega
    · have h' : (recvSem j).val = ((cfg0.win w).sem s).val := congrArg (fun q : DmaSem sig => q.val) (SemLoc.dma.inj h)
      have := stage_sem_lt w s
      rw [recvSem_val] at h'; omega

theorem share_eq (c : Dev nD) (w : Fin cfg0.W) : (dats m 0 c).share w = fullShare := by unfold Dat.share; split <;> rfl

/-! ## The cells' and the tokens' sets, the launch element -/

/-- The names of the duty tokens minted on a device's own cells: its barrier cell's 31 duties, and the one duty of
    each send and each receive cell. -/
abbrev TK : Type := J ⊕ (J ⊕ J)

abbrev tokOf (ct : Dev nD × TK) : GSem nD τ sig × ℕ × J := match ct.2 with
  | .inl k => (barCell ct.1, 0, k)
  | .inr (.inl j) => (sendCell ct.1 j, 0, 0)
  | .inr (.inr j) => (recvCell ct.1 j, 0, 0)

theorem tokOf_injective : Function.Injective (tokOf : Dev nD × TK → GSem nD τ sig × ℕ × J) := by
  rintro ⟨c, t⟩ ⟨c', t'⟩ h
  have h1 : c = c' := by
    have := congrArg (fun x : GSem nD τ sig × ℕ × J => x.1.1.1) h
    rcases t with k | j | j <;> rcases t' with k' | j' | j' <;> exact this
  subst h1
  have hs := congrArg (fun x : GSem nD τ sig × ℕ × J => x.1.2) h
  have hd := congrArg (fun x : GSem nD τ sig × ℕ × J => x.2.2) h
  rcases t with k | j | j <;> rcases t' with k' | j' | j'
  · have e : k = k' := hd
    rw [e]
  · exact absurd hs (fun h' => by cases h')
  · exact absurd hs (fun h' => by cases h')
  · exact absurd hs (fun h' => by cases h')
  · have e : j = j' := sendSem_inj j j' (SemLoc.dma.inj hs)
    rw [e]
  · exact absurd (SemLoc.dma.inj hs) (sendSem_ne_recvSem j j')
  · exact absurd hs (fun h' => by cases h')
  · exact absurd (SemLoc.dma.inj hs).symm (sendSem_ne_recvSem j' j)
  · have e : j = j' := recvSem_inj j j' (SemLoc.dma.inj hs)
    rw [e]

def allToks : Finset (GSem nD τ sig × ℕ × J) := Finset.univ.map ⟨tokOf, tokOf_injective⟩

/-- The launch element: the pipeline's staging cells and their tokens, the exchange's cells and theirs. -/
def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun k : J => dutyTok ER (barCell c) 0 k)
    ∗ (bigSep Finset.univ fun j : J => dutyTok ER (sendCell c j) 0 (0 : J))
    ∗ (bigSep Finset.univ fun j : J => dutyTok ER (recvCell c j) 0 (0 : J)))

/-- What the launch element deals device `c`: its cells' round states at counter zero, its positions on them with
    round 0 of each reached, and the tokens of their duties. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)

/-- What the one update at launch makes of it: the device's ghost state `ghost` at some names. -/
def G' (c : Dev nD) : sProp 𝕄 := iprop(∃ κ, ghost m κ c)

/-- A device's 63 cells one kind at a time. -/
theorem bigSep_CK (Φ : CK → sProp 𝕄) :
    bigSep Finset.univ Φ = iprop(Φ (.inl ()) ∗ (bigSep Finset.univ fun j : J => Φ (.inr (.inl j))) ∗ (bigSep Finset.univ fun j : J => Φ (.inr (.inr j)))) := by
  rw [bigSep_univ_sum, bigSep_univ_sum, bigSep_univ_of_subsingleton ()]; rfl

theorem fund_ring : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The one update at launch: every cell's invariant allocated, the tokens dealt to their payers -/

/-- The send and receive semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun j : J => semVal (sendCell c j) 0) ∗ bigSep Finset.univ fun j : J => semVal (recvCell c j) 0) := by
  unfold Pipeline.ownSems0; rw [bigSep_univ_sum]; rfl
/-- the barrier semaphore is the core's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS]; · iexact HS
  iexact HV

/-- One device's cells: each semaphore at zero with its round state becomes the cell's invariant at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k : CK => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens device `c` pays with: on the barrier cell of each peer `fwd j c` the duty named by the complementary
    offset index, each peer's receive duty, its own send duties. -/
def payToks (c : Dev nD) : sProp 𝕄 :=
  iprop((bigSep Finset.univ fun j : J => dutyTok ER (barCell (fwd j c)) 0 (Fin.rev j))
    ∗ (bigSep Finset.univ fun j : J => dutyTok ER (recvCell (fwd j c) j) 0 (0 : J))
    ∗ (bigSep Finset.univ fun j : J => dutyTok ER (sendCell c j) 0 (0 : J)))

theorem ghost_intro (κ : Dev nD × CK → ℕ) (c : Dev nD) : iprop(records m κ ∗ linear (F := F) c) ⊢ G' m c := by
  unfold G' ghost
  iintro H
  iexists κ
  iexact H

theorem linear_intro (c : Dev nD) :
    iprop((bigSep Finset.univ fun k : CK => (atPos ER (kcell (c, k)) 0 ∅ 0 : sProp 𝕄)) ∗ payToks c) ⊢ linear (F := F) c := by
  rw [bigSep_CK]; unfold linear payToks
  iintro ⟨⟨HaB, HaS, HaV⟩, HtB, HtV, HtS⟩
  isplitl [HaB]; · iexact HaB
  isplitl [HaS]; · iexact HaS
  isplitl [HaV]; · iexact HaV
  isplitl [HtB]; · iexact HtB
  isplitl [HtV]; · iexact HtV
  iexact HtS

/-- The tokens dealt to their payers. Duty `k` of `c`'s barrier cell is paid by `fwd k c`, which reaches `c` with the
    complementary offset index: over all devices, the tokens `(c, k)` are the tokens `(fwd j d, rev j)`. The duty of
    receive cell `(c, j)` is paid by `bwd j c`: the tokens `(c, j)` are the tokens `(fwd j d, j)`. -/
theorem toks_around : (bigSep Finset.univ fun c : Dev nD => (toks c : sProp 𝕄)) ⊢ bigSep Finset.univ fun c : Dev nD => payToks c := by
  have hB : (bigSep Finset.univ fun c : Dev nD => bigSep Finset.univ fun k : J => (dutyTok ER (barCell c) 0 k : sProp 𝕄))
      = bigSep Finset.univ fun c : Dev nD => bigSep Finset.univ fun j : J => (dutyTok ER (barCell (fwd j c)) 0 (Fin.rev j) : sProp 𝕄) :=
    calc (bigSep Finset.univ fun c : Dev nD => bigSep Finset.univ fun k : J => (dutyTok ER (barCell c) 0 k : sProp 𝕄))
        = bigSep Finset.univ fun k : J => bigSep Finset.univ fun c : Dev nD => (dutyTok ER (barCell c) 0 k : sProp 𝕄) :=
          bigSep_univ_comm (fun (c : Dev nD) (k : J) => (dutyTok ER (barCell c) 0 k : sProp 𝕄))
      _ = bigSep Finset.univ fun j : J => bigSep Finset.univ fun c : Dev nD => (dutyTok ER (barCell c) 0 (Fin.rev j) : sProp 𝕄) :=
          bigSep_univ_equiv Fin.revPerm (fun k : J => bigSep Finset.univ fun c : Dev nD => (dutyTok ER (barCell c) 0 k : sProp 𝕄))
      _ = bigSep Finset.univ fun j : J => bigSep Finset.univ fun c : Dev nD => (dutyTok ER (barCell (fwd j c)) 0 (Fin.rev j) : sProp 𝕄) :=
          bigSep_congr fun j _ => bigSep_univ_equiv (fwdEquiv j) (fun c : Dev nD => (dutyTok ER (barCell c) 0 (Fin.rev j) : sProp 𝕄))
      _ = bigSep Finset.univ fun c : Dev nD => bigSep Finset.univ fun j : J => (dutyTok ER (barCell (fwd j c)) 0 (Fin.rev j) : sProp 𝕄) :=
          bigSep_univ_comm (fun (j : J) (c : Dev nD) => (dutyTok ER (barCell (fwd j c)) 0 (Fin.rev j) : sProp 𝕄))
  have hR : (bigSep Finset.univ fun c : Dev nD => bigSep Finset.univ fun j : J => (dutyTok ER (recvCell c j) 0 (0 : J) : sProp 𝕄))
      = bigSep Finset.univ fun c : Dev nD => bigSep Finset.univ fun j : J => (dutyTok ER (recvCell (fwd j c) j) 0 (0 : J) : sProp 𝕄) :=
    calc (bigSep Finset.univ fun c : Dev nD => bigSep Finset.univ fun j : J => (dutyTok ER (recvCell c j) 0 (0 : J) : sProp 𝕄))
        = bigSep Finset.univ fun j : J => bigSep Finset.univ fun c : Dev nD => (dutyTok ER (recvCell c j) 0 (0 : J) : sProp 𝕄) :=
          bigSep_univ_comm (fun (c : Dev nD) (j : J) => (dutyTok ER (recvCell c j) 0 (0 : J) : sProp 𝕄))
      _ = bigSep Finset.univ fun j : J => bigSep Finset.univ fun c : Dev nD => (dutyTok ER (recvCell (fwd j c) j) 0 (0 : J) : sProp 𝕄) :=
          bigSep_congr fun j _ => bigSep_univ_equiv (fwdEquiv j) (fun c : Dev nD => (dutyTok ER (recvCell c j) 0 (0 : J) : sProp 𝕄))
      _ = bigSep Finset.univ fun c : Dev nD => bigSep Finset.univ fun j : J => (dutyTok ER (recvCell (fwd j c) j) 0 (0 : J) : sProp 𝕄) :=
          bigSep_univ_comm (fun (j : J) (c : Dev nD) => (dutyTok ER (recvCell (fwd j c) j) 0 (0 : J) : sProp 𝕄))
  unfold toks payToks
  rw [bigSep_sep', bigSep_sep', bigSep_sep', bigSep_sep', hB, hR]
  iintro ⟨H1, H2, H3⟩
  isplitl [H1]; · iexact H1
  isplitl [H3]; · iexact H3
  iexact H2

theorem regroup :
    (bigSep Finset.univ fun c : Dev nD => iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => linear_intro (F := F) c))
    isplitl [Hat]; · iexact Hat
    iexact Htk

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem nsmul_tallyAt (g : GSem nD τ sig) (n : ℕ) : n • (tallyAt g () 1 : CellTallies nD τ sig Unit) = tallyAt g () n := by
  induction n with
  | zero => rw [zero_smul, tallyAt_zero]
  | succ n ih => rw [succ_nsmul, ih, tallyAt_add]

/-- The 31 peers' units on one barrier cell are its 31 units. -/
theorem cred_bar (c : Dev nD) :
    (bigSep Finset.univ fun _ : J => (cred (tallyAt (barCell c) () 1) : sProp 𝕄)) ⊢ cred (tallyAt (barCell c) () 31) := by
  refine (Entails.of_eq (Pipeline.cred_finsetSum (Finset.univ : Finset J) (fun _ => (tallyAt (barCell c) () 1 : CellTallies nD τ sig Unit))).symm).trans
    (Entails.of_eq (congrArg cred ?_))
  rw [Finset.sum_const, Finset.card_univ, Fintype.card_fin, nsmul_tallyAt]

/-- What the launch deals device `c` for what the others owe its cells: for each offset index `j` the unit that
    `bwd j c` owes its barrier cell and the row's credit that device owes its receive cell `j`. -/
theorem creds (c : Dev nD) :
    (Pipeline.launchCred O₀ c : sProp 𝕄)
      ⊢ iprop(cred (tallyAt (barCell c) () 31) ∗ bigSep Finset.univ fun j : J => cred (tallyAt (recvCell c j) () N)) := by
  have e : (Pipeline.launchCred O₀ c : sProp 𝕄)
      = iprop((bigSep Finset.univ fun j : J => Pipeline.launchCred (fun d => bt d j) c) ∗ bigSep Finset.univ fun j : J => Pipeline.launchCred (fun d => rt d j) c) := by
    show (Pipeline.launchCred (fun d => (∑ j ∈ Finset.univ, bt d j) + ∑ j ∈ Finset.univ, rt d j) c : sProp 𝕄) = _
    rw [Pipeline.launchCred_add, Pipeline.launchCred_sum, Pipeline.launchCred_sum]
  rw [e]
  refine Idealize.SL.BI.sep_mono ((bigSep_mono fun j _ => ?_).trans (cred_bar (F := F) c)) (bigSep_mono fun j _ => ?_)
  · exact Pipeline.launchCred_tallyAt (.reg barS) (fwd j) (bwd j) (fwd_bwd j) (bwd_fwd j) () 1 c
  · exact Pipeline.launchCred_tallyAt (.dma (recvSem j)) (fwd j) (bwd j) (fwd_bwd j) (bwd_fwd j) () N c

/-! ## The launch theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H0, H1⟩
  isplitl [Hs]; · iexact Hs
  isplitl [H0]; · iexact H0
  iexact H1

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq, ownSems0_eq]
  unfold Φ₁
  iintro ⟨H0, H1, HzS, HzV⟩
  isplitr; · iempintro
  isplitl [HzS HzV]
  · isplitl [HzS] <;> iassumption
  isplitl [H0] <;> iassumption

/-- The pipeline waits on its two staging cells only, which sit below everything a device may owe. -/
theorem waits (c : Dev nD) : (levAts L lv : sProp 𝕄) ⊢ Pipeline.cellsWaits cfgs (dats m) () 0 c :=
  Pipeline.cellsWaits_intro cfgs (dats m) () 0 c fun w s t => by
    have hq : ((cfg0.win w).sem s).val < 33 := lt_trans (stage_sem_lt w s) (by decide)
    rcases t with ⟨_ | _, ht⟩
    · exact mayWait_low (F := F) c ((cfg0.win w).sem s) hq Finset.univ Finset.univ
    · have h := mayWait_low (F := F) c ((cfg0.win w).sem s) hq ∅ ∅
      rw [owedOn_empty] at h; exact h

/-! ## The final arrays -/

/-- The argument's array is never written. -/
theorem final_arg (c : Dev nD) : (dats m 0 c).arrAt (0 : Fin 2) cfg0.N = m ((c : Thread nD τ).loc main_arg0) :=
  (dats (F := F) m 0 c).arrAt_in (0 : Fin 2) rfl _

/-- The one write-back writes the stored row: the block at index 0, read through zero offsets, is the array. -/
theorem flushed_out (c : Dev nD) (t : Fin cfg0.N) (hf : (cfg0.win 1).flush t = true) :
    (dats m 0 c).flushed 1 t = ((cfg0.win 1).blk t).view.read (Elt F) (outV m c) := by
  have hz : (fun a => win0_1.index t a * main_v1.ty.shape.size a) = fun _ => 0 := funext fun a => Nat.zero_mul _
  exact (Memref.read_access_unit_zero (Elt F) main_v1 hz (fun a => by rw [congrFun hz a]; simp) (outV m c)).symm

/-- So the result array ends at the stored row: the point's block covers it. -/
theorem final_out (c : Dev nD) : (dats m 0 c).arrAt (1 : Fin 2) cfg0.N = outV m c :=
  (dats m 0 c).arrAt_eq_of_cover 1 (outV m c) (flushed_out m c) fun i =>
    ⟨t₀, flush0_1 t₀, by
      show i ∈ ((View.whole main_v1).slice (win0_1.rect t₀)).set
      rw [View.set_slice_whole, Rect.mem_set_unit]
      intro a
      refine ⟨?_, ?_⟩
      · show 0 * _ ≤ (i a : Nat)
        rw [Nat.zero_mul]; exact Nat.zero_le _
      · show (i a : Nat) < 0 * _ + _
        rw [Nat.zero_mul, Nat.zero_add]; exact (i a).isLt⟩

/-! ## The run -/

set_option maxRecDepth 8000 in
/-- The launch, for any proof of the devices' body obligations: from any memory with zero counters every weakly fair
    execution of @main on the 32 devices terminates without fault, each device's result array ends at the stored
    row and its argument array unchanged. -/
theorem run_main_of (hbody : ∀ c : Dev nD, BodyObligation (dats (F := F) m 0 c) (defs₀ (F := F)) 𝒱₀ () Set.univ) (ρ : Dev nD → PrngReg) :
    θ_run defs (onTc (τ := τ) (main (F := F))) ⟨m, fun _ => 0, ρ⟩ (fun r => ∀ c : Dev nD,
      r.2.mem ((c.tc : Thread nD τ).loc main_v1) = outV m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 1).trans (final_out m c), ((h c).1 0).trans (final_arg m c)⟩)

/-- info: 'Cert.Kernel.AllMax.run_main_of' depends on axioms: [propext, Classical.choice, Quot.sound] -/
#guard_msgs in #print axioms run_main_of

/-- From any memory with zero counters every weakly fair execution of @main on the 32 devices terminates without
    fault, each device's result array ends at the stored row and its argument array unchanged. -/
theorem run_main (ρ : Dev nD → PrngReg) :
    θ_run defs (onTc (τ := τ) (main (F := F))) ⟨m, fun _ => 0, ρ⟩ (fun r => ∀ c : Dev nD,
      r.2.mem ((c.tc : Thread nD τ).loc main_v1) = outV m c
      ∧ r.2.mem ((c.tc : Thread nD τ).loc main_arg0) = m ((c.tc : Thread nD τ).loc main_arg0)) :=
  run_main_of m (body_obligation m) ρ

end Cert.Kernel.AllMax

end
-- ==== Proof.Claims.lean ====
import proofs.«900910_g7700000000000911_dist_max_ax0_shard0_i_m1536_n768_v7x_i32_f32_1_alg».proof.Defs
import proofs.«900910_g7700000000000911_dist_max_ax0_shard0_i_m1536_n768_v7x_i32_f32_1_alg».proof.Proof.KernelIdeal.Launch
import proofs.«900910_g7700000000000911_dist_max_ax0_shard0_i_m1536_n768_v7x_i32_f32_1_alg».proof.Proof.KernelIdeal.ValueLaw
import proofs.«900910_g7700000000000911_dist_max_ax0_shard0_i_m1536_n768_v7x_i32_f32_1_alg».proof.Proof.KernelIdeal.Mem
import proofs.«900910_g7700000000000911_dist_max_ax0_shard0_i_m1536_n768_v7x_i32_f32_1_alg».proof.Proof.Kernel.Launch
import proofs.«900910_g7700000000000911_dist_max_ax0_shard0_i_m1536_n768_v7x_i32_f32_1_alg».proof.Proof.RefSide
import proofs.«900910_g7700000000000911_dist_max_ax0_shard0_i_m1536_n768_v7x_i32_f32_1_alg».proof.Proof.Gen.Pre_finite_inputs_Kernel
import proofs.«900910_g7700000000000911_dist_max_ax0_shard0_i_m1536_n768_v7x_i32_f32_1_alg».proof.Proof.Gen.Pre_finite_inputs_ReferenceIdeal

/-! The certificate's conjuncts, assembled from the runs and the value law.

Each frame is a run with the values dropped from its post. The algebraic conjunct names the reference's result row
as the common value: the reference's run ends at it by its own reading, and each device's run ends at the row it
stores, which the value law identifies with the reference's row once every device's staged block is its block of the
reference's whole array. -/

noncomputable section

namespace Cert.Proof.Claims

open Idealize.ShloMosaic Idealize.SL.Sem

/-- The kernel as printed runs and leaves its argument arrays unchanged. -/
theorem frame_kernel :
    Cert.frame_Kernel (hKernel := Cert.Kernel.Gen.facts)
      (hPre_finite_inputs_Kernel := Cert.Pre_finite_inputs_Kernel.Gen.facts) := fun m g _ =>
  (θ_run (Cert.Kernel.defs (F := Bits)) _ _).mono (fun _ h c => (h c).2)
    (Cert.Kernel.AllMax.run_main (F := Bits) m g)

/-- The idealized kernel runs and leaves its argument arrays unchanged. -/
theorem frame_kernelIdeal :
    Cert.frame_KernelIdeal (hKernelIdeal := Cert.KernelIdeal.Gen.facts)
      (hPre_finite_inputs_Kernel := Cert.Pre_finite_inputs_Kernel.Gen.facts) := fun m g _ =>
  (θ_run (Cert.KernelIdeal.defs (F := Ideal)) _ _).mono (fun _ h c => (h c).2)
    (Cert.KernelIdeal.AllMax.run_main (F := Ideal) m g)

/-- The reference runs and leaves its argument array unchanged. -/
theorem frame_referenceIdeal :
    Cert.frame_ReferenceIdeal (hReferenceIdeal := Cert.ReferenceIdeal.Gen.facts)
      (hPre_finite_inputs_ReferenceIdeal := Cert.Pre_finite_inputs_ReferenceIdeal.Gen.facts) := fun m g _ =>
  (θ_run (Cert.ReferenceIdeal.defs (F := Ideal)) _ _).mono (fun _ h c => (h c).2)
    (Cert.ReferenceIdeal.Value.run (F := Ideal) m g)

/-- The ideal pass rewrote no operation: nothing to preserve. -/
theorem preserves : Cert.preserves_Kernel_KernelIdeal := trivial

/-- At the ideal values every device's result row ends at the reference's row of column maxima of the whole array, and
    both programs leave their arguments unchanged. -/
theorem algebraic :
    Cert.algebraic_KernelIdeal_ReferenceIdeal (hKernelIdeal := Cert.KernelIdeal.Gen.facts)
      (hReferenceIdeal := Cert.ReferenceIdeal.Gen.facts)
      (hPre_finite_inputs_Kernel := Cert.Pre_finite_inputs_Kernel.Gen.facts) := by
  intro m g m' g' _ hagree
  refine ⟨Cert.ReferenceIdeal.Read.val_main_v1 (F := Ideal)
      (m' (((0 : Dev Cert.ReferenceIdeal.nD).tc : Thread Cert.ReferenceIdeal.nD Cert.ReferenceIdeal.τ).loc
        Cert.ReferenceIdeal.main_arg0)), ?_, ?_⟩
  · refine (θ_run (Cert.KernelIdeal.defs (F := Ideal)) _ _).mono (fun _ h c => ⟨(h c).1.trans ?_, (h c).2⟩)
      (Cert.KernelIdeal.AllMax.run_main (F := Ideal) m g)
    exact Cert.KernelIdeal.AllMax.outOf_eq_ref _ (fun d => Cert.KernelIdeal.AllMax.xOf m d)
      (fun d => (Cert.KernelIdeal.AllMax.xOf_eq m d).trans (hagree d)) c
  · exact (θ_run (Cert.ReferenceIdeal.defs (F := Ideal)) _ _).mono
      (fun _ h => ⟨(h 0).1.trans (Cert.ReferenceIdeal.Read.val_main_v1_eq _), (h 0).2⟩)
      (Cert.ReferenceIdeal.Value.run (F := Ideal) m' g')

end Cert.Proof.Claims

end
-- ==== Proof.lean ====
/- The proof of `Cert.Claim`: a maximum over the rows of a 49152 × 768 array cut into 32 blocks of 1536 rows, one block a
   device. Each device takes the column maxima of its block, tells its 31 peers through the barrier semaphore that its
   landing rows exist, sends its row of maxima to every peer and receives theirs, and stores the maximum of its own row and
   the 31 received ones: on every device the column maxima of the whole array, which is what the one-device reference
   computes (a maximum is associative, commutative and idempotent on the extended reals, and the reductions start from
   -inf, its identity). The protocol's termination and the result's value are in Proof/KernelIdeal (and, the same text for
   the word-level program, Proof/Kernel); the value law is Proof/KernelIdeal/ValueLaw.lean; the conjuncts are assembled in
   Proof/Claims.lean. -/
import proofs.«900910_g7700000000000911_dist_max_ax0_shard0_i_m1536_n768_v7x_i32_f32_1_alg».proof.Defs
import proofs.«900910_g7700000000000911_dist_max_ax0_shard0_i_m1536_n768_v7x_i32_f32_1_alg».proof.Proof.Gen.Kernel
import proofs.«900910_g7700000000000911_dist_max_ax0_shard0_i_m1536_n768_v7x_i32_f32_1_alg».proof.Proof.Gen.Kernel.Skeleton
import proofs.«900910_g7700000000000911_dist_max_ax0_shard0_i_m1536_n768_v7x_i32_f32_1_alg».proof.Proof.Gen.Kernel.Launch
import proofs.«900910_g7700000000000911_dist_max_ax0_shard0_i_m1536_n768_v7x_i32_f32_1_alg».proof.Proof.Gen.Kernel.Points
import proofs.«900910_g7700000000000911_dist_max_ax0_shard0_i_m1536_n768_v7x_i32_f32_1_alg».proof.Proof.Gen.Kernel.Frame
import proofs.«900910_g7700000000000911_dist_max_ax0_shard0_i_m1536_n768_v7x_i32_f32_1_alg».proof.Proof.Gen.KernelIdeal
import proofs.«900910_g7700000000000911_dist_max_ax0_shard0_i_m1536_n768_v7x_i32_f32_1_alg».proof.Proof.Gen.KernelIdeal.Skeleton
import proofs.«900910_g7700000000000911_dist_max_ax0_shard0_i_m1536_n768_v7x_i32_f32_1_alg».proof.Proof.Gen.KernelIdeal.Launch
import proofs.«900910_g7700000000000911_dist_max_ax0_shard0_i_m1536_n768_v7x_i32_f32_1_alg».proof.Proof.Gen.KernelIdeal.Points
import proofs.«900910_g7700000000000911_dist_max_ax0_shard0_i_m1536_n768_v7x_i32_f32_1_alg».proof.Proof.Gen.KernelIdeal.Frame
import proofs.«900910_g7700000000000911_dist_max_ax0_shard0_i_m1536_n768_v7x_i32_f32_1_alg».proof.Proof.Gen.ReferenceIdeal
import proofs.«900910_g7700000000000911_dist_max_ax0_shard0_i_m1536_n768_v7x_i32_f32_1_alg».proof.Proof.Gen.Pre_finite_inputs_Kernel
import proofs.«900910_g7700000000000911_dist_max_ax0_shard0_i_m1536_n768_v7x_i32_f32_1_alg».proof.Proof.Gen.Pre_finite_inputs_ReferenceIdeal
import proofs.«900910_g7700000000000911_dist_max_ax0_shard0_i_m1536_n768_v7x_i32_f32_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Claims.frame_kernel, Claims.frame_kernelIdeal, Claims.frame_referenceIdeal, Claims.preserves, Claims.algebraic⟩

end Cert.Proof

end
